-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x16384 : Shape := ⟨2, ![16384, 16384]⟩
abbrev S512x32 : Shape := ⟨2, ![512, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S32x16 .f32) (main_arg5 : FVec F S16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S16384x512 .f32) (main_arg1 : FVec F S16384x16384 .f32) (main_arg2 : FVec F S512x32 .f32) (main_arg3 : FVec F S32 .f32) (main_arg4 : FVec F S32x16 .f32) (main_arg5 : FVec F S16 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S512x32 .f32 := Host.absf main_arg2
  let main_cst_2 : FVec F S_ .f32 := constant S_ .f32 0x7F800000#32
  let main_v10 : FVec F S512x32 .f32 := broadcastInDim S512x32 ![] bcast_S_S512x32 main_cst_2
  let main_v11 : IVec S512x32 1 := cmpf .olt main_v9 main_v10
  let main_c_3 : IVec S_ 1 := constantI S_ 1 1#1
  let main_v12 : IVec S_ 1 := (fun x v => Host.reduce IntOp.andi x v reducesTo_S512x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_v13 main_v16
-- ==== Kernel.lean ====
abbrev S16384x512 : Shape := ⟨2, ![16384, 512]⟩
abbrev S16384x16384 : Shape := ⟨2, ![16384, 16384]⟩
abbrev S512x32 : Shape := ⟨2, ![512, 32]⟩
abbrev S32 : Shape := ⟨1, ![32]⟩
abbrev S32x16 : Shape := ⟨2, ![32, 16]⟩
abbrev S16 : Shape := ⟨1, ![16]⟩
abbrev S1x32 : Shape := ⟨2, ![1, 32]⟩
abbrev S16384x32 : Shape := ⟨2, ![16384, 32]⟩
abbrev S2048x512 : Shape := ⟨2, ![2048, 512]⟩
abbrev S2048x32 : Shape := ⟨2, ![2048, 32]⟩
abbrev S2048x2048 : Shape := ⟨2, ![2048, 2048]⟩
abbrev S1x16 : Shape := ⟨2, ![1, 16]⟩
abbrev S16384x16 : Shape := ⟨2, ![16384, 16]⟩
abbrev S2048x16 : Shape := ⟨2, ![2048, 16]⟩

abbrev nBuf : Space → Nat
  | .hbm => 12
  | .vmem => 26
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S1x32, .f32⟩
  | .hbm, ⟨7, _⟩ => ⟨S16384x32, .f32⟩
  | .hbm, ⟨8, _⟩ => ⟨S16384x32, .f32⟩
  | .hbm, ⟨9, _⟩ => ⟨S1x16, .f32⟩
  | .hbm, ⟨10, _⟩ => ⟨S16384x16, .f32⟩
  | .hbm, ⟨11, _⟩ => ⟨S16384x16, .f32⟩
  | .local _ .vmem, ⟨0, _⟩ => ⟨S2048x512, .f32⟩
  | .local _ .vmem, ⟨1, _⟩ => ⟨S2048x512, .f32⟩
  | .local _ .vmem, ⟨2, _⟩ => ⟨S512x32, .f32⟩
  | .local _ .vmem, ⟨3, _⟩ => ⟨S1x32, .f32⟩
  | .local _ .vmem, ⟨4, _⟩ => ⟨S2048x32, .f32⟩
  | .local _ .vmem, ⟨5, _⟩ => ⟨S2048x32, .f32⟩
  | .local _ .vmem, ⟨6, _⟩ => ⟨S2048x2048, .f32⟩
  | .local _ .vmem, ⟨7, _⟩ => ⟨S2048x2048, .f32⟩
  | .local _ .vmem, ⟨8, _⟩ => ⟨S2048x32, .f32⟩
  | .local _ .vmem, ⟨9, _⟩ => ⟨S2048x32, .f32⟩
  | .local _ .vmem, ⟨10, _⟩ => ⟨S2048x32, .f32⟩
  | .local _ .vmem, ⟨11, _⟩ => ⟨S2048x32, .f32⟩
  | .local _ .vmem, ⟨12, _⟩ => ⟨S2048x32, .f32⟩
  | .local _ .vmem, ⟨13, _⟩ => ⟨S2048x32, .f32⟩
  | .local _ .vmem, ⟨14, _⟩ => ⟨S2048x32, .f32⟩
  | .local _ .vmem, ⟨15, _⟩ => ⟨S32x16, .f32⟩
  | .local _ .vmem, ⟨16, _⟩ => ⟨S1x16, .f32⟩
  | .local _ .vmem, ⟨17, _⟩ => ⟨S2048x16, .f32⟩
  | .local _ .vmem, ⟨18, _⟩ => ⟨S2048x16, .f32⟩
  | .local _ .vmem, ⟨19, _⟩ => ⟨S2048x2048, .f32⟩
  | .local _ .vmem, ⟨20, _⟩ => ⟨S2048x2048, .f32⟩
  | .local _ .vmem, ⟨21, _⟩ => ⟨S2048x16, .f32⟩
  | .local _ .vmem, ⟨22, _⟩ => ⟨S2048x16, .f32⟩
  | .local _ .vmem, ⟨23, _⟩ => ⟨S2048x16, .f32⟩
  | .local _ .vmem, ⟨24, _⟩ => ⟨S2048x16, .f32⟩
  | .local _ .vmem, ⟨25, _⟩ => ⟨S2048x16, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

class Facts₀ : Prop where
  shapeCasts_S32_S1x32 : S32.ShapeCasts S1x32
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x32_S512x32_0_0 : ∀ a, (![0, 0] : Fin 2 → Nat) a + S512x32.size a ≤ S512x32.size a
  h_S512x32 : 0 < S512x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S2048x2048_S2048x2048_0_0 : ∀ a, (![0, 0] : Fin 2 → Nat) a + S2048x2048.size a ≤ S2048x2048.size a
  h_S2048x2048 : 0 < S2048x2048.numel
  shapeCasts_S16_S1x16 : S16.ShapeCasts S1x16
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  dot_S2048x512_S512x32_S2048x32_1_0_0_1_n_n_wf : DotDims.WF S2048x512 S512x32 S2048x32 [1] [0] [0] [1] [] []
  dot_S2048x2048_S2048x32_S2048x32_1_0_0_1_n_n_wf : DotDims.WF S2048x2048 S2048x32 S2048x32 [1] [0] [0] [1] [] []
  dot_S2048x32_S32x16_S2048x16_1_0_0_1_n_n_wf : DotDims.WF S2048x32 S32x16 S2048x16 [1] [0] [0] [1] [] []
  dot_S2048x2048_S2048x16_S2048x16_1_0_0_1_n_n_wf : DotDims.WF S2048x2048 S2048x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x32.size a ≤ S16384x32.size a
  hwx0_3 : ∀ i : grid0.Coords, EltTy.bits .f32 = 32 ∨ (Rect.block (s := S16384x32) S2048x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S16384x16384.size a
  hwx1_0 : ∀ i : grid1.Coords, EltTy.bits .f32 = 32 ∨ (Rect.block (s := S16384x16384) S2048x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x32.size a ≤ S16384x32.size a
  hwx1_1 : ∀ i : grid1.Coords, EltTy.bits .f32 = 32 ∨ (Rect.block (s := S16384x32) S2048x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x32.size a ≤ S16384x32.size a
  hwx1_2 : ∀ i : grid1.Coords, EltTy.bits .f32 = 32 ∨ (Rect.block (s := S16384x32) S2048x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x32.size a ≤ S16384x32.size a
  hwx2_0 : ∀ i : grid2.Coords, EltTy.bits .f32 = 32 ∨ (Rect.block (s := S16384x32) S2048x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x16.size a ≤ S32x16.size a
  hwx2_1 : ∀ i : grid2.Coords, EltTy.bits .f32 = 32 ∨ (Rect.block (s := S32x16) S32x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x16.size a ≤ S16384x16.size a
  hwx2_3 : ∀ i : grid2.Coords, EltTy.bits .f32 = 32 ∨ (Rect.block (s := S16384x16) S2048x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x2048.size a ≤ S16384x16384.size a
  hwx3_0 : ∀ i : grid3.Coords, EltTy.bits .f32 = 32 ∨ (Rect.block (s := S16384x16384) S2048x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x16.size a ≤ S16384x16.size a
  hwx3_1 : ∀ i : grid3.Coords, EltTy.bits .f32 = 32 ∨ (Rect.block (s := S16384x16) S2048x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x16.size a ≤ S16384x16.size a
  hwx3_2 : ∀ i : grid3.Coords, EltTy.bits .f32 = 32 ∨ (Rect.block (s := S16384x16) S2048x16.size (cc3_transform_2 i) (hinb3_2 i)).WholeWords (EltTy.packing .f32)

variable [Facts₀]

def dot_S2048x512_S512x32_S2048x32_1_0_0_1_n_n : DotDims S2048x512 S512x32 S2048x32 where
  lhsContracting := [1]
  rhsContracting := [0]
  lhsNonContracting := [0]
  rhsNonContracting := [1]
  lhsBatch := []
  rhsBatch := []
  wf := dot_S2048x512_S512x32_S2048x32_1_0_0_1_n_n_wf
def dot_S2048x2048_S2048x32_S2048x32_1_0_0_1_n_n : DotDims S2048x2048 S2048x32 S2048x32 where
  lhsContracting := [1]
  rhsContracting := [0]
  lhsNonContracting := [0]
  rhsNonContracting := [1]
  lhsBatch := []
  rhsBatch := []
  wf := dot_S2048x2048_S2048x32_S2048x32_1_0_0_1_n_n_wf
def dot_S2048x32_S32x16_S2048x16_1_0_0_1_n_n : DotDims S2048x32 S32x16 S2048x16 where
  lhsContracting := [1]
  rhsContracting := [0]
  lhsNonContracting := [0]
  rhsNonContracting := [1]
  lhsBatch := []
  rhsBatch := []
  wf := dot_S2048x32_S32x16_S2048x16_1_0_0_1_n_n_wf
def dot_S2048x2048_S2048x16_S2048x16_1_0_0_1_n_n : DotDims S2048x2048 S2048x16 S2048x16 where
  lhsContracting := [1]
  rhsContracting := [0]
  lhsNonContracting := [0]
  rhsNonContracting := [1]
  lhsBatch := []
  rhsBatch := []
  wf := dot_S2048x2048_S2048x16_S2048x16_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S2048x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v2) S2048x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S32x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S2048x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg1) S2048x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S2048x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S2048x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S16384x512 : Shape := ⟨2, ![16384, 512]⟩
abbrev S16384x16384 : Shape := ⟨2, ![16384, 16384]⟩
abbrev S512x32 : Shape := ⟨2, ![512, 32]⟩
abbrev S32 : Shape := ⟨1, ![32]⟩
abbrev S32x16 : Shape := ⟨2, ![32, 16]⟩
abbrev S16 : Shape := ⟨1, ![16]⟩
abbrev S16384x32 : Shape := ⟨2, ![16384, 32]⟩
abbrev S1x32 : Shape := ⟨2, ![1, 32]⟩
abbrev S_ : Shape := ⟨0, ![]⟩
abbrev S16384x16 : Shape := ⟨2, ![16384, 16]⟩
abbrev S1x16 : Shape := ⟨2, ![1, 16]⟩

abbrev nBuf : Space → Nat
  | .hbm => 19
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S16384x32, .f32⟩
  | .hbm, ⟨7, _⟩ => ⟨S1x32, .f32⟩
  | .hbm, ⟨8, _⟩ => ⟨S16384x32, .f32⟩
  | .hbm, ⟨9, _⟩ => ⟨S16384x32, .f32⟩
  | .hbm, ⟨10, _⟩ => ⟨S16384x32, .f32⟩
  | .hbm, ⟨11, _⟩ => ⟨S_, .f32⟩
  | .hbm, ⟨12, _⟩ => ⟨S16384x32, .f32⟩
  | .hbm, ⟨13, _⟩ => ⟨S16384x32, .f32⟩
  | .hbm, ⟨14, _⟩ => ⟨S16384x16, .f32⟩
  | .hbm, ⟨15, _⟩ => ⟨S1x16, .f32⟩
  | .hbm, ⟨16, _⟩ => ⟨S16384x16, .f32⟩
  | .hbm, ⟨17, _⟩ => ⟨S16384x16, .f32⟩
  | .hbm, ⟨18, _⟩ => ⟨S16384x16, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  dot_S16384x512_S512x32_S16384x32_1_0_0_1_n_n_wf : DotDims.WF S16384x512 S512x32 S16384x32 [1] [0] [0] [1] [] []
  dot_S16384x16384_S16384x32_S16384x32_1_0_0_1_n_n_wf : DotDims.WF S16384x16384 S16384x32 S16384x32 [1] [0] [0] [1] [] []
  dot_S16384x32_S32x16_S16384x16_1_0_0_1_n_n_wf : DotDims.WF S16384x32 S32x16 S16384x16 [1] [0] [0] [1] [] []
  dot_S16384x16384_S16384x16_S16384x16_1_0_0_1_n_n_wf : DotDims.WF S16384x16384 S16384x16 S16384x16 [1] [0] [0] [1] [] []

variable [Facts₀]

def dot_S16384x512_S512x32_S16384x32_1_0_0_1_n_n : DotDims S16384x512 S512x32 S16384x32 where
  lhsContracting := [1]
  rhsContracting := [0]
  lhsNonContracting := [0]
  rhsNonContracting := [1]
  lhsBatch := []
  rhsBatch := []
  wf := dot_S16384x512_S512x32_S16384x32_1_0_0_1_n_n_wf
def dot_S16384x16384_S16384x32_S16384x32_1_0_0_1_n_n : DotDims S16384x16384 S16384x32 S16384x32 where
  lhsContracting := [1]
  rhsContracting := [0]
  lhsNonContracting := [0]
  rhsNonContracting := [1]
  lhsBatch := []
  rhsBatch := []
  wf := dot_S16384x16384_S16384x32_S16384x32_1_0_0_1_n_n_wf
def dot_S16384x32_S32x16_S16384x16_1_0_0_1_n_n : DotDims S16384x32 S32x16 S16384x16 where
  lhsContracting := [1]
  rhsContracting := [0]
  lhsNonContracting := [0]
  rhsNonContracting := [1]
  lhsBatch := []
  rhsBatch := []
  wf := dot_S16384x32_S32x16_S16384x16_1_0_0_1_n_n_wf
def dot_S16384x16384_S16384x16_S16384x16_1_0_0_1_n_n : DotDims S16384x16384 S16384x16 S16384x16 where
  lhsContracting := [1]
  rhsContracting := [0]
  lhsNonContracting := [0]
  rhsNonContracting := [1]
  lhsBatch := []
  rhsBatch := []
  wf := dot_S16384x16384_S16384x16_S16384x16_1_0_0_1_n_n_wf

class Facts : Prop extends Facts₀ where

variable [Facts]
-- ==== Proof.K.Lin0.lean ====
/-
  The first linear layer as one pipelined region: eight grid points, point `t` taking rows `2048 t … 2048 t + 2047`
  of the activations, the whole weight matrix and the bias row, and leaving in its output block the product of the
  row block with the weights plus the bias row on every row. Everything is stated at the contents `V` the buffers
  hold when the region is entered, for any number format: the body's effect is one store of one value, a function
  of the three blocks it loads.
-/
import proofs.«123152_j43731357008092_1_alg».proof.Proof.Gen.Kernel.Launch
import proofs.«123152_j43731357008092_1_alg».proof.Proof.Gen.Kernel.Skeleton
import proofs.«123152_j43731357008092_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a point works on -/

/-- The block of window `w`'s array that grid point `t` works on, read off the contents the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the activations is in its staging buffer at every point (it is fetched at each). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights are fetched once; their block index never moves, so the buffer holds them at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the bias row. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output block -/

/-- The whole of each staging buffer, as the rectangle the body loads or stores through. -/
abbrev rX0 : Rect S2048x512 := Rect.unit (s := S2048x512) ![0, 0] S2048x512.size inb_S2048x512_S2048x512_0_0
abbrev rW0 : Rect S512x32 := Rect.unit (s := S512x32) ![0, 0] S512x32.size inb_S512x32_S512x32_0_0
abbrev rB0 : Rect S1x32 := Rect.unit (s := S1x32) ![0, 0] S1x32.size inb_S1x32_S1x32_0_0
abbrev rO0 : Rect S2048x32 := Rect.unit (s := S2048x32) ![0, 0] S2048x32.size inb_S2048x32_S2048x32_0_0

/-- The output block after the body: its one store, of the product-plus-bias of the three loaded blocks, over the whole block. -/
def out0_3 (x0 : Vec F S2048x512 .f32) (x1 : Vec F S512x32 .f32) (x2 : Vec F S1x32 .f32) : Vec F S2048x32 .f32 :=
  View.canon [⟨rO0, k0_pay1 (View.ld x0 rX0) (View.ld x1 rW0) (View.ld x2 rB0)⟩]

/-- That store covers the block. -/
theorem cover0_3 (p0 : Vec F S2048x32 .f32) (y : S2048x32.Idx) :
    ∃ pc ∈ ([⟨rO0, p0⟩] : List (View.Piece (Elt F) S2048x32 .f32)), y ∈ pc.1.set :=
  View.cover_of_tiled [⟨rO0, p0⟩] S2048x32.size (by rfl) y

/-! ## The body on whole buffers -/

set_option maxHeartbeats 1000000 in
/-- From the three input buffers at read contents `x0`, `x1`, `x2` and the output buffer at anything, the body runs to
    its end with the inputs as they were and the output at `out0_3` of them. -/
theorem sound_kernel0 (c : Dev nD) (E : Set ℕ) (i : grid0.Coords)
    (arg1 : Memref sig .tc .vmem S2048x512 .f32) (harg1 : arg1.IsWhole) (arg2 : Memref sig .tc .vmem S512x32 .f32) (harg2 : arg2.IsWhole)
    (arg3 : Memref sig .tc .vmem S1x32 .f32) (harg3 : arg3.IsWhole) (arg4 : Memref sig .tc .vmem S2048x32 .f32) (harg4 : arg4.IsWhole)
    (x0 : Vec F S2048x512 .f32) (x1 : Vec F S512x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The arrays as the region finds them; after the body at point `t` each input's buffer at its block and the output's at
    `out0_3` of the three blocks; the invariant the scratch buffers and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline rule, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.K.Acc1.lean ====
/-
  Region 1 of the program (the call of `cc1_kernel` on its 8x8 grid) as the per-region half of a frame proof, at the
  buffer contents `V` the region is entered with. The kernel is a blocked matrix product accumulated along the second grid
  axis `k`: a scratch buffer is zeroed at `k = 0`, the product of the two input blocks is added to it at every point, and
  at `k = 7` its rectified contents are stored into the output block. The scratch is the one piece of state carried from a point to the
  next, so the region invariant names its contents: `acc1`.
-/
import proofs.«123152_j43731357008092_1_alg».proof.Proof.Gen.Kernel.Launch
import proofs.«123152_j43731357008092_1_alg».proof.Proof.Gen.Kernel.Skeleton
import proofs.«123152_j43731357008092_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer accesses

Every access of the body goes through the unit rectangle at zero offsets of the buffer's own extents: it places each
index at itself, so a load through it reads the buffer's contents and a store through it leaves its payload. -/

private theorem zeros2_1 : (![0, 0] : Fin 2 → ℕ) = fun _ => 0 := by
  funext a; fin_cases a <;> rfl

private theorem emb_unit_zero1 {s : Shape} {off : Fin s.rank → ℕ} (ho : off = fun _ => 0)
    (inb : ∀ a, off a + s.size a ≤ s.size a) (x : (Rect.unit off s.size inb).shape.Idx) :
    (Rect.unit off s.size inb).emb x = x := by
  subst ho; exact Rect.emb_whole_apply s x

private theorem mem_unit_zero1 {s : Shape} {off : Fin s.rank → ℕ} (ho : off = fun _ => 0)
    (inb : ∀ a, off a + s.size a ≤ s.size a) (y : s.Idx) : y ∈ (Rect.unit off s.size inb).set := by
  subst ho; exact (Rect.set_whole s).symm ▸ Finset.mem_univ y

/-- A whole-rectangle load from a whole memref held at the raw contents reading `X` reads `X`. -/
private theorem readAt_whole1 {s : Shape} {e : EltTy} {m : Memref sig .tc .vmem s e} (h : m.IsWhole) (X : s.Idx → Elt F e)
    {off : Fin s.rank → ℕ} (ho : off = fun _ => 0) (inb : ∀ a, off a + s.size a ≤ s.size a) :
    View.readAt (Elt F) m.view (Rect.unit off s.size inb).toLoadRect (h.unread X) = X := by
  rw [View.readAt_eq_ld, h.read_unread]
  funext x
  exact congrArg X (emb_unit_zero1 ho inb x)

/-- A buffer read back after a whole-rectangle store made last holds the stored payload, whatever was stored before. -/
private theorem read_writes_whole1 {s : Shape} {e : EltTy} (v : View sig .tc .vmem s e) (f : v.ty.Contents (Elt F))
    {off : Fin s.rank → ℕ} (ho : off = fun _ => 0) (inb : ∀ a, off a + s.size a ≤ s.size a) (w : s.Idx → Elt F e)
    (L : List (View.Piece (Elt F) s e)) :
    v.read (Elt F) (v.writes (Elt F) f (⟨Rect.unit off s.size inb, w⟩ :: L)) = w := by
  funext y
  rw [View.read_writes_apply_eq_canon v f y _ ⟨_, List.mem_cons_self, mem_unit_zero1 ho inb y⟩]
  have hy := View.canon_cons_emb (Rect.unit off s.size inb) w L y
  rwa [emb_unit_zero1 ho inb] at hy

/-- A whole-rectangle load after a whole-rectangle store made last reads the stored payload. -/
private theorem readCov_whole1 {s : Shape} {e : EltTy} (v : View sig .tc .vmem s e)
    {off : Fin s.rank → ℕ} (ho : off = fun _ => 0) (inb : ∀ a, off a + s.size a ≤ s.size a) (w : s.Idx → Elt F e)
    (L : List (View.Piece (Elt F) s e)) :
    v.readCov (⟨Rect.unit off s.size inb, w⟩ :: L) (Rect.unit off s.size inb).toLoadRect = w := by
  rw [View.readCov_eq_canon_ld v _ (Rect.unit off s.size inb) (fun y => ⟨_, List.mem_cons_self, mem_unit_zero1 ho inb y⟩)]
  funext x
  exact View.canon_cons_emb (Rect.unit off s.size inb) w L x

/-! ## The body's branch conditions and the output window's idle points, over the grid -/

/-- The first `scf.if`'s condition (the reduction coordinate is 0), from the grid coordinates. -/
abbrev cond1_0 (i : grid1.Coords) : Prop :=
  (Scalar.cmpi .ne (Scalar.extui (Scalar.cmpi .eq (BitVec.ofNat 32 (i 1).val) 0#32)) 0#32) = 1#1
/-- The second one's (the reduction coordinate is 7). -/
abbrev cond1_1 (i : grid1.Coords) : Prop := k1_cond2 i = 1#1

/-- Point `t` has reduction coordinate `t % 8`: the first condition holds where that is 0, -/
theorem hcond1_0 : ∀ t : Fin cfg1.N, cond1_0 (grid1.coords t) ↔ t.val % 8 = 0 :=
  (by decide +kernel : ∀ t : Fin grid1.N, cond1_0 (grid1.coords t) ↔ t.val % 8 = 0)
/-- the second where it is 7. -/
theorem hcond1_1 : ∀ t : Fin cfg1.N, cond1_1 (grid1.coords t) ↔ t.val % 8 = 7 :=
  (by decide +kernel : ∀ t : Fin grid1.N, cond1_1 (grid1.coords t) ↔ t.val % 8 = 7)

/-- The input windows are never idle. -/
theorem live1_0 (t : Fin cfg1.N) : cfg1.idle 0 (grid1.coords t) = false := rfl
theorem live1_1 (t : Fin cfg1.N) : cfg1.idle 1 (grid1.coords t) = false := rfl
/-- The output window is idle away from the last reduction step, -/
theorem idleAt1_2 : ∀ t : Fin cfg1.N, ¬t.val % 8 = 7 → cfg1.idle 2 (grid1.coords t) = true :=
  (by decide +kernel : ∀ t : Fin grid1.N, ¬t.val % 8 = 7 → idle1 2 (grid1.coords t) = true)
/-- live at it, -/
theorem liveAt1_2 : ∀ t : Fin cfg1.N, t.val % 8 = 7 → cfg1.idle 2 (grid1.coords t) = false :=
  (by decide +kernel : ∀ t : Fin grid1.N, t.val % 8 = 7 → idle1 2 (grid1.coords t) = false)
/-- and written back only there. -/
theorem noFlush1_2 (t : Fin cfg1.N) (h : ¬t.val % 8 = 7) : (cfg1.win 2).flush t = false :=
  Bool.eq_false_iff.mpr fun hf => h ((flush1_2 t).mp hf)

/-! ## The body on whole memrefs, case by case

`arg2`, `arg3` are the input blocks' buffers, `arg4` the output block's, `arg5` the scratch. In each case the inputs are
handed back as found and the scratch ends at the block product added to what it held — to the zeros just stored into it
when the reduction coordinate is 0. -/

set_option maxHeartbeats 1000000 in
/-- Reduction coordinate 0: the scratch, found at anything, is zeroed and the product added; the output's buffer is not touched. -/
theorem run1_first (c : Dev nD) (E : Set ℕ) (i : grid1.Coords)
    (arg2 : Memref sig .tc .vmem S2048x2048 .f32) (harg2 : arg2.IsWhole) (arg3 : Memref sig .tc .vmem S2048x32 .f32) (harg3 : arg3.IsWhole)
    (arg4 : Memref sig .tc .vmem S2048x32 .f32) (harg4 : arg4.IsWhole) (arg5 : Memref sig .tc .vmem S2048x32 .f32) (harg5 : arg5.IsWhole)
    (hc0 : cond1_0 i) (hc1 : ¬cond1_1 i)
    (x0 : Vec F S2048x2048 .f32) (x1 : Vec F S2048x32 .f32) (xi : Vec F S2048x32 .f32) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k1_pay2 x0 x1 k1_pay1)) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  obtain rfl := harg2.eq_unread hf0; obtain rfl := harg3.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact H3
  ipureintro
  rw [read_writes_whole1 _ _ zeros2_1, readAt_whole1 harg2 x0 zeros2_1, readAt_whole1 harg3 x1 zeros2_1]
  unfold run1_first.sl.v8 run1_first.sl.H3_1
  rw [readCov_whole1 _ zeros2_1]

set_option maxHeartbeats 1000000 in
/-- Reduction coordinate strictly between 0 and 7: the product is added to the scratch; the output's buffer is not touched. -/
theorem run1_mid (c : Dev nD) (E : Set ℕ) (i : grid1.Coords)
    (arg2 : Memref sig .tc .vmem S2048x2048 .f32) (harg2 : arg2.IsWhole) (arg3 : Memref sig .tc .vmem S2048x32 .f32) (harg3 : arg3.IsWhole)
    (arg4 : Memref sig .tc .vmem S2048x32 .f32) (harg4 : arg4.IsWhole) (arg5 : Memref sig .tc .vmem S2048x32 .f32) (harg5 : arg5.IsWhole)
    (hc0 : ¬cond1_0 i) (hc1 : ¬cond1_1 i)
    (x0 : Vec F S2048x2048 .f32) (x1 : Vec F S2048x32 .f32) (xi : Vec F S2048x32 .f32) (s : Vec F S2048x32 .f32) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare s
        ∗ (iprop(owns (c : Thread nD τ) arg2 fullShare x0 ∗ owns (c : Thread nD τ) arg3 fullShare x1 ∗ owns (c : Thread nD τ) arg4 fullShare xi
            ∗ owns (c : Thread nD τ) arg5 fullShare (k1_pay2 x0 x1 s)) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg5.eq_unread hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact H3
  ipureintro
  rw [read_writes_whole1 _ _ zeros2_1, readAt_whole1 harg2 x0 zeros2_1, readAt_whole1 harg3 x1 zeros2_1,
    readAt_whole1 harg5 s zeros2_1]

set_option maxHeartbeats 1000000 in
/-- Reduction coordinate 7: the product is added to the scratch, and the output's buffer, found at anything, is stored
    the rectified sum. -/
theorem run1_last (c : Dev nD) (E : Set ℕ) (i : grid1.Coords)
    (arg2 : Memref sig .tc .vmem S2048x2048 .f32) (harg2 : arg2.IsWhole) (arg3 : Memref sig .tc .vmem S2048x32 .f32) (harg3 : arg3.IsWhole)
    (arg4 : Memref sig .tc .vmem S2048x32 .f32) (harg4 : arg4.IsWhole) (arg5 : Memref sig .tc .vmem S2048x32 .f32) (harg5 : arg5.IsWhole)
    (hc0 : ¬cond1_0 i) (hc1 : cond1_1 i)
    (x0 : Vec F S2048x2048 .f32) (x1 : Vec F S2048x32 .f32) (s : Vec F S2048x32 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare s
        ∗ (iprop(owns (c : Thread nD τ) arg2 fullShare x0 ∗ owns (c : Thread nD τ) arg3 fullShare x1
            ∗ owns (c : Thread nD τ) arg4 fullShare (k1_pay3 (k1_pay2 x0 x1 s))
            ∗ owns (c : Thread nD τ) arg5 fullShare (k1_pay2 x0 x1 s)) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%d2, %f2, -, H2⟩, ⟨%f3, %hf3, H3⟩, Hk⟩
  obtain rfl := harg2.eq_unread hf0; obtain rfl := harg3.eq_unread hf1; obtain rfl := harg5.eq_unread hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [read_writes_whole1 _ _ zeros2_1]
    unfold run1_last.sl.v17 run1_last.sl.H3_1
    rw [readCov_whole1 _ zeros2_1, readAt_whole1 harg2 x0 zeros2_1, readAt_whole1 harg3 x1 zeros2_1,
      readAt_whole1 harg5 s zeros2_1]
  iexists _; isplitr
  swap; · iexact H3
  ipureintro
  unfold run1_last.sl.H3_1
  rw [read_writes_whole1 _ _ zeros2_1, readAt_whole1 harg2 x0 zeros2_1, readAt_whole1 harg3 x1 zeros2_1,
    readAt_whole1 harg5 s zeros2_1]

/-! ## The region's data at the entry contents `V` -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- the scratch after point n: reset to k1_pay1 at k = 0, then the block product added -/
def acc1 (c : Dev nD) : (n : ℕ) → n < cfg1.N → Vec F S2048x32 .f32
  | 0, h => k1_pay2 (iblk1 V c 0 ⟨0, h⟩) (iblk1 V c 1 ⟨0, h⟩) k1_pay1
  | n + 1, h => if (n + 1) % 8 = 0 then k1_pay2 (iblk1 V c 0 ⟨n + 1, h⟩) (iblk1 V c 1 ⟨n + 1, h⟩) k1_pay1
      else k1_pay2 (iblk1 V c 0 ⟨n + 1, h⟩) (iblk1 V c 1 ⟨n + 1, h⟩) (acc1 c n (Nat.lt_of_succ_lt h))

theorem acc1_zero (c : Dev nD) (h : 0 < cfg1.N) :
    acc1 V c 0 h = k1_pay2 (iblk1 V c 0 ⟨0, h⟩) (iblk1 V c 1 ⟨0, h⟩) k1_pay1 := rfl
theorem acc1_succ (c : Dev nD) (n : ℕ) (h : n + 1 < cfg1.N) :
    acc1 V c (n + 1) h = if (n + 1) % 8 = 0 then k1_pay2 (iblk1 V c 0 ⟨n + 1, h⟩) (iblk1 V c 1 ⟨n + 1, h⟩) k1_pay1
      else k1_pay2 (iblk1 V c 0 ⟨n + 1, h⟩) (iblk1 V c 1 ⟨n + 1, h⟩) (acc1 V c n (Nat.lt_of_succ_lt h)) := rfl

/-- At a point of reduction coordinate 0 the sum starts afresh from the zeros; -/
theorem acc1_reset (c : Dev nD) (t : Fin cfg1.N) (h0 : t.val % 8 = 0) :
    acc1 V c t.val t.isLt = k1_pay2 (iblk1 V c 0 t) (iblk1 V c 1 t) k1_pay1 := by
  obtain ⟨n, hn⟩ := t
  cases n with
  | zero => rfl
  | succ n => exact (acc1_succ V c n hn).trans (if_pos h0)

/-- at any other it adds the point's product to the sum the point before left. -/
theorem acc1_step (c : Dev nD) (t : Fin cfg1.N) (h0 : ¬t.val % 8 = 0) :
    acc1 V c t.val t.isLt = k1_pay2 (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod 8) h0
  | succ n => exact (acc1_succ V c n hn).trans (if_neg h0)

/-- The scratch operand: a whole scoped buffer of the kernel's own, passed beside the windows. -/
abbrev scM1 : Memref sig .tc .vmem S2048x32 .f32 := Memref.whole cc1_scratch0

/-- What the class invariant holds beside the scratch: the core's other scoped buffers that are no staging buffer of this
    call, at some contents each, and the generator register at some state. -/
def rest1 (c : Dev nD) : sProp 𝕄 :=
  iprop(Pipeline.scopedRestBut (Ix := Unit) (Name := ℕ) (U := UR sig nD τ) (Lvl := ℕ) (Val := Elt F) spec1 c [cc1_scratch0]
    ∗ ∃ r, prngReg c r)

/-- The class invariant is the scratch at some contents beside the rest. -/
theorem PhiA1_eq (c : Dev nD) :
    (Pipeline.ΦA spec1 c : sProp 𝕄) = iprop((∃ d, owns (c : Thread nD τ) scM1 fullShare d) ∗ rest1 (F := F) c) := by
  unfold Pipeline.ΦA rest1
  rw [Pipeline.scopedRest_split_of_list spec1 c [cc1_scratch0] (by decide) (by decide)]
  simp only [bigSepL_singleton, scM1, owns_whole]
  exact equiv_iff.mp ⟨BI.sep_assoc, BI.sep_assoc'⟩

/-- The region invariant before position `n`: the class's before the first point; afterwards the same with the scratch
    NAMED at the sum the point before left. -/
def Phi1 (c : Dev nD) : (n : ℕ) → n ≤ cfg1.N → sProp 𝕄
  | 0, _ => Pipeline.ΦA spec1 c
  | n + 1, hn => iprop(owns (c : Thread nD τ) scM1 fullShare (acc1 V c n hn) ∗ rest1 (F := F) c)

theorem Phi1_succ (c : Dev nD) (n : ℕ) (hn : n < cfg1.N) :
    Phi1 V c (n + 1) hn = iprop(owns (c : Thread nD τ) scM1 fullShare (acc1 V c n hn) ∗ rest1 (F := F) c) := rfl

theorem Phi1_pos (c : Dev nD) (n : ℕ) (h : n ≤ cfg1.N) (hz : n ≠ 0) :
    Phi1 V c n h = iprop(owns (c : Thread nD τ) scM1 fullShare (acc1 V c (n - 1) (by omega)) ∗ rest1 (F := F) c) := by
  cases n with
  | zero => exact absurd rfl hz
  | succ n => rfl

/-- Before any point the invariant yields the scratch at some contents beside the rest. -/
theorem Phi1_open (c : Dev nD) (n : ℕ) (h : n ≤ cfg1.N) :
    Phi1 V c n h ⊢ iprop((∃ d, owns (c : Thread nD τ) scM1 fullShare d) ∗ rest1 (F := F) c) := by
  cases n with
  | zero => rw [show Phi1 V c 0 h = Pipeline.ΦA spec1 c from rfl, PhiA1_eq]
  | succ n =>
    rw [Phi1_succ]
    iintro ⟨HS, HR⟩
    isplitl [HS]
    · iexists _; iexact HS
    iexact HR

/-- The proof data of the call on core `c`: the arrays as the region finds them; after the body at point `t` each input's
    buffer at its block and the output's at the rectified sum; the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (acc1 V c t.val t.isLt) := by dsimp only [dat1]
theorem owed1 (c : Dev nD) (t) : (dat1 V c).owed t = 0 := by dsimp only [dat1]
theorem share1 (c : Dev nD) (w) : (dat1 V c).q w = fullShare := by dsimp only [dat1]

/-- The invariant at a point's start, restated at the point's position. -/
theorem Phi1_castSucc (c : Dev nD) (t : Fin cfg1.N) :
    (dat1 V c).Φ t.castSucc = Phi1 V c t.val (Nat.le_of_lt t.isLt) := by
  dsimp only [dat1]; simp only [Fin.coe_castSucc]

/-- Each input window is fetched at every point, so its current staging buffer holds its block there. -/
theorem before1_0 (c : Dev nD) (t : Fin cfg1.N) (d) : (dat1 V c).before 0 t d = iblk1 V c 0 t := by
  rw [(dat1 V c).before_fetched 0 t (fetch1_0 t) d]
  unfold Dat.fetched Dat.blockOf iblk1; rw [A_eq1]; rfl
theorem before1_1 (c : Dev nD) (t : Fin cfg1.N) (d) : (dat1 V c).before 1 t d = iblk1 V c 1 t := by
  rw [(dat1 V c).before_fetched 1 t (fetch1_1 t) d]
  unfold Dat.fetched Dat.blockOf iblk1; rw [A_eq1]; rfl

/-- The inputs' buffers are handed back at their blocks. -/
theorem leaves1_0 (c : Dev nD) (t : Fin cfg1.N) :
    (dat1 V c).leavesExact 0 t = owns (c : Thread nD τ) (st1_0 t) fullShare (iblk1 V c 0 t) := by
  have h : (dat1 V c).leavesExact 0 t = owns (c : Thread nD τ) (st1_0 t) fullShare ((dat1 V c).after 0 t) := rfl
  rw [h, after1_0]
theorem leaves1_1 (c : Dev nD) (t : Fin cfg1.N) :
    (dat1 V c).leavesExact 1 t = owns (c : Thread nD τ) (st1_1 t) fullShare (iblk1 V c 1 t) := by
  have h : (dat1 V c).leavesExact 1 t = owns (c : Thread nD τ) (st1_1 t) fullShare ((dat1 V c).after 1 t) := rfl
  rw [h, after1_1]
/-- At the last reduction step the output's buffer is handed back at the rectified sum. -/
theorem leaves1_2 (c : Dev nD) (t : Fin cfg1.N) (h7 : t.val % 8 = 7) :
    (dat1 V c).leavesExact 2 t = owns (c : Thread nD τ) (st1_2 t) fullShare (k1_pay3 (acc1 V c t.val t.isLt)) := by
  rw [← after1_2 V c t]; unfold Dat.leavesExact; rw [liveAt1_2 t h7]

/-! ## The body obligation -/

/-- What the body is called with at point `t` (the library's obligation, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 1000000 in
/-- A point of reduction coordinate 0: the invariant yields the scratch at whatever it holds (the class's own at the first
    point, the previous row's finished sum later), the body leaves it at the fresh sum; the output's buffer, idle, goes
    back as found. -/
theorem sound_body1_first (c : Dev nD) (t : Fin cfg1.N) (h0 : t.val % 8 = 0) :
    bodyPre1 V c t ⊢ wp frame (wpE (defs₀ (F := F)) Variants.none c none) Set.univ (bodyAt1 t) (fun _ => bodyPost1 V c t) := by
  have h7 : ¬t.val % 8 = 7 := by omega
  unfold bodyPre1 bodyPost1 bodyAt1
  simp only [before1_0, before1_1]
  rw [show (dat1 V c).owesAt () t.succ = (dat1 V c).owesAt () t.castSucc from rfl,
    show (dat1 V c).Φ t.succ = Phi1 V c (t.val + 1) t.isLt from rfl, Phi1_succ,
    leaves1_0, leaves1_1, Dat.leavesExact_idle (dat1 V c) 2 t (idleAt1_2 t h7) (noFlush1_2 t h7),
    Phi1_castSucc, acc1_reset V c t h0]
  iintro ⟨HΦ, Ho, ⟨%d0, H0⟩, ⟨%d1, H1⟩, ⟨%d2, H2⟩⟩
  ihave HΦ' := (Phi1_open V c t.val (Nat.le_of_lt t.isLt)) $$ HΦ
  icases HΦ' with ⟨HS, HR⟩
  iapply (run1_first c Set.univ (grid1.coords t) _ _ _ _ _ _ _ _ ((hcond1_0 t).mpr h0) (fun h => h7 ((hcond1_1 t).mp h))
    (iblk1 V c 0 t) (iblk1 V c 1 t) _ _)
  isplitl [H0]; · iexact H0
  isplitl [H1]; · iexact H1
  isplitl [H2]; · iexact H2
  isplitl [HS]; · iexact HS
  iintro ⟨H0, H1, H2, HS⟩
  isplitl [HS HR]
  · isplitl [HS]; · iexact HS
    iexact HR
  isplitl [Ho]; · iexact Ho
  isplitl [H0]; · iexact H0
  isplitl [H1]; · iexact H1
  iexists d2; iexact H2

set_option maxHeartbeats 1000000 in
/-- A point of reduction coordinate strictly between 0 and 7: the invariant names the scratch at the sum so far, the body
    adds the point's product; the output's buffer, idle, goes back as found. -/
theorem sound_body1_mid (c : Dev nD) (t : Fin cfg1.N) (h0 : ¬t.val % 8 = 0) (h7 : ¬t.val % 8 = 7) :
    bodyPre1 V c t ⊢ wp frame (wpE (defs₀ (F := F)) Variants.none c none) Set.univ (bodyAt1 t) (fun _ => bodyPost1 V c t) := by
  have hz : t.val ≠ 0 := fun e => h0 (by rw [e])
  unfold bodyPre1 bodyPost1 bodyAt1
  simp only [before1_0, before1_1]
  rw [show (dat1 V c).owesAt () t.succ = (dat1 V c).owesAt () t.castSucc from rfl,
    show (dat1 V c).Φ t.succ = Phi1 V c (t.val + 1) t.isLt from rfl, Phi1_succ,
    leaves1_0, leaves1_1, Dat.leavesExact_idle (dat1 V c) 2 t (idleAt1_2 t h7) (noFlush1_2 t h7),
    Phi1_castSucc, Phi1_pos V c _ _ hz, acc1_step V c t h0]
  iintro ⟨⟨HS, HR⟩, Ho, ⟨%d0, H0⟩, ⟨%d1, H1⟩, ⟨%d2, H2⟩⟩
  iapply (run1_mid c Set.univ (grid1.coords t) _ _ _ _ _ _ _ _ (fun h => h0 ((hcond1_0 t).mp h)) (fun h => h7 ((hcond1_1 t).mp h))
    (iblk1 V c 0 t) (iblk1 V c 1 t) _ _ _)
  isplitl [H0]; · iexact H0
  isplitl [H1]; · iexact H1
  isplitl [H2]; · iexact H2
  isplitl [HS]; · iexact HS
  iintro ⟨H0, H1, H2, HS⟩
  isplitl [HS HR]
  · isplitl [HS]; · iexact HS
    iexact HR
  isplitl [Ho]; · iexact Ho
  isplitl [H0]; · iexact H0
  isplitl [H1]; · iexact H1
  iexists d2; iexact H2

set_option maxHeartbeats 1000000 in
/-- A point of reduction coordinate 7: as before for the scratch; the output's buffer, live here and found at anything,
    goes back at the rectified sum. -/
theorem sound_body1_last (c : Dev nD) (t : Fin cfg1.N) (h7 : t.val % 8 = 7) :
    bodyPre1 V c t ⊢ wp frame (wpE (defs₀ (F := F)) Variants.none c none) Set.univ (bodyAt1 t) (fun _ => bodyPost1 V c t) := by
  have h0 : ¬t.val % 8 = 0 := by omega
  have hz : t.val ≠ 0 := fun e => h0 (by rw [e])
  unfold bodyPre1 bodyPost1 bodyAt1
  simp only [before1_0, before1_1]
  rw [show (dat1 V c).owesAt () t.succ = (dat1 V c).owesAt () t.castSucc from rfl,
    show (dat1 V c).Φ t.succ = Phi1 V c (t.val + 1) t.isLt from rfl, Phi1_succ,
    leaves1_0, leaves1_1, leaves1_2 V c t h7,
    Phi1_castSucc, Phi1_pos V c _ _ hz, acc1_step V c t h0]
  iintro ⟨⟨HS, HR⟩, Ho, ⟨%d0, H0⟩, ⟨%d1, H1⟩, ⟨%d2, H2⟩⟩
  iapply (run1_last c Set.univ (grid1.coords t) _ _ _ _ _ _ _ _ (fun h => h0 ((hcond1_0 t).mp h)) ((hcond1_1 t).mpr h7)
    (iblk1 V c 0 t) (iblk1 V c 1 t) _ _)
  isplitl [H0]; · iexact H0
  isplitl [H1]; · iexact H1
  isplitl [H2]; · iexists _; iexact H2
  isplitl [HS]; · iexact HS
  iintro ⟨H0, H1, H2, HS⟩
  isplitl [HS HR]
  · isplitl [HS]; · iexact HS
    iexact HR
  isplitl [Ho]; · iexact Ho
  isplitl [H0]; · iexact H0
  isplitl [H1]; · iexact H1
  iexact H2

/-- The body at any point, by its reduction coordinate. -/
theorem sound_body1 (c : Dev nD) (t : Fin cfg1.N)  :
    bodyPre1 V c t ⊢ wp frame (wpE (defs₀ (F := F)) Variants.none c none) Set.univ (bodyAt1 t) (fun _ => bodyPost1 V c t) := by
  by_cases h0 : t.val % 8 = 0
  · exact sound_body1_first V c t h0
  · by_cases h7 : t.val % 8 = 7
    · exact sound_body1_last V c t h7
    · exact sound_body1_mid V c t h0 h7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Pipeline.ΦA spec1 c from rfl]

/-- After the last point the invariant gives the class's back: the sum the scratch is named at is forgotten. -/
theorem hout1 (c : Dev nD) : (dat1 V c).Φ (Fin.last cfg1.N) ⊢ Pipeline.ΦA spec1 c := by
  rw [show (dat1 V c).Φ (Fin.last cfg1.N) = Phi1 V c cfg1.N (Nat.le_refl _) from rfl, PhiA1_eq]
  exact Phi1_open V c _ _

end Cert.Kernel.Frm

end
-- ==== Proof.K.Lin2.lean ====
/-
  The second linear layer as one pipelined region: eight grid points, point `t` taking rows `2048 t … 2048 t + 2047`
  of the hidden activations, the whole weight matrix and the bias row, and leaving in its output block the product of the
  row block with the weights plus the bias row on every row. Everything is stated at the contents `V` the buffers
  hold when the region is entered, for any number format: the body's effect is one store of one value, a function
  of the three blocks it loads.
-/
import proofs.«123152_j43731357008092_1_alg».proof.Proof.Gen.Kernel.Launch
import proofs.«123152_j43731357008092_1_alg».proof.Proof.Gen.Kernel.Skeleton
import proofs.«123152_j43731357008092_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a point works on -/

/-- The block of window `w`'s array that grid point `t` works on, read off the contents the region is entered with. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block of the activations is in its staging buffer at every point (it is fetched at each). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weights are fetched once; their block index never moves, so the buffer holds them at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The same for the bias row. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output block -/

/-- The whole of each staging buffer, as the rectangle the body loads or stores through. -/
abbrev rX2 : Rect S2048x32 := Rect.unit (s := S2048x32) ![0, 0] S2048x32.size inb_S2048x32_S2048x32_0_0
abbrev rW2 : Rect S32x16 := Rect.unit (s := S32x16) ![0, 0] S32x16.size inb_S32x16_S32x16_0_0
abbrev rB2 : Rect S1x16 := Rect.unit (s := S1x16) ![0, 0] S1x16.size inb_S1x16_S1x16_0_0
abbrev rO2 : Rect S2048x16 := Rect.unit (s := S2048x16) ![0, 0] S2048x16.size inb_S2048x16_S2048x16_0_0

/-- The output block after the body: its one store, of the product-plus-bias of the three loaded blocks, over the whole block. -/
def out2_3 (x0 : Vec F S2048x32 .f32) (x1 : Vec F S32x16 .f32) (x2 : Vec F S1x16 .f32) : Vec F S2048x16 .f32 :=
  View.canon [⟨rO2, k2_pay1 (View.ld x0 rX2) (View.ld x1 rW2) (View.ld x2 rB2)⟩]

/-- That store covers the block. -/
theorem cover2_3 (p0 : Vec F S2048x16 .f32) (y : S2048x16.Idx) :
    ∃ pc ∈ ([⟨rO2, p0⟩] : List (View.Piece (Elt F) S2048x16 .f32)), y ∈ pc.1.set :=
  View.cover_of_tiled [⟨rO2, p0⟩] S2048x16.size (by rfl) y

/-! ## The body on whole buffers -/

set_option maxHeartbeats 1000000 in
/-- From the three input buffers at read contents `x0`, `x1`, `x2` and the output buffer at anything, the body runs to
    its end with the inputs as they were and the output at `out2_3` of them. -/
theorem sound_kernel2 (c : Dev nD) (E : Set ℕ) (i : grid2.Coords)
    (arg1 : Memref sig .tc .vmem S2048x32 .f32) (harg1 : arg1.IsWhole) (arg2 : Memref sig .tc .vmem S32x16 .f32) (harg2 : arg2.IsWhole)
    (arg3 : Memref sig .tc .vmem S1x16 .f32) (harg3 : arg3.IsWhole) (arg4 : Memref sig .tc .vmem S2048x16 .f32) (harg4 : arg4.IsWhole)
    (x0 : Vec F S2048x32 .f32) (x1 : Vec F S32x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The region's proof data -/

/-- The arrays as the region finds them; after the body at point `t` each input's buffer at its block and the output's at
    `out2_3` of the three blocks; the invariant the scratch buffers and the generator register, untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline rule, at every point. -/
theorem body_obligation2 (c : Dev nD) : BodyObligation (dat2 (F := F) V c) (defs₀ (F := F)) Variants.none () Set.univ := fun t => by
  rw [bigSep_W2, bigSep_W2]
  exact sound_body2 V c t

end Cert.Kernel.Frm

end
-- ==== Proof.K.Acc3.lean ====
/-
  Region 3 of the program (the call of `cc3_kernel` on its 8x8 grid) as the per-region half of a frame proof, at the
  buffer contents `V` the region is entered with. The kernel is a blocked matrix product accumulated along the second grid
  axis `k`: a scratch buffer is zeroed at `k = 0`, the product of the two input blocks is added to it at every point, and
  at `k = 7` its contents are stored into the output block. The scratch is the one piece of state carried from a point to the
  next, so the region invariant names its contents: `acc3`.
-/
import proofs.«123152_j43731357008092_1_alg».proof.Proof.Gen.Kernel.Launch
import proofs.«123152_j43731357008092_1_alg».proof.Proof.Gen.Kernel.Skeleton
import proofs.«123152_j43731357008092_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer accesses

Every access of the body goes through the unit rectangle at zero offsets of the buffer's own extents: it places each
index at itself, so a load through it reads the buffer's contents and a store through it leaves its payload. -/

private theorem zeros2_3 : (![0, 0] : Fin 2 → ℕ) = fun _ => 0 := by
  funext a; fin_cases a <;> rfl

private theorem emb_unit_zero3 {s : Shape} {off : Fin s.rank → ℕ} (ho : off = fun _ => 0)
    (inb : ∀ a, off a + s.size a ≤ s.size a) (x : (Rect.unit off s.size inb).shape.Idx) :
    (Rect.unit off s.size inb).emb x = x := by
  subst ho; exact Rect.emb_whole_apply s x

private theorem mem_unit_zero3 {s : Shape} {off : Fin s.rank → ℕ} (ho : off = fun _ => 0)
    (inb : ∀ a, off a + s.size a ≤ s.size a) (y : s.Idx) : y ∈ (Rect.unit off s.size inb).set := by
  subst ho; exact (Rect.set_whole s).symm ▸ Finset.mem_univ y

/-- A whole-rectangle load from a whole memref held at the raw contents reading `X` reads `X`. -/
private theorem readAt_whole3 {s : Shape} {e : EltTy} {m : Memref sig .tc .vmem s e} (h : m.IsWhole) (X : s.Idx → Elt F e)
    {off : Fin s.rank → ℕ} (ho : off = fun _ => 0) (inb : ∀ a, off a + s.size a ≤ s.size a) :
    View.readAt (Elt F) m.view (Rect.unit off s.size inb).toLoadRect (h.unread X) = X := by
  rw [View.readAt_eq_ld, h.read_unread]
  funext x
  exact congrArg X (emb_unit_zero3 ho inb x)

/-- A buffer read back after a whole-rectangle store made last holds the stored payload, whatever was stored before. -/
private theorem read_writes_whole3 {s : Shape} {e : EltTy} (v : View sig .tc .vmem s e) (f : v.ty.Contents (Elt F))
    {off : Fin s.rank → ℕ} (ho : off = fun _ => 0) (inb : ∀ a, off a + s.size a ≤ s.size a) (w : s.Idx → Elt F e)
    (L : List (View.Piece (Elt F) s e)) :
    v.read (Elt F) (v.writes (Elt F) f (⟨Rect.unit off s.size inb, w⟩ :: L)) = w := by
  funext y
  rw [View.read_writes_apply_eq_canon v f y _ ⟨_, List.mem_cons_self, mem_unit_zero3 ho inb y⟩]
  have hy := View.canon_cons_emb (Rect.unit off s.size inb) w L y
  rwa [emb_unit_zero3 ho inb] at hy

/-- A whole-rectangle load after a whole-rectangle store made last reads the stored payload. -/
private theorem readCov_whole3 {s : Shape} {e : EltTy} (v : View sig .tc .vmem s e)
    {off : Fin s.rank → ℕ} (ho : off = fun _ => 0) (inb : ∀ a, off a + s.size a ≤ s.size a) (w : s.Idx → Elt F e)
    (L : List (View.Piece (Elt F) s e)) :
    v.readCov (⟨Rect.unit off s.size inb, w⟩ :: L) (Rect.unit off s.size inb).toLoadRect = w := by
  rw [View.readCov_eq_canon_ld v _ (Rect.unit off s.size inb) (fun y => ⟨_, List.mem_cons_self, mem_unit_zero3 ho inb y⟩)]
  funext x
  exact View.canon_cons_emb (Rect.unit off s.size inb) w L x

/-! ## The body's branch conditions and the output window's idle points, over the grid -/

/-- The first `scf.if`'s condition (the reduction coordinate is 0), from the grid coordinates. -/
abbrev cond3_0 (i : grid3.Coords) : Prop :=
  (Scalar.cmpi .ne (Scalar.extui (Scalar.cmpi .eq (BitVec.ofNat 32 (i 1).val) 0#32)) 0#32) = 1#1
/-- The second one's (the reduction coordinate is 7). -/
abbrev cond3_1 (i : grid3.Coords) : Prop := k3_cond2 i = 1#1

/-- Point `t` has reduction coordinate `t % 8`: the first condition holds where that is 0, -/
theorem hcond3_0 : ∀ t : Fin cfg3.N, cond3_0 (grid3.coords t) ↔ t.val % 8 = 0 :=
  (by decide +kernel : ∀ t : Fin grid3.N, cond3_0 (grid3.coords t) ↔ t.val % 8 = 0)
/-- the second where it is 7. -/
theorem hcond3_1 : ∀ t : Fin cfg3.N, cond3_1 (grid3.coords t) ↔ t.val % 8 = 7 :=
  (by decide +kernel : ∀ t : Fin grid3.N, cond3_1 (grid3.coords t) ↔ t.val % 8 = 7)

/-- The input windows are never idle. -/
theorem live3_0 (t : Fin cfg3.N) : cfg3.idle 0 (grid3.coords t) = false := rfl
theorem live3_1 (t : Fin cfg3.N) : cfg3.idle 1 (grid3.coords t) = false := rfl
/-- The output window is idle away from the last reduction step, -/
theorem idleAt3_2 : ∀ t : Fin cfg3.N, ¬t.val % 8 = 7 → cfg3.idle 2 (grid3.coords t) = true :=
  (by decide +kernel : ∀ t : Fin grid3.N, ¬t.val % 8 = 7 → idle3 2 (grid3.coords t) = true)
/-- live at it, -/
theorem liveAt3_2 : ∀ t : Fin cfg3.N, t.val % 8 = 7 → cfg3.idle 2 (grid3.coords t) = false :=
  (by decide +kernel : ∀ t : Fin grid3.N, t.val % 8 = 7 → idle3 2 (grid3.coords t) = false)
/-- and written back only there. -/
theorem noFlush3_2 (t : Fin cfg3.N) (h : ¬t.val % 8 = 7) : (cfg3.win 2).flush t = false :=
  Bool.eq_false_iff.mpr fun hf => h ((flush3_2 t).mp hf)

/-! ## The body on whole memrefs, case by case

`arg2`, `arg3` are the input blocks' buffers, `arg4` the output block's, `arg5` the scratch. In each case the inputs are
handed back as found and the scratch ends at the block product added to what it held — to the zeros just stored into it
when the reduction coordinate is 0. -/

set_option maxHeartbeats 1000000 in
/-- Reduction coordinate 0: the scratch, found at anything, is zeroed and the product added; the output's buffer is not touched. -/
theorem run3_first (c : Dev nD) (E : Set ℕ) (i : grid3.Coords)
    (arg2 : Memref sig .tc .vmem S2048x2048 .f32) (harg2 : arg2.IsWhole) (arg3 : Memref sig .tc .vmem S2048x16 .f32) (harg3 : arg3.IsWhole)
    (arg4 : Memref sig .tc .vmem S2048x16 .f32) (harg4 : arg4.IsWhole) (arg5 : Memref sig .tc .vmem S2048x16 .f32) (harg5 : arg5.IsWhole)
    (hc0 : cond3_0 i) (hc1 : ¬cond3_1 i)
    (x0 : Vec F S2048x2048 .f32) (x1 : Vec F S2048x16 .f32) (xi : Vec F S2048x16 .f32) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k3_pay2 x0 x1 k3_pay1)) -∗ K ⟨⟩))
      ⊢ wp frame (wpE (defs₀ (F := F)) Variants.none c none) E (cc3_kernel i arg2 harg2 arg3 harg3 arg4 harg4 arg5 harg5) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, Hk⟩
  obtain rfl := harg2.eq_unread hf0; obtain rfl := harg3.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact H3
  ipureintro
  rw [read_writes_whole3 _ _ zeros2_3, readAt_whole3 harg2 x0 zeros2_3, readAt_whole3 harg3 x1 zeros2_3]
  unfold run3_first.sl.v8 run3_first.sl.H3_1
  rw [readCov_whole3 _ zeros2_3]

set_option maxHeartbeats 1000000 in
/-- Reduction coordinate strictly between 0 and 7: the product is added to the scratch; the output's buffer is not touched. -/
theorem run3_mid (c : Dev nD) (E : Set ℕ) (i : grid3.Coords)
    (arg2 : Memref sig .tc .vmem S2048x2048 .f32) (harg2 : arg2.IsWhole) (arg3 : Memref sig .tc .vmem S2048x16 .f32) (harg3 : arg3.IsWhole)
    (arg4 : Memref sig .tc .vmem S2048x16 .f32) (harg4 : arg4.IsWhole) (arg5 : Memref sig .tc .vmem S2048x16 .f32) (harg5 : arg5.IsWhole)
    (hc0 : ¬cond3_0 i) (hc1 : ¬cond3_1 i)
    (x0 : Vec F S2048x2048 .f32) (x1 : Vec F S2048x16 .f32) (xi : Vec F S2048x16 .f32) (s : Vec F S2048x16 .f32) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare s
        ∗ (iprop(owns (c : Thread nD τ) arg2 fullShare x0 ∗ owns (c : Thread nD τ) arg3 fullShare x1 ∗ owns (c : Thread nD τ) arg4 fullShare xi
            ∗ owns (c : Thread nD τ) arg5 fullShare (k3_pay2 x0 x1 s)) -∗ K ⟨⟩))
      ⊢ wp frame (wpE (defs₀ (F := F)) Variants.none c none) E (cc3_kernel i arg2 harg2 arg3 harg3 arg4 harg4 arg5 harg5) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg5.eq_unread hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact H3
  ipureintro
  rw [read_writes_whole3 _ _ zeros2_3, readAt_whole3 harg2 x0 zeros2_3, readAt_whole3 harg3 x1 zeros2_3,
    readAt_whole3 harg5 s zeros2_3]

set_option maxHeartbeats 1000000 in
/-- Reduction coordinate 7: the product is added to the scratch, and the output's buffer, found at anything, is stored
    the sum. -/
theorem run3_last (c : Dev nD) (E : Set ℕ) (i : grid3.Coords)
    (arg2 : Memref sig .tc .vmem S2048x2048 .f32) (harg2 : arg2.IsWhole) (arg3 : Memref sig .tc .vmem S2048x16 .f32) (harg3 : arg3.IsWhole)
    (arg4 : Memref sig .tc .vmem S2048x16 .f32) (harg4 : arg4.IsWhole) (arg5 : Memref sig .tc .vmem S2048x16 .f32) (harg5 : arg5.IsWhole)
    (hc0 : ¬cond3_0 i) (hc1 : cond3_1 i)
    (x0 : Vec F S2048x2048 .f32) (x1 : Vec F S2048x16 .f32) (s : Vec F S2048x16 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare s
        ∗ (iprop(owns (c : Thread nD τ) arg2 fullShare x0 ∗ owns (c : Thread nD τ) arg3 fullShare x1
            ∗ owns (c : Thread nD τ) arg4 fullShare (k3_pay2 x0 x1 s)
            ∗ owns (c : Thread nD τ) arg5 fullShare (k3_pay2 x0 x1 s)) -∗ K ⟨⟩))
      ⊢ wp frame (wpE (defs₀ (F := F)) Variants.none c none) E (cc3_kernel i arg2 harg2 arg3 harg3 arg4 harg4 arg5 harg5) K := by
  simp only [cc3_kernel_eq_skeleton]; unfold cc3_kernel_skel
  unfold owns
  iintro ⟨⟨%f0, %hf0, H0⟩, ⟨%f1, %hf1, H1⟩, ⟨%d2, %f2, -, H2⟩, ⟨%f3, %hf3, H3⟩, Hk⟩
  obtain rfl := harg2.eq_unread hf0; obtain rfl := harg3.eq_unread hf1; obtain rfl := harg5.eq_unread hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [read_writes_whole3 _ _ zeros2_3]
    unfold run3_last.sl.v17 run3_last.sl.H3_1
    rw [readCov_whole3 _ zeros2_3, readAt_whole3 harg2 x0 zeros2_3, readAt_whole3 harg3 x1 zeros2_3,
      readAt_whole3 harg5 s zeros2_3]
  iexists _; isplitr
  swap; · iexact H3
  ipureintro
  unfold run3_last.sl.H3_1
  rw [read_writes_whole3 _ _ zeros2_3, readAt_whole3 harg2 x0 zeros2_3, readAt_whole3 harg3 x1 zeros2_3,
    readAt_whole3 harg5 s zeros2_3]

/-! ## The region's data at the entry contents `V` -/

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- the scratch after point n: reset to k3_pay1 at k = 0, then the block product added -/
def acc3 (c : Dev nD) : (n : ℕ) → n < cfg3.N → Vec F S2048x16 .f32
  | 0, h => k3_pay2 (iblk3 V c 0 ⟨0, h⟩) (iblk3 V c 1 ⟨0, h⟩) k3_pay1
  | n + 1, h => if (n + 1) % 8 = 0 then k3_pay2 (iblk3 V c 0 ⟨n + 1, h⟩) (iblk3 V c 1 ⟨n + 1, h⟩) k3_pay1
      else k3_pay2 (iblk3 V c 0 ⟨n + 1, h⟩) (iblk3 V c 1 ⟨n + 1, h⟩) (acc3 c n (Nat.lt_of_succ_lt h))

theorem acc3_zero (c : Dev nD) (h : 0 < cfg3.N) :
    acc3 V c 0 h = k3_pay2 (iblk3 V c 0 ⟨0, h⟩) (iblk3 V c 1 ⟨0, h⟩) k3_pay1 := rfl
theorem acc3_succ (c : Dev nD) (n : ℕ) (h : n + 1 < cfg3.N) :
    acc3 V c (n + 1) h = if (n + 1) % 8 = 0 then k3_pay2 (iblk3 V c 0 ⟨n + 1, h⟩) (iblk3 V c 1 ⟨n + 1, h⟩) k3_pay1
      else k3_pay2 (iblk3 V c 0 ⟨n + 1, h⟩) (iblk3 V c 1 ⟨n + 1, h⟩) (acc3 V c n (Nat.lt_of_succ_lt h)) := rfl

/-- At a point of reduction coordinate 0 the sum starts afresh from the zeros; -/
theorem acc3_reset (c : Dev nD) (t : Fin cfg3.N) (h0 : t.val % 8 = 0) :
    acc3 V c t.val t.isLt = k3_pay2 (iblk3 V c 0 t) (iblk3 V c 1 t) k3_pay1 := by
  obtain ⟨n, hn⟩ := t
  cases n with
  | zero => rfl
  | succ n => exact (acc3_succ V c n hn).trans (if_pos h0)

/-- at any other it adds the point's product to the sum the point before left. -/
theorem acc3_step (c : Dev nD) (t : Fin cfg3.N) (h0 : ¬t.val % 8 = 0) :
    acc3 V c t.val t.isLt = k3_pay2 (iblk3 V c 0 t) (iblk3 V c 1 t)
      (acc3 V c (t.val - 1) (Nat.lt_of_le_of_lt (Nat.sub_le _ _) t.isLt)) := by
  obtain ⟨n, hn⟩ := t
  cases n with
  | zero => exact absurd (Nat.zero_mod 8) h0
  | succ n => exact (acc3_succ V c n hn).trans (if_neg h0)

/-- The scratch operand: a whole scoped buffer of the kernel's own, passed beside the windows. -/
abbrev scM3 : Memref sig .tc .vmem S2048x16 .f32 := Memref.whole cc3_scratch0

/-- What the class invariant holds beside the scratch: the core's other scoped buffers that are no staging buffer of this
    call, at some contents each, and the generator register at some state. -/
def rest3 (c : Dev nD) : sProp 𝕄 :=
  iprop(Pipeline.scopedRestBut (Ix := Unit) (Name := ℕ) (U := UR sig nD τ) (Lvl := ℕ) (Val := Elt F) spec3 c [cc3_scratch0]
    ∗ ∃ r, prngReg c r)

/-- The class invariant is the scratch at some contents beside the rest. -/
theorem PhiA3_eq (c : Dev nD) :
    (Pipeline.ΦA spec3 c : sProp 𝕄) = iprop((∃ d, owns (c : Thread nD τ) scM3 fullShare d) ∗ rest3 (F := F) c) := by
  unfold Pipeline.ΦA rest3
  rw [Pipeline.scopedRest_split_of_list spec3 c [cc3_scratch0] (by decide) (by decide)]
  simp only [bigSepL_singleton, scM3, owns_whole]
  exact equiv_iff.mp ⟨BI.sep_assoc, BI.sep_assoc'⟩

/-- The region invariant before position `n`: the class's before the first point; afterwards the same with the scratch
    NAMED at the sum the point before left. -/
def Phi3 (c : Dev nD) : (n : ℕ) → n ≤ cfg3.N → sProp 𝕄
  | 0, _ => Pipeline.ΦA spec3 c
  | n + 1, hn => iprop(owns (c : Thread nD τ) scM3 fullShare (acc3 V c n hn) ∗ rest3 (F := F) c)

theorem Phi3_succ (c : Dev nD) (n : ℕ) (hn : n < cfg3.N) :
    Phi3 V c (n + 1) hn = iprop(owns (c : Thread nD τ) scM3 fullShare (acc3 V c n hn) ∗ rest3 (F := F) c) := rfl

theorem Phi3_pos (c : Dev nD) (n : ℕ) (h : n ≤ cfg3.N) (hz : n ≠ 0) :
    Phi3 V c n h = iprop(owns (c : Thread nD τ) scM3 fullShare (acc3 V c (n - 1) (by omega)) ∗ rest3 (F := F) c) := by
  cases n with
  | zero => exact absurd rfl hz
  | succ n => rfl

/-- Before any point the invariant yields the scratch at some contents beside the rest. -/
theorem Phi3_open (c : Dev nD) (n : ℕ) (h : n ≤ cfg3.N) :
    Phi3 V c n h ⊢ iprop((∃ d, owns (c : Thread nD τ) scM3 fullShare d) ∗ rest3 (F := F) c) := by
  cases n with
  | zero => rw [show Phi3 V c 0 h = Pipeline.ΦA spec3 c from rfl, PhiA3_eq]
  | succ n =>
    rw [Phi3_succ]
    iintro ⟨HS, HR⟩
    isplitl [HS]
    · iexists _; iexact HS
    iexact HR

/-- The proof data of the call on core `c`: the arrays as the region finds them; after the body at point `t` each input's
    buffer at its block and the output's at the sum; the invariant `Phi3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val t.isLt := by dsimp only [dat3]
theorem owed3 (c : Dev nD) (t) : (dat3 V c).owed t = 0 := by dsimp only [dat3]
theorem share3 (c : Dev nD) (w) : (dat3 V c).q w = fullShare := by dsimp only [dat3]

/-- The invariant at a point's start, restated at the point's position. -/
theorem Phi3_castSucc (c : Dev nD) (t : Fin cfg3.N) :
    (dat3 V c).Φ t.castSucc = Phi3 V c t.val (Nat.le_of_lt t.isLt) := by
  dsimp only [dat3]; simp only [Fin.coe_castSucc]

/-- Each input window is fetched at every point, so its current staging buffer holds its block there. -/
theorem before3_0 (c : Dev nD) (t : Fin cfg3.N) (d) : (dat3 V c).before 0 t d = iblk3 V c 0 t := by
  rw [(dat3 V c).before_fetched 0 t (fetch3_0 t) d]
  unfold Dat.fetched Dat.blockOf iblk3; rw [A_eq3]; rfl
theorem before3_1 (c : Dev nD) (t : Fin cfg3.N) (d) : (dat3 V c).before 1 t d = iblk3 V c 1 t := by
  rw [(dat3 V c).before_fetched 1 t (fetch3_1 t) d]
  unfold Dat.fetched Dat.blockOf iblk3; rw [A_eq3]; rfl

/-- The inputs' buffers are handed back at their blocks. -/
theorem leaves3_0 (c : Dev nD) (t : Fin cfg3.N) :
    (dat3 V c).leavesExact 0 t = owns (c : Thread nD τ) (st3_0 t) fullShare (iblk3 V c 0 t) := by
  have h : (dat3 V c).leavesExact 0 t = owns (c : Thread nD τ) (st3_0 t) fullShare ((dat3 V c).after 0 t) := rfl
  rw [h, after3_0]
theorem leaves3_1 (c : Dev nD) (t : Fin cfg3.N) :
    (dat3 V c).leavesExact 1 t = owns (c : Thread nD τ) (st3_1 t) fullShare (iblk3 V c 1 t) := by
  have h : (dat3 V c).leavesExact 1 t = owns (c : Thread nD τ) (st3_1 t) fullShare ((dat3 V c).after 1 t) := rfl
  rw [h, after3_1]
/-- At the last reduction step the output's buffer is handed back at the sum. -/
theorem leaves3_2 (c : Dev nD) (t : Fin cfg3.N) (h7 : t.val % 8 = 7) :
    (dat3 V c).leavesExact 2 t = owns (c : Thread nD τ) (st3_2 t) fullShare (acc3 V c t.val t.isLt) := by
  rw [← after3_2 V c t]; unfold Dat.leavesExact; rw [liveAt3_2 t h7]

/-! ## The body obligation -/

/-- What the body is called with at point `t` (the library's obligation, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 1000000 in
/-- A point of reduction coordinate 0: the invariant yields the scratch at whatever it holds (the class's own at the first
    point, the previous row's finished sum later), the body leaves it at the fresh sum; the output's buffer, idle, goes
    back as found. -/
theorem sound_body3_first (c : Dev nD) (t : Fin cfg3.N) (h0 : t.val % 8 = 0) :
    bodyPre3 V c t ⊢ wp frame (wpE (defs₀ (F := F)) Variants.none c none) Set.univ (bodyAt3 t) (fun _ => bodyPost3 V c t) := by
  have h7 : ¬t.val % 8 = 7 := by omega
  unfold bodyPre3 bodyPost3 bodyAt3
  simp only [before3_0, before3_1]
  rw [show (dat3 V c).owesAt () t.succ = (dat3 V c).owesAt () t.castSucc from rfl,
    show (dat3 V c).Φ t.succ = Phi3 V c (t.val + 1) t.isLt from rfl, Phi3_succ,
    leaves3_0, leaves3_1, Dat.leavesExact_idle (dat3 V c) 2 t (idleAt3_2 t h7) (noFlush3_2 t h7),
    Phi3_castSucc, acc3_reset V c t h0]
  iintro ⟨HΦ, Ho, ⟨%d0, H0⟩, ⟨%d1, H1⟩, ⟨%d2, H2⟩⟩
  ihave HΦ' := (Phi3_open V c t.val (Nat.le_of_lt t.isLt)) $$ HΦ
  icases HΦ' with ⟨HS, HR⟩
  iapply (run3_first c Set.univ (grid3.coords t) _ _ _ _ _ _ _ _ ((hcond3_0 t).mpr h0) (fun h => h7 ((hcond3_1 t).mp h))
    (iblk3 V c 0 t) (iblk3 V c 1 t) _ _)
  isplitl [H0]; · iexact H0
  isplitl [H1]; · iexact H1
  isplitl [H2]; · iexact H2
  isplitl [HS]; · iexact HS
  iintro ⟨H0, H1, H2, HS⟩
  isplitl [HS HR]
  · isplitl [HS]; · iexact HS
    iexact HR
  isplitl [Ho]; · iexact Ho
  isplitl [H0]; · iexact H0
  isplitl [H1]; · iexact H1
  iexists d2; iexact H2

set_option maxHeartbeats 1000000 in
/-- A point of reduction coordinate strictly between 0 and 7: the invariant names the scratch at the sum so far, the body
    adds the point's product; the output's buffer, idle, goes back as found. -/
theorem sound_body3_mid (c : Dev nD) (t : Fin cfg3.N) (h0 : ¬t.val % 8 = 0) (h7 : ¬t.val % 8 = 7) :
    bodyPre3 V c t ⊢ wp frame (wpE (defs₀ (F := F)) Variants.none c none) Set.univ (bodyAt3 t) (fun _ => bodyPost3 V c t) := by
  have hz : t.val ≠ 0 := fun e => h0 (by rw [e])
  unfold bodyPre3 bodyPost3 bodyAt3
  simp only [before3_0, before3_1]
  rw [show (dat3 V c).owesAt () t.succ = (dat3 V c).owesAt () t.castSucc from rfl,
    show (dat3 V c).Φ t.succ = Phi3 V c (t.val + 1) t.isLt from rfl, Phi3_succ,
    leaves3_0, leaves3_1, Dat.leavesExact_idle (dat3 V c) 2 t (idleAt3_2 t h7) (noFlush3_2 t h7),
    Phi3_castSucc, Phi3_pos V c _ _ hz, acc3_step V c t h0]
  iintro ⟨⟨HS, HR⟩, Ho, ⟨%d0, H0⟩, ⟨%d1, H1⟩, ⟨%d2, H2⟩⟩
  iapply (run3_mid c Set.univ (grid3.coords t) _ _ _ _ _ _ _ _ (fun h => h0 ((hcond3_0 t).mp h)) (fun h => h7 ((hcond3_1 t).mp h))
    (iblk3 V c 0 t) (iblk3 V c 1 t) _ _ _)
  isplitl [H0]; · iexact H0
  isplitl [H1]; · iexact H1
  isplitl [H2]; · iexact H2
  isplitl [HS]; · iexact HS
  iintro ⟨H0, H1, H2, HS⟩
  isplitl [HS HR]
  · isplitl [HS]; · iexact HS
    iexact HR
  isplitl [Ho]; · iexact Ho
  isplitl [H0]; · iexact H0
  isplitl [H1]; · iexact H1
  iexists d2; iexact H2

set_option maxHeartbeats 1000000 in
/-- A point of reduction coordinate 7: as before for the scratch; the output's buffer, live here and found at anything,
    goes back at the sum. -/
theorem sound_body3_last (c : Dev nD) (t : Fin cfg3.N) (h7 : t.val % 8 = 7) :
    bodyPre3 V c t ⊢ wp frame (wpE (defs₀ (F := F)) Variants.none c none) Set.univ (bodyAt3 t) (fun _ => bodyPost3 V c t) := by
  have h0 : ¬t.val % 8 = 0 := by omega
  have hz : t.val ≠ 0 := fun e => h0 (by rw [e])
  unfold bodyPre3 bodyPost3 bodyAt3
  simp only [before3_0, before3_1]
  rw [show (dat3 V c).owesAt () t.succ = (dat3 V c).owesAt () t.castSucc from rfl,
    show (dat3 V c).Φ t.succ = Phi3 V c (t.val + 1) t.isLt from rfl, Phi3_succ,
    leaves3_0, leaves3_1, leaves3_2 V c t h7,
    Phi3_castSucc, Phi3_pos V c _ _ hz, acc3_step V c t h0]
  iintro ⟨⟨HS, HR⟩, Ho, ⟨%d0, H0⟩, ⟨%d1, H1⟩, ⟨%d2, H2⟩⟩
  iapply (run3_last c Set.univ (grid3.coords t) _ _ _ _ _ _ _ _ (fun h => h0 ((hcond3_0 t).mp h)) ((hcond3_1 t).mpr h7)
    (iblk3 V c 0 t) (iblk3 V c 1 t) _ _)
  isplitl [H0]; · iexact H0
  isplitl [H1]; · iexact H1
  isplitl [H2]; · iexists _; iexact H2
  isplitl [HS]; · iexact HS
  iintro ⟨H0, H1, H2, HS⟩
  isplitl [HS HR]
  · isplitl [HS]; · iexact HS
    iexact HR
  isplitl [Ho]; · iexact Ho
  isplitl [H0]; · iexact H0
  isplitl [H1]; · iexact H1
  iexact H2

/-- The body at any point, by its reduction coordinate. -/
theorem sound_body3 (c : Dev nD) (t : Fin cfg3.N)  :
    bodyPre3 V c t ⊢ wp frame (wpE (defs₀ (F := F)) Variants.none c none) Set.univ (bodyAt3 t) (fun _ => bodyPost3 V c t) := by
  by_cases h0 : t.val % 8 = 0
  · exact sound_body3_first V c t h0
  · by_cases h7 : t.val % 8 = 7
    · exact sound_body3_last V c t h7
    · exact sound_body3_mid V c t h0 h7

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = Pipeline.ΦA spec3 c from rfl]

/-- After the last point the invariant gives the class's back: the sum the scratch is named at is forgotten. -/
theorem hout3 (c : Dev nD) : (dat3 V c).Φ (Fin.last cfg3.N) ⊢ Pipeline.ΦA spec3 c := by
  rw [show (dat3 V c).Φ (Fin.last cfg3.N) = Phi3 V c cfg3.N (Nat.le_refl _) from rfl, PhiA3_eq]
  exact Phi3_open V c _ _

end Cert.Kernel.Frm

end
-- ==== Proof.K.Run.lean ====
/-
  The run of the whole program. Its main function is six items in a row: a reshape of the first bias vector to a
  row, the first linear layer, the first aggregation, a reshape of the second bias vector to a row, the second
  linear layer, the second aggregation. The contents of the unscoped buffers are folded through the items from the
  launch memory: a reshape rewrites its one result buffer, a pipelined region rewrites its windows' arrays with what
  its write-backs leave (an input array as it was entered, the output array at the fold of the output blocks) and
  leaves every other buffer alone. Each region is entered holding every unscoped buffer at the fold's contents
  before it and left holding them at the fold's contents after it; the launch threads the six items, and at the end
  every unscoped buffer is read off the last contents. No item writes an argument array, so each argument ends as
  launched; the result array ends at what the last region leaves in it.
-/
import proofs.«123152_j43731357008092_1_alg».proof.Proof.Gen.Kernel.Launch
import proofs.«123152_j43731357008092_1_alg».proof.Proof.Gen.Kernel.Skeleton
import proofs.«123152_j43731357008092_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«123152_j43731357008092_1_alg».proof.Proof.K.Lin0
import proofs.«123152_j43731357008092_1_alg».proof.Proof.K.Acc1
import proofs.«123152_j43731357008092_1_alg».proof.Proof.K.Lin2
import proofs.«123152_j43731357008092_1_alg».proof.Proof.K.Acc3

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between two items -/

/-- A core's buffers at launch. -/
abbrev W0 : Dev nD → Valuation τ sig (Elt F) := fun c b => (s₀ m ρ).mem ((c : Dev nD), b)
theorem W0_apply (c : Dev nD) (b : Ref sig .tc) : W0 m ρ c (Proc.devRef .tc b) = m ((c : Thread nD τ).loc b) := rfl

/-- After the first reshape: the first bias vector laid out as a row. -/
abbrev W1 : Dev nD → Valuation τ sig (Elt F) := fun c => StableHlo.after hostOps0 (W0 m ρ c)
/-- The same, read at the TensorCore's references: what the first linear layer is entered with. -/
abbrev V1 : (c : Dev nD) → (b : Ref sig .tc) → Buf (Elt F) ((c : Thread nD τ).loc b) := fun c b => W1 m ρ c b

/-- After the first linear layer: its windows' arrays at what the pipeline leaves in them, every other buffer as it
    was entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- What the first aggregation is entered with. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the first aggregation. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same, read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second reshape: the second bias vector laid out as a row. -/
abbrev W4 : Dev nD → Valuation τ sig (Elt F) := fun c => StableHlo.after hostOps2 (W3 m ρ c)
/-- What the second linear layer is entered with. -/
abbrev V4 : (c : Dev nD) → (b : Ref sig .tc) → Buf (Elt F) ((c : Thread nD τ).loc b) := fun c b => W4 m ρ c b

/-- After the second linear layer. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- What the second aggregation is entered with. -/
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the second aggregation: the contents the program ends with. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- The same, read at the TensorCore's references. -/
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-! ## What each item leaves unchanged

A reshape writes its result buffer only. A region writes its output window's array only: an input window's array is
never written back, so the pipeline leaves it at its entry contents, and a buffer that is no window's array bypasses
the region. -/

theorem W1_keep (c : Dev nD) (b : Ref sig .tc) (h : b ≠ main_v0) :
    W1 m ρ c (Proc.devRef .tc b) = W0 m ρ c (Proc.devRef .tc b) := by
  show StableHlo.after hostOps0 (W0 m ρ c) (Proc.devRef .tc b) = _
  simp only [hostOps0, StableHlo.after_cons, StableHlo.after_nil]
  rw [StableHlo.reshape_result_ne]; exact h

theorem W2_keep (c : Dev nD) (b : Ref sig .tc) (h : b ≠ main_v1) :
    W2 m ρ c (Proc.devRef .tc b) = W1 m ρ c (Proc.devRef .tc b) := by
  by_cases hb : ∃ w, Pipeline.arrRef spec0 w = b
  · obtain ⟨w, rfl⟩ := hb
    have hw : (cfg0.win w).isOut = false := by
      revert h; revert w; decide
    exact (W2_arr m ρ c w).trans (((dat0 (V1 m ρ) c).arrAt_in w hw _).trans (A_eq0 (V1 m ρ) c w))
  · exact W2_of_ne m ρ c b fun w e => hb ⟨w, e⟩

theorem W3_keep (c : Dev nD) (b : Ref sig .tc) (h : b ≠ main_v2) :
    W3 m ρ c (Proc.devRef .tc b) = W2 m ρ c (Proc.devRef .tc b) := by
  by_cases hb : ∃ w, Pipeline.arrRef spec1 w = b
  · obtain ⟨w, rfl⟩ := hb
    have hw : (cfg1.win w).isOut = false := by
      revert h; revert w; decide
    exact (W3_arr m ρ c w).trans (((dat1 (V2 m ρ) c).arrAt_in w hw _).trans (A_eq1 (V2 m ρ) c w))
  · exact W3_of_ne m ρ c b fun w e => hb ⟨w, e⟩

theorem W4_keep (c : Dev nD) (b : Ref sig .tc) (h : b ≠ main_v3) :
    W4 m ρ c (Proc.devRef .tc b) = W3 m ρ c (Proc.devRef .tc b) := by
  show StableHlo.after hostOps2 (W3 m ρ c) (Proc.devRef .tc b) = _
  simp only [hostOps2, StableHlo.after_cons, StableHlo.after_nil]
  rw [StableHlo.reshape_result_ne]; exact h

theorem W5_keep (c : Dev nD) (b : Ref sig .tc) (h : b ≠ main_v4) :
    W5 m ρ c (Proc.devRef .tc b) = W4 m ρ c (Proc.devRef .tc b) := by
  by_cases hb : ∃ w, Pipeline.arrRef spec2 w = b
  · obtain ⟨w, rfl⟩ := hb
    have hw : (cfg2.win w).isOut = false := by
      revert h; revert w; decide
    exact (W5_arr m ρ c w).trans (((dat2 (V4 m ρ) c).arrAt_in w hw _).trans (A_eq2 (V4 m ρ) c w))
  · exact W5_of_ne m ρ c b fun w e => hb ⟨w, e⟩

theorem W6_keep (c : Dev nD) (b : Ref sig .tc) (h : b ≠ main_v5) :
    W6 m ρ c (Proc.devRef .tc b) = W5 m ρ c (Proc.devRef .tc b) := by
  by_cases hb : ∃ w, Pipeline.arrRef spec3 w = b
  · obtain ⟨w, rfl⟩ := hb
    have hw : (cfg3.win w).isOut = false := by
      revert h; revert w; decide
    exact (W6_arr m ρ c w).trans (((dat3 (V5 m ρ) c).arrAt_in w hw _).trans (A_eq3 (V5 m ρ) c w))
  · exact W6_of_ne m ρ c b fun w e => hb ⟨w, e⟩

/-! ## What each region finds in the arrays it reads, and what the program ends with -/

/-- The first linear layer reads the activations, -/
theorem V1_arg0 (c : Dev nD) : V1 m ρ c main_arg0 = m ((c : Thread nD τ).loc main_arg0) :=
  W1_keep m ρ c main_arg0 (by decide)
/-- the first weight matrix, -/
theorem V1_arg2 (c : Dev nD) : V1 m ρ c main_arg2 = m ((c : Thread nD τ).loc main_arg2) :=
  W1_keep m ρ c main_arg2 (by decide)
/-- and the first bias vector as a row: element `(0, j)` of the row is element `j` of the vector. -/
theorem V1_v0 (c : Dev nD) :
    V1 m ρ c main_v0 = shapeCast S1x32 (m ((c : Thread nD τ).loc main_arg3)) shapeCasts_S32_S1x32 := by
  show StableHlo.after hostOps0 (W0 m ρ c) (Proc.devRef .tc main_v0) = _
  after_results
  rfl

/-- The first aggregation reads the square matrix (the second argument) -/
theorem V2_arg1 (c : Dev nD) : V2 m ρ c main_arg1 = m ((c : Thread nD τ).loc main_arg1) :=
  (W2_keep m ρ c main_arg1 (by decide)).trans (W1_keep m ρ c main_arg1 (by decide))
/-- and what the first linear layer left in its output array. -/
theorem V2_v1 (c : Dev nD) : V2 m ρ c main_v1 = (dat0 (V1 m ρ) c).arrAt 3 cfg0.N := W2_arr m ρ c 3

/-- The second linear layer reads what the first aggregation left in its output array, -/
theorem V4_v2 (c : Dev nD) : V4 m ρ c main_v2 = (dat1 (V2 m ρ) c).arrAt 2 cfg1.N :=
  (W4_keep m ρ c main_v2 (by decide)).trans (W3_arr m ρ c 2)
/-- the second weight matrix, -/
theorem V4_arg4 (c : Dev nD) : V4 m ρ c main_arg4 = m ((c : Thread nD τ).loc main_arg4) :=
  (W4_keep m ρ c main_arg4 (by decide)).trans <| (W3_keep m ρ c main_arg4 (by decide)).trans <|
    (W2_keep m ρ c main_arg4 (by decide)).trans (W1_keep m ρ c main_arg4 (by decide))
/-- The second bias vector reaches the second reshape as launched. -/
theorem W3_arg5 (c : Dev nD) : W3 m ρ c (Proc.devRef .tc main_arg5) = m ((c : Thread nD τ).loc main_arg5) :=
  (W3_keep m ρ c main_arg5 (by decide)).trans <|
    (W2_keep m ρ c main_arg5 (by decide)).trans (W1_keep m ρ c main_arg5 (by decide))
/-- and the second bias vector as a row. -/
theorem V4_v3 (c : Dev nD) :
    V4 m ρ c main_v3 = shapeCast S1x16 (m ((c : Thread nD τ).loc main_arg5)) shapeCasts_S16_S1x16 := by
  rw [← W3_arg5 m ρ c]
  show StableHlo.after hostOps2 (W3 m ρ c) (Proc.devRef .tc main_v3) = _
  after_results
  rfl

/-- The second aggregation reads the square matrix (the second argument) -/
theorem V5_arg1 (c : Dev nD) : V5 m ρ c main_arg1 = m ((c : Thread nD τ).loc main_arg1) :=
  (W5_keep m ρ c main_arg1 (by decide)).trans <| (W4_keep m ρ c main_arg1 (by decide)).trans <|
    (W3_keep m ρ c main_arg1 (by decide)).trans <| (W2_keep m ρ c main_arg1 (by decide)).trans (W1_keep m ρ c main_arg1 (by decide))
/-- and what the second linear layer left in its output array. -/
theorem V5_v4 (c : Dev nD) : V5 m ρ c main_v4 = (dat2 (V4 m ρ) c).arrAt 3 cfg2.N := W5_arr m ρ c 3

/-- The result array ends at what the second aggregation leaves in it. -/
theorem W6_out (c : Dev nD) : W6 m ρ c (Proc.devRef .tc main_v5) = (dat3 (V5 m ρ) c).arrAt 2 cfg3.N := W6_arr m ρ c 2

/-- A buffer that is no item's result ends as launched: every item leaves it alone. -/
theorem W6_of_arg (c : Dev nD) (b : Ref sig .tc) (h0 : b ≠ main_v0) (h1 : b ≠ main_v1) (h2 : b ≠ main_v2)
    (h3 : b ≠ main_v3) (h4 : b ≠ main_v4) (h5 : b ≠ main_v5) :
    W6 m ρ c (Proc.devRef .tc b) = m ((c : Thread nD τ).loc b) :=
  (W6_keep m ρ c b h5).trans <| (W5_keep m ρ c b h4).trans <| (W4_keep m ρ c b h3).trans <|
    (W3_keep m ρ c b h2).trans <| (W2_keep m ρ c b h1).trans (W1_keep m ρ c b h0)

theorem W6_main_arg0 (c : Dev nD) : W6 m ρ c (Proc.devRef .tc main_arg0) = m ((c : Thread nD τ).loc main_arg0) :=
  W6_of_arg m ρ c main_arg0 (by decide) (by decide) (by decide) (by decide) (by decide) (by decide)
theorem W6_main_arg1 (c : Dev nD) : W6 m ρ c (Proc.devRef .tc main_arg1) = m ((c : Thread nD τ).loc main_arg1) :=
  W6_of_arg m ρ c main_arg1 (by decide) (by decide) (by decide) (by decide) (by decide) (by decide)
theorem W6_main_arg2 (c : Dev nD) : W6 m ρ c (Proc.devRef .tc main_arg2) = m ((c : Thread nD τ).loc main_arg2) :=
  W6_of_arg m ρ c main_arg2 (by decide) (by decide) (by decide) (by decide) (by decide) (by decide)
theorem W6_main_arg3 (c : Dev nD) : W6 m ρ c (Proc.devRef .tc main_arg3) = m ((c : Thread nD τ).loc main_arg3) :=
  W6_of_arg m ρ c main_arg3 (by decide) (by decide) (by decide) (by decide) (by decide) (by decide)
theorem W6_main_arg4 (c : Dev nD) : W6 m ρ c (Proc.devRef .tc main_arg4) = m ((c : Thread nD τ).loc main_arg4) :=
  W6_of_arg m ρ c main_arg4 (by decide) (by decide) (by decide) (by decide) (by decide) (by decide)
theorem W6_main_arg5 (c : Dev nD) : W6 m ρ c (Proc.devRef .tc main_arg5) = m ((c : Thread nD τ).loc main_arg5) :=
  W6_of_arg m ρ c main_arg5 (by decide) (by decide) (by decide) (by decide) (by decide) (by decide)

/-! ## The proof data of the four pipelines and the thread state between items -/

/-- No pipeline has a prefetched table. -/
abbrev adm : (p : Fin 4) → (pcfgs (F := F) p).Adm := fun p => (cfgs p).toPCfg_adm
/-- Each pipeline's proof data, at the contents its region is entered with. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V5 m ρ) c
abbrev 𝒱₀ : Variants := Variants.none
/-- No core owes another anything. -/
abbrev L : GSem nD τ sig → Finset Unit := fun _ => ∅
abbrev lv : GSem nD τ sig → Unit → ℕ := fun _ _ => 0
/-- What a core holds beside its unscoped buffers between two items: its generator register at some state, and its
    dues, which are none. -/
abbrev R (c : Dev nD) : sProp 𝕄 := iprop((∃ r, prngReg c r) ∗ ∃ W, owes (c : Thread nD τ) (0 : CellTallies nD τ sig Unit) W)
/-- A stretch of host operations from the contents `W`, run holding every unscoped buffer; it leaves them at the
    operations' results. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A reshape allocates nothing. -/
theorem fresh0 : (hostOps0 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor
/-- An unscoped TensorCore reference is among the buffers a core holds between items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core holds at the end, its dues apart: every unscoped buffer at the last contents, the generator register. -/
abbrev Tₙ (c : Dev nD) : sProp 𝕄 := iprop(StableHlo.held (c : Thread nD τ) (Pipeline.ucRefs τ sig) (W6 m ρ c) ∗ ∃ r, prngReg c r)

/-! ## The four regions

Each is entered holding every unscoped buffer: its windows' arrays are split off at the proof data's entry contents,
the rest bypasses the region; the generator register goes into the region's invariant with the scoped buffers no
window stages, and comes back; nothing is owed at any point. At the exit the arrays, now at what the pipeline left,
are put back among the bypassing buffers: together they are every unscoped buffer at the next contents of the fold. -/

set_option backward.isDefEq.respectTransparency.types false in
/-- The first linear layer: entered at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The first aggregation: entered at `W2`, left at `W3`. Its invariant carries more than the scoped rest and the
    generator register (the accumulator's contents from point to point); it is entered from those two and gives them
    back at the last point. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun c t => owed1 (V2 m ρ) c t
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => share1 (V2 m ρ) c w) (V2 m ρ c) fun w => A_eq1 (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    refine BIBase.Entails.trans (hout1 (V2 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => share1 (V2 m ρ) c w)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second linear layer: entered at `W4`, left at `W5`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun w => A_eq2 (V4 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second aggregation: entered at `W5`, left at `W6`, which is what the program ends with. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun c t => owed3 (V5 m ρ) c t
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun w => share3 (V5 m ρ) c w) (V5 m ρ c) fun w => A_eq3 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V5 m ρ) c)
    unfold Pipeline.ΦA
    iintro ⟨Hp, -, Hr⟩
    isplitl [Hr]; · iexact Hr
    iexact Hp
  hout c := by
    refine BIBase.Entails.trans (hout3 (V5 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun w => share3 (V5 m ρ) c w)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The six items in order, and the launch -/

/-- The program's items: a host stretch per reshape from its boundary's contents, a region per pipeline. -/
abbrev segs : List (Pipeline.Seg (pcfgs (F := F)) adm (pdats m ρ) () defs₀ 𝒱₀ L lv) :=
  [ .host (hseg hostOps0 hostOps0_sub fresh0 (W0 m ρ)),
    .region (reg0 m ρ),
    .region (reg1 m ρ),
    .host (hseg hostOps2 hostOps2_sub fresh2 (W3 m ρ)),
    .region (reg2 m ρ),
    .region (reg3 m ρ) ]
/-- The main function is the run of those items. -/
theorem main_run (c : Dev nD) : main (F := F) c = Pipeline.Seg.run (segs m ρ) := (main_chain c).trans (by chain_rfl)

set_option backward.isDefEq.respectTransparency.types false in
/-- From any memory with every counter at zero, every weakly fair execution of the program terminates without a fault,
    and at the end every unscoped buffer of every core holds the last contents of the fold. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- Every argument array ends holding what it held at launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c)⟩) (run_main m ρ)

end Cert.Kernel.Frm

end
-- ==== Proof.KI.Lin0.lean ====
/-
  The first linear layer as one pipelined region: eight grid points, point `t` taking rows `2048 t … 2048 t + 2047`
  of the activations, the whole weight matrix and the bias row, and leaving in its output block the product of the
  row block with the weights plus the bias row on every row. Everything is stated at the contents `V` the buffers
  hold when the region is entered, for any number format: the body's effect is one store of one value, a function
  of the three blocks it loads.
-/
import proofs.«123152_j43731357008092_1_alg».proof.Proof.Gen.KernelIdeal.Launch
import proofs.«123152_j43731357008092_1_alg».proof.Proof.Gen.KernelIdeal.Skeleton
import proofs.«123152_j43731357008092_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a point works on -/

/-- The block of window `w`'s array that grid point `t` works on, read off the contents the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the activations is in its staging buffer at every point (it is fetched at each). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights are fetched once; their block index never moves, so the buffer holds them at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the bias row. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output block -/

/-- The whole of each staging buffer, as the rectangle the body loads or stores through. -/
abbrev rX0 : Rect S2048x512 := Rect.unit (s := S2048x512) ![0, 0] S2048x512.size inb_S2048x512_S2048x512_0_0
abbrev rW0 : Rect S512x32 := Rect.unit (s := S512x32) ![0, 0] S512x32.size inb_S512x32_S512x32_0_0
abbrev rB0 : Rect S1x32 := Rect.unit (s := S1x32) ![0, 0] S1x32.size inb_S1x32_S1x32_0_0
abbrev rO0 : Rect S2048x32 := Rect.unit (s := S2048x32) ![0, 0] S2048x32.size inb_S2048x32_S2048x32_0_0

/-- The output block after the body: its one store, of the product-plus-bias of the three loaded blocks, over the whole block. -/
def out0_3 (x0 : Vec F S2048x512 .f32) (x1 : Vec F S512x32 .f32) (x2 : Vec F S1x32 .f32) : Vec F S2048x32 .f32 :=
  View.canon [⟨rO0, k0_pay1 (View.ld x0 rX0) (View.ld x1 rW0) (View.ld x2 rB0)⟩]

/-- That store covers the block. -/
theorem cover0_3 (p0 : Vec F S2048x32 .f32) (y : S2048x32.Idx) :
    ∃ pc ∈ ([⟨rO0, p0⟩] : List (View.Piece (Elt F) S2048x32 .f32)), y ∈ pc.1.set :=
  View.cover_of_tiled [⟨rO0, p0⟩] S2048x32.size (by rfl) y

/-! ## The body on whole buffers -/

set_option maxHeartbeats 1000000 in
/-- From the three input buffers at read contents `x0`, `x1`, `x2` and the output buffer at anything, the body runs to
    its end with the inputs as they were and the output at `out0_3` of them. -/
theorem sound_kernel0 (c : Dev nD) (E : Set ℕ) (i : grid0.Coords)
    (arg1 : Memref sig .tc .vmem S2048x512 .f32) (harg1 : arg1.IsWhole) (arg2 : Memref sig .tc .vmem S512x32 .f32) (harg2 : arg2.IsWhole)
    (arg3 : Memref sig .tc .vmem S1x32 .f32) (harg3 : arg3.IsWhole) (arg4 : Memref sig .tc .vmem S2048x32 .f32) (harg4 : arg4.IsWhole)
    (x0 : Vec F S2048x512 .f32) (x1 : Vec F S512x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The arrays as the region finds them; after the body at point `t` each input's buffer at its block and the output's at
    `out0_3` of the three blocks; the invariant the scratch buffers and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline rule, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KI.Acc1.lean ====
/-
  Region 1 of the program (the call of `cc1_kernel` on its 8x8 grid) as the per-region half of a frame proof, at the
  buffer contents `V` the region is entered with. The kernel is a blocked matrix product accumulated along the second grid
  axis `k`: a scratch buffer is zeroed at `k = 0`, the product of the two input blocks is added to it at every point, and
  at `k = 7` its rectified contents are stored into the output block. The scratch is the one piece of state carried from a point to the
  next, so the region invariant names its contents: `acc1`.
-/
import proofs.«123152_j43731357008092_1_alg».proof.Proof.Gen.KernelIdeal.Launch
import proofs.«123152_j43731357008092_1_alg».proof.Proof.Gen.KernelIdeal.Skeleton
import proofs.«123152_j43731357008092_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer accesses

Every access of the body goes through the unit rectangle at zero offsets of the buffer's own extents: it places each
index at itself, so a load through it reads the buffer's contents and a store through it leaves its payload. -/

private theorem zeros2_1 : (![0, 0] : Fin 2 → ℕ) = fun _ => 0 := by
  funext a; fin_cases a <;> rfl

private theorem emb_unit_zero1 {s : Shape} {off : Fin s.rank → ℕ} (ho : off = fun _ => 0)
    (inb : ∀ a, off a + s.size a ≤ s.size a) (x : (Rect.unit off s.size inb).shape.Idx) :
    (Rect.unit off s.size inb).emb x = x := by
  subst ho; exact Rect.emb_whole_apply s x

private theorem mem_unit_zero1 {s : Shape} {off : Fin s.rank → ℕ} (ho : off = fun _ => 0)
    (inb : ∀ a, off a + s.size a ≤ s.size a) (y : s.Idx) : y ∈ (Rect.unit off s.size inb).set := by
  subst ho; exact (Rect.set_whole s).symm ▸ Finset.mem_univ y

/-- A whole-rectangle load from a whole memref held at the raw contents reading `X` reads `X`. -/
private theorem readAt_whole1 {s : Shape} {e : EltTy} {m : Memref sig .tc .vmem s e} (h : m.IsWhole) (X : s.Idx → Elt F e)
    {off : Fin s.rank → ℕ} (ho : off = fun _ => 0) (inb : ∀ a, off a + s.size a ≤ s.size a) :
    View.readAt (Elt F) m.view (Rect.unit off s.size inb).toLoadRect (h.unread X) = X := by
  rw [View.readAt_eq_ld, h.read_unread]
  funext x
  exact congrArg X (emb_unit_zero1 ho inb x)

/-- A buffer read back after a whole-rectangle store made last holds the stored payload, whatever was stored before. -/
private theorem read_writes_whole1 {s : Shape} {e : EltTy} (v : View sig .tc .vmem s e) (f : v.ty.Contents (Elt F))
    {off : Fin s.rank → ℕ} (ho : off = fun _ => 0) (inb : ∀ a, off a + s.size a ≤ s.size a) (w : s.Idx → Elt F e)
    (L : List (View.Piece (Elt F) s e)) :
    v.read (Elt F) (v.writes (Elt F) f (⟨Rect.unit off s.size inb, w⟩ :: L)) = w := by
  funext y
  rw [View.read_writes_apply_eq_canon v f y _ ⟨_, List.mem_cons_self, mem_unit_zero1 ho inb y⟩]
  have hy := View.canon_cons_emb (Rect.unit off s.size inb) w L y
  rwa [emb_unit_zero1 ho inb] at hy

/-- A whole-rectangle load after a whole-rectangle store made last reads the stored payload. -/
private theorem readCov_whole1 {s : Shape} {e : EltTy} (v : View sig .tc .vmem s e)
    {off : Fin s.rank → ℕ} (ho : off = fun _ => 0) (inb : ∀ a, off a + s.size a ≤ s.size a) (w : s.Idx → Elt F e)
    (L : List (View.Piece (Elt F) s e)) :
    v.readCov (⟨Rect.unit off s.size inb, w⟩ :: L) (Rect.unit off s.size inb).toLoadRect = w := by
  rw [View.readCov_eq_canon_ld v _ (Rect.unit off s.size inb) (fun y => ⟨_, List.mem_cons_self, mem_unit_zero1 ho inb y⟩)]
  funext x
  exact View.canon_cons_emb (Rect.unit off s.size inb) w L x

/-! ## The body's branch conditions and the output window's idle points, over the grid -/

/-- The first `scf.if`'s condition (the reduction coordinate is 0), from the grid coordinates. -/
abbrev cond1_0 (i : grid1.Coords) : Prop :=
  (Scalar.cmpi .ne (Scalar.extui (Scalar.cmpi .eq (BitVec.ofNat 32 (i 1).val) 0#32)) 0#32) = 1#1
/-- The second one's (the reduction coordinate is 7). -/
abbrev cond1_1 (i : grid1.Coords) : Prop := k1_cond2 i = 1#1

/-- Point `t` has reduction coordinate `t % 8`: the first condition holds where that is 0, -/
theorem hcond1_0 : ∀ t : Fin cfg1.N, cond1_0 (grid1.coords t) ↔ t.val % 8 = 0 :=
  (by decide +kernel : ∀ t : Fin grid1.N, cond1_0 (grid1.coords t) ↔ t.val % 8 = 0)
/-- the second where it is 7. -/
theorem hcond1_1 : ∀ t : Fin cfg1.N, cond1_1 (grid1.coords t) ↔ t.val % 8 = 7 :=
  (by decide +kernel : ∀ t : Fin grid1.N, cond1_1 (grid1.coords t) ↔ t.val % 8 = 7)

/-- The input windows are never idle. -/
theorem live1_0 (t : Fin cfg1.N) : cfg1.idle 0 (grid1.coords t) = false := rfl
theorem live1_1 (t : Fin cfg1.N) : cfg1.idle 1 (grid1.coords t) = false := rfl
/-- The output window is idle away from the last reduction step, -/
theorem idleAt1_2 : ∀ t : Fin cfg1.N, ¬t.val % 8 = 7 → cfg1.idle 2 (grid1.coords t) = true :=
  (by decide +kernel : ∀ t : Fin grid1.N, ¬t.val % 8 = 7 → idle1 2 (grid1.coords t) = true)
/-- live at it, -/
theorem liveAt1_2 : ∀ t : Fin cfg1.N, t.val % 8 = 7 → cfg1.idle 2 (grid1.coords t) = false :=
  (by decide +kernel : ∀ t : Fin grid1.N, t.val % 8 = 7 → idle1 2 (grid1.coords t) = false)
/-- and written back only there. -/
theorem noFlush1_2 (t : Fin cfg1.N) (h : ¬t.val % 8 = 7) : (cfg1.win 2).flush t = false :=
  Bool.eq_false_iff.mpr fun hf => h ((flush1_2 t).mp hf)

/-! ## The body on whole memrefs, case by case

`arg2`, `arg3` are the input blocks' buffers, `arg4` the output block's, `arg5` the scratch. In each case the inputs are
handed back as found and the scratch ends at the block product added to what it held — to the zeros just stored into it
when the reduction coordinate is 0. -/

set_option maxHeartbeats 1000000 in
/-- Reduction coordinate 0: the scratch, found at anything, is zeroed and the product added; the output's buffer is not touched. -/
theorem run1_first (c : Dev nD) (E : Set ℕ) (i : grid1.Coords)
    (arg2 : Memref sig .tc .vmem S2048x2048 .f32) (harg2 : arg2.IsWhole) (arg3 : Memref sig .tc .vmem S2048x32 .f32) (harg3 : arg3.IsWhole)
    (arg4 : Memref sig .tc .vmem S2048x32 .f32) (harg4 : arg4.IsWhole) (arg5 : Memref sig .tc .vmem S2048x32 .f32) (harg5 : arg5.IsWhole)
    (hc0 : cond1_0 i) (hc1 : ¬cond1_1 i)
    (x0 : Vec F S2048x2048 .f32) (x1 : Vec F S2048x32 .f32) (xi : Vec F S2048x32 .f32) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k1_pay2 x0 x1 k1_pay1)) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  obtain rfl := harg2.eq_unread hf0; obtain rfl := harg3.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact H3
  ipureintro
  rw [read_writes_whole1 _ _ zeros2_1, readAt_whole1 harg2 x0 zeros2_1, readAt_whole1 harg3 x1 zeros2_1]
  unfold run1_first.sl.v8 run1_first.sl.H3_1
  rw [readCov_whole1 _ zeros2_1]

set_option maxHeartbeats 1000000 in
/-- Reduction coordinate strictly between 0 and 7: the product is added to the scratch; the output's buffer is not touched. -/
theorem run1_mid (c : Dev nD) (E : Set ℕ) (i : grid1.Coords)
    (arg2 : Memref sig .tc .vmem S2048x2048 .f32) (harg2 : arg2.IsWhole) (arg3 : Memref sig .tc .vmem S2048x32 .f32) (harg3 : arg3.IsWhole)
    (arg4 : Memref sig .tc .vmem S2048x32 .f32) (harg4 : arg4.IsWhole) (arg5 : Memref sig .tc .vmem S2048x32 .f32) (harg5 : arg5.IsWhole)
    (hc0 : ¬cond1_0 i) (hc1 : ¬cond1_1 i)
    (x0 : Vec F S2048x2048 .f32) (x1 : Vec F S2048x32 .f32) (xi : Vec F S2048x32 .f32) (s : Vec F S2048x32 .f32) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare s
        ∗ (iprop(owns (c : Thread nD τ) arg2 fullShare x0 ∗ owns (c : Thread nD τ) arg3 fullShare x1 ∗ owns (c : Thread nD τ) arg4 fullShare xi
            ∗ owns (c : Thread nD τ) arg5 fullShare (k1_pay2 x0 x1 s)) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg5.eq_unread hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact H3
  ipureintro
  rw [read_writes_whole1 _ _ zeros2_1, readAt_whole1 harg2 x0 zeros2_1, readAt_whole1 harg3 x1 zeros2_1,
    readAt_whole1 harg5 s zeros2_1]

set_option maxHeartbeats 1000000 in
/-- Reduction coordinate 7: the product is added to the scratch, and the output's buffer, found at anything, is stored
    the rectified sum. -/
theorem run1_last (c : Dev nD) (E : Set ℕ) (i : grid1.Coords)
    (arg2 : Memref sig .tc .vmem S2048x2048 .f32) (harg2 : arg2.IsWhole) (arg3 : Memref sig .tc .vmem S2048x32 .f32) (harg3 : arg3.IsWhole)
    (arg4 : Memref sig .tc .vmem S2048x32 .f32) (harg4 : arg4.IsWhole) (arg5 : Memref sig .tc .vmem S2048x32 .f32) (harg5 : arg5.IsWhole)
    (hc0 : ¬cond1_0 i) (hc1 : cond1_1 i)
    (x0 : Vec F S2048x2048 .f32) (x1 : Vec F S2048x32 .f32) (s : Vec F S2048x32 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare s
        ∗ (iprop(owns (c : Thread nD τ) arg2 fullShare x0 ∗ owns (c : Thread nD τ) arg3 fullShare x1
            ∗ owns (c : Thread nD τ) arg4 fullShare (k1_pay3 (k1_pay2 x0 x1 s))
            ∗ owns (c : Thread nD τ) arg5 fullShare (k1_pay2 x0 x1 s)) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%d2, %f2, -, H2⟩, ⟨%f3, %hf3, H3⟩, Hk⟩
  obtain rfl := harg2.eq_unread hf0; obtain rfl := harg3.eq_unread hf1; obtain rfl := harg5.eq_unread hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [read_writes_whole1 _ _ zeros2_1]
    unfold run1_last.sl.v17 run1_last.sl.H3_1
    rw [readCov_whole1 _ zeros2_1, readAt_whole1 harg2 x0 zeros2_1, readAt_whole1 harg3 x1 zeros2_1,
      readAt_whole1 harg5 s zeros2_1]
  iexists _; isplitr
  swap; · iexact H3
  ipureintro
  unfold run1_last.sl.H3_1
  rw [read_writes_whole1 _ _ zeros2_1, readAt_whole1 harg2 x0 zeros2_1, readAt_whole1 harg3 x1 zeros2_1,
    readAt_whole1 harg5 s zeros2_1]

/-! ## The region's data at the entry contents `V` -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- the scratch after point n: reset to k1_pay1 at k = 0, then the block product added -/
def acc1 (c : Dev nD) : (n : ℕ) → n < cfg1.N → Vec F S2048x32 .f32
  | 0, h => k1_pay2 (iblk1 V c 0 ⟨0, h⟩) (iblk1 V c 1 ⟨0, h⟩) k1_pay1
  | n + 1, h => if (n + 1) % 8 = 0 then k1_pay2 (iblk1 V c 0 ⟨n + 1, h⟩) (iblk1 V c 1 ⟨n + 1, h⟩) k1_pay1
      else k1_pay2 (iblk1 V c 0 ⟨n + 1, h⟩) (iblk1 V c 1 ⟨n + 1, h⟩) (acc1 c n (Nat.lt_of_succ_lt h))

theorem acc1_zero (c : Dev nD) (h : 0 < cfg1.N) :
    acc1 V c 0 h = k1_pay2 (iblk1 V c 0 ⟨0, h⟩) (iblk1 V c 1 ⟨0, h⟩) k1_pay1 := rfl
theorem acc1_succ (c : Dev nD) (n : ℕ) (h : n + 1 < cfg1.N) :
    acc1 V c (n + 1) h = if (n + 1) % 8 = 0 then k1_pay2 (iblk1 V c 0 ⟨n + 1, h⟩) (iblk1 V c 1 ⟨n + 1, h⟩) k1_pay1
      else k1_pay2 (iblk1 V c 0 ⟨n + 1, h⟩) (iblk1 V c 1 ⟨n + 1, h⟩) (acc1 V c n (Nat.lt_of_succ_lt h)) := rfl

/-- At a point of reduction coordinate 0 the sum starts afresh from the zeros; -/
theorem acc1_reset (c : Dev nD) (t : Fin cfg1.N) (h0 : t.val % 8 = 0) :
    acc1 V c t.val t.isLt = k1_pay2 (iblk1 V c 0 t) (iblk1 V c 1 t) k1_pay1 := by
  obtain ⟨n, hn⟩ := t
  cases n with
  | zero => rfl
  | succ n => exact (acc1_succ V c n hn).trans (if_pos h0)

/-- at any other it adds the point's product to the sum the point before left. -/
theorem acc1_step (c : Dev nD) (t : Fin cfg1.N) (h0 : ¬t.val % 8 = 0) :
    acc1 V c t.val t.isLt = k1_pay2 (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod 8) h0
  | succ n => exact (acc1_succ V c n hn).trans (if_neg h0)

/-- The scratch operand: a whole scoped buffer of the kernel's own, passed beside the windows. -/
abbrev scM1 : Memref sig .tc .vmem S2048x32 .f32 := Memref.whole cc1_scratch0

/-- What the class invariant holds beside the scratch: the core's other scoped buffers that are no staging buffer of this
    call, at some contents each, and the generator register at some state. -/
def rest1 (c : Dev nD) : sProp 𝕄 :=
  iprop(Pipeline.scopedRestBut (Ix := Unit) (Name := ℕ) (U := UR sig nD τ) (Lvl := ℕ) (Val := Elt F) spec1 c [cc1_scratch0]
    ∗ ∃ r, prngReg c r)

/-- The class invariant is the scratch at some contents beside the rest. -/
theorem PhiA1_eq (c : Dev nD) :
    (Pipeline.ΦA spec1 c : sProp 𝕄) = iprop((∃ d, owns (c : Thread nD τ) scM1 fullShare d) ∗ rest1 (F := F) c) := by
  unfold Pipeline.ΦA rest1
  rw [Pipeline.scopedRest_split_of_list spec1 c [cc1_scratch0] (by decide) (by decide)]
  simp only [bigSepL_singleton, scM1, owns_whole]
  exact equiv_iff.mp ⟨BI.sep_assoc, BI.sep_assoc'⟩

/-- The region invariant before position `n`: the class's before the first point; afterwards the same with the scratch
    NAMED at the sum the point before left. -/
def Phi1 (c : Dev nD) : (n : ℕ) → n ≤ cfg1.N → sProp 𝕄
  | 0, _ => Pipeline.ΦA spec1 c
  | n + 1, hn => iprop(owns (c : Thread nD τ) scM1 fullShare (acc1 V c n hn) ∗ rest1 (F := F) c)

theorem Phi1_succ (c : Dev nD) (n : ℕ) (hn : n < cfg1.N) :
    Phi1 V c (n + 1) hn = iprop(owns (c : Thread nD τ) scM1 fullShare (acc1 V c n hn) ∗ rest1 (F := F) c) := rfl

theorem Phi1_pos (c : Dev nD) (n : ℕ) (h : n ≤ cfg1.N) (hz : n ≠ 0) :
    Phi1 V c n h = iprop(owns (c : Thread nD τ) scM1 fullShare (acc1 V c (n - 1) (by omega)) ∗ rest1 (F := F) c) := by
  cases n with
  | zero => exact absurd rfl hz
  | succ n => rfl

/-- Before any point the invariant yields the scratch at some contents beside the rest. -/
theorem Phi1_open (c : Dev nD) (n : ℕ) (h : n ≤ cfg1.N) :
    Phi1 V c n h ⊢ iprop((∃ d, owns (c : Thread nD τ) scM1 fullShare d) ∗ rest1 (F := F) c) := by
  cases n with
  | zero => rw [show Phi1 V c 0 h = Pipeline.ΦA spec1 c from rfl, PhiA1_eq]
  | succ n =>
    rw [Phi1_succ]
    iintro ⟨HS, HR⟩
    isplitl [HS]
    · iexists _; iexact HS
    iexact HR

/-- The proof data of the call on core `c`: the arrays as the region finds them; after the body at point `t` each input's
    buffer at its block and the output's at the rectified sum; the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (acc1 V c t.val t.isLt) := by dsimp only [dat1]
theorem owed1 (c : Dev nD) (t) : (dat1 V c).owed t = 0 := by dsimp only [dat1]
theorem share1 (c : Dev nD) (w) : (dat1 V c).q w = fullShare := by dsimp only [dat1]

/-- The invariant at a point's start, restated at the point's position. -/
theorem Phi1_castSucc (c : Dev nD) (t : Fin cfg1.N) :
    (dat1 V c).Φ t.castSucc = Phi1 V c t.val (Nat.le_of_lt t.isLt) := by
  dsimp only [dat1]; simp only [Fin.coe_castSucc]

/-- Each input window is fetched at every point, so its current staging buffer holds its block there. -/
theorem before1_0 (c : Dev nD) (t : Fin cfg1.N) (d) : (dat1 V c).before 0 t d = iblk1 V c 0 t := by
  rw [(dat1 V c).before_fetched 0 t (fetch1_0 t) d]
  unfold Dat.fetched Dat.blockOf iblk1; rw [A_eq1]; rfl
theorem before1_1 (c : Dev nD) (t : Fin cfg1.N) (d) : (dat1 V c).before 1 t d = iblk1 V c 1 t := by
  rw [(dat1 V c).before_fetched 1 t (fetch1_1 t) d]
  unfold Dat.fetched Dat.blockOf iblk1; rw [A_eq1]; rfl

/-- The inputs' buffers are handed back at their blocks. -/
theorem leaves1_0 (c : Dev nD) (t : Fin cfg1.N) :
    (dat1 V c).leavesExact 0 t = owns (c : Thread nD τ) (st1_0 t) fullShare (iblk1 V c 0 t) := by
  have h : (dat1 V c).leavesExact 0 t = owns (c : Thread nD τ) (st1_0 t) fullShare ((dat1 V c).after 0 t) := rfl
  rw [h, after1_0]
theorem leaves1_1 (c : Dev nD) (t : Fin cfg1.N) :
    (dat1 V c).leavesExact 1 t = owns (c : Thread nD τ) (st1_1 t) fullShare (iblk1 V c 1 t) := by
  have h : (dat1 V c).leavesExact 1 t = owns (c : Thread nD τ) (st1_1 t) fullShare ((dat1 V c).after 1 t) := rfl
  rw [h, after1_1]
/-- At the last reduction step the output's buffer is handed back at the rectified sum. -/
theorem leaves1_2 (c : Dev nD) (t : Fin cfg1.N) (h7 : t.val % 8 = 7) :
    (dat1 V c).leavesExact 2 t = owns (c : Thread nD τ) (st1_2 t) fullShare (k1_pay3 (acc1 V c t.val t.isLt)) := by
  rw [← after1_2 V c t]; unfold Dat.leavesExact; rw [liveAt1_2 t h7]

/-! ## The body obligation -/

/-- What the body is called with at point `t` (the library's obligation, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 1000000 in
/-- A point of reduction coordinate 0: the invariant yields the scratch at whatever it holds (the class's own at the first
    point, the previous row's finished sum later), the body leaves it at the fresh sum; the output's buffer, idle, goes
    back as found. -/
theorem sound_body1_first (c : Dev nD) (t : Fin cfg1.N) (h0 : t.val % 8 = 0) :
    bodyPre1 V c t ⊢ wp frame (wpE (defs₀ (F := F)) Variants.none c none) Set.univ (bodyAt1 t) (fun _ => bodyPost1 V c t) := by
  have h7 : ¬t.val % 8 = 7 := by omega
  unfold bodyPre1 bodyPost1 bodyAt1
  simp only [before1_0, before1_1]
  rw [show (dat1 V c).owesAt () t.succ = (dat1 V c).owesAt () t.castSucc from rfl,
    show (dat1 V c).Φ t.succ = Phi1 V c (t.val + 1) t.isLt from rfl, Phi1_succ,
    leaves1_0, leaves1_1, Dat.leavesExact_idle (dat1 V c) 2 t (idleAt1_2 t h7) (noFlush1_2 t h7),
    Phi1_castSucc, acc1_reset V c t h0]
  iintro ⟨HΦ, Ho, ⟨%d0, H0⟩, ⟨%d1, H1⟩, ⟨%d2, H2⟩⟩
  ihave HΦ' := (Phi1_open V c t.val (Nat.le_of_lt t.isLt)) $$ HΦ
  icases HΦ' with ⟨HS, HR⟩
  iapply (run1_first c Set.univ (grid1.coords t) _ _ _ _ _ _ _ _ ((hcond1_0 t).mpr h0) (fun h => h7 ((hcond1_1 t).mp h))
    (iblk1 V c 0 t) (iblk1 V c 1 t) _ _)
  isplitl [H0]; · iexact H0
  isplitl [H1]; · iexact H1
  isplitl [H2]; · iexact H2
  isplitl [HS]; · iexact HS
  iintro ⟨H0, H1, H2, HS⟩
  isplitl [HS HR]
  · isplitl [HS]; · iexact HS
    iexact HR
  isplitl [Ho]; · iexact Ho
  isplitl [H0]; · iexact H0
  isplitl [H1]; · iexact H1
  iexists d2; iexact H2

set_option maxHeartbeats 1000000 in
/-- A point of reduction coordinate strictly between 0 and 7: the invariant names the scratch at the sum so far, the body
    adds the point's product; the output's buffer, idle, goes back as found. -/
theorem sound_body1_mid (c : Dev nD) (t : Fin cfg1.N) (h0 : ¬t.val % 8 = 0) (h7 : ¬t.val % 8 = 7) :
    bodyPre1 V c t ⊢ wp frame (wpE (defs₀ (F := F)) Variants.none c none) Set.univ (bodyAt1 t) (fun _ => bodyPost1 V c t) := by
  have hz : t.val ≠ 0 := fun e => h0 (by rw [e])
  unfold bodyPre1 bodyPost1 bodyAt1
  simp only [before1_0, before1_1]
  rw [show (dat1 V c).owesAt () t.succ = (dat1 V c).owesAt () t.castSucc from rfl,
    show (dat1 V c).Φ t.succ = Phi1 V c (t.val + 1) t.isLt from rfl, Phi1_succ,
    leaves1_0, leaves1_1, Dat.leavesExact_idle (dat1 V c) 2 t (idleAt1_2 t h7) (noFlush1_2 t h7),
    Phi1_castSucc, Phi1_pos V c _ _ hz, acc1_step V c t h0]
  iintro ⟨⟨HS, HR⟩, Ho, ⟨%d0, H0⟩, ⟨%d1, H1⟩, ⟨%d2, H2⟩⟩
  iapply (run1_mid c Set.univ (grid1.coords t) _ _ _ _ _ _ _ _ (fun h => h0 ((hcond1_0 t).mp h)) (fun h => h7 ((hcond1_1 t).mp h))
    (iblk1 V c 0 t) (iblk1 V c 1 t) _ _ _)
  isplitl [H0]; · iexact H0
  isplitl [H1]; · iexact H1
  isplitl [H2]; · iexact H2
  isplitl [HS]; · iexact HS
  iintro ⟨H0, H1, H2, HS⟩
  isplitl [HS HR]
  · isplitl [HS]; · iexact HS
    iexact HR
  isplitl [Ho]; · iexact Ho
  isplitl [H0]; · iexact H0
  isplitl [H1]; · iexact H1
  iexists d2; iexact H2

set_option maxHeartbeats 1000000 in
/-- A point of reduction coordinate 7: as before for the scratch; the output's buffer, live here and found at anything,
    goes back at the rectified sum. -/
theorem sound_body1_last (c : Dev nD) (t : Fin cfg1.N) (h7 : t.val % 8 = 7) :
    bodyPre1 V c t ⊢ wp frame (wpE (defs₀ (F := F)) Variants.none c none) Set.univ (bodyAt1 t) (fun _ => bodyPost1 V c t) := by
  have h0 : ¬t.val % 8 = 0 := by omega
  have hz : t.val ≠ 0 := fun e => h0 (by rw [e])
  unfold bodyPre1 bodyPost1 bodyAt1
  simp only [before1_0, before1_1]
  rw [show (dat1 V c).owesAt () t.succ = (dat1 V c).owesAt () t.castSucc from rfl,
    show (dat1 V c).Φ t.succ = Phi1 V c (t.val + 1) t.isLt from rfl, Phi1_succ,
    leaves1_0, leaves1_1, leaves1_2 V c t h7,
    Phi1_castSucc, Phi1_pos V c _ _ hz, acc1_step V c t h0]
  iintro ⟨⟨HS, HR⟩, Ho, ⟨%d0, H0⟩, ⟨%d1, H1⟩, ⟨%d2, H2⟩⟩
  iapply (run1_last c Set.univ (grid1.coords t) _ _ _ _ _ _ _ _ (fun h => h0 ((hcond1_0 t).mp h)) ((hcond1_1 t).mpr h7)
    (iblk1 V c 0 t) (iblk1 V c 1 t) _ _)
  isplitl [H0]; · iexact H0
  isplitl [H1]; · iexact H1
  isplitl [H2]; · iexists _; iexact H2
  isplitl [HS]; · iexact HS
  iintro ⟨H0, H1, H2, HS⟩
  isplitl [HS HR]
  · isplitl [HS]; · iexact HS
    iexact HR
  isplitl [Ho]; · iexact Ho
  isplitl [H0]; · iexact H0
  isplitl [H1]; · iexact H1
  iexact H2

/-- The body at any point, by its reduction coordinate. -/
theorem sound_body1 (c : Dev nD) (t : Fin cfg1.N)  :
    bodyPre1 V c t ⊢ wp frame (wpE (defs₀ (F := F)) Variants.none c none) Set.univ (bodyAt1 t) (fun _ => bodyPost1 V c t) := by
  by_cases h0 : t.val % 8 = 0
  · exact sound_body1_first V c t h0
  · by_cases h7 : t.val % 8 = 7
    · exact sound_body1_last V c t h7
    · exact sound_body1_mid V c t h0 h7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Pipeline.ΦA spec1 c from rfl]

/-- After the last point the invariant gives the class's back: the sum the scratch is named at is forgotten. -/
theorem hout1 (c : Dev nD) : (dat1 V c).Φ (Fin.last cfg1.N) ⊢ Pipeline.ΦA spec1 c := by
  rw [show (dat1 V c).Φ (Fin.last cfg1.N) = Phi1 V c cfg1.N (Nat.le_refl _) from rfl, PhiA1_eq]
  exact Phi1_open V c _ _

end Cert.KernelIdeal.Frm

end
-- ==== Proof.KI.Lin2.lean ====
/-
  The second linear layer as one pipelined region: eight grid points, point `t` taking rows `2048 t … 2048 t + 2047`
  of the hidden activations, the whole weight matrix and the bias row, and leaving in its output block the product of the
  row block with the weights plus the bias row on every row. Everything is stated at the contents `V` the buffers
  hold when the region is entered, for any number format: the body's effect is one store of one value, a function
  of the three blocks it loads.
-/
import proofs.«123152_j43731357008092_1_alg».proof.Proof.Gen.KernelIdeal.Launch
import proofs.«123152_j43731357008092_1_alg».proof.Proof.Gen.KernelIdeal.Skeleton
import proofs.«123152_j43731357008092_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a point works on -/

/-- The block of window `w`'s array that grid point `t` works on, read off the contents the region is entered with. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block of the activations is in its staging buffer at every point (it is fetched at each). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weights are fetched once; their block index never moves, so the buffer holds them at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The same for the bias row. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output block -/

/-- The whole of each staging buffer, as the rectangle the body loads or stores through. -/
abbrev rX2 : Rect S2048x32 := Rect.unit (s := S2048x32) ![0, 0] S2048x32.size inb_S2048x32_S2048x32_0_0
abbrev rW2 : Rect S32x16 := Rect.unit (s := S32x16) ![0, 0] S32x16.size inb_S32x16_S32x16_0_0
abbrev rB2 : Rect S1x16 := Rect.unit (s := S1x16) ![0, 0] S1x16.size inb_S1x16_S1x16_0_0
abbrev rO2 : Rect S2048x16 := Rect.unit (s := S2048x16) ![0, 0] S2048x16.size inb_S2048x16_S2048x16_0_0

/-- The output block after the body: its one store, of the product-plus-bias of the three loaded blocks, over the whole block. -/
def out2_3 (x0 : Vec F S2048x32 .f32) (x1 : Vec F S32x16 .f32) (x2 : Vec F S1x16 .f32) : Vec F S2048x16 .f32 :=
  View.canon [⟨rO2, k2_pay1 (View.ld x0 rX2) (View.ld x1 rW2) (View.ld x2 rB2)⟩]

/-- That store covers the block. -/
theorem cover2_3 (p0 : Vec F S2048x16 .f32) (y : S2048x16.Idx) :
    ∃ pc ∈ ([⟨rO2, p0⟩] : List (View.Piece (Elt F) S2048x16 .f32)), y ∈ pc.1.set :=
  View.cover_of_tiled [⟨rO2, p0⟩] S2048x16.size (by rfl) y

/-! ## The body on whole buffers -/

set_option maxHeartbeats 1000000 in
/-- From the three input buffers at read contents `x0`, `x1`, `x2` and the output buffer at anything, the body runs to
    its end with the inputs as they were and the output at `out2_3` of them. -/
theorem sound_kernel2 (c : Dev nD) (E : Set ℕ) (i : grid2.Coords)
    (arg1 : Memref sig .tc .vmem S2048x32 .f32) (harg1 : arg1.IsWhole) (arg2 : Memref sig .tc .vmem S32x16 .f32) (harg2 : arg2.IsWhole)
    (arg3 : Memref sig .tc .vmem S1x16 .f32) (harg3 : arg3.IsWhole) (arg4 : Memref sig .tc .vmem S2048x16 .f32) (harg4 : arg4.IsWhole)
    (x0 : Vec F S2048x32 .f32) (x1 : Vec F S32x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The region's proof data -/

/-- The arrays as the region finds them; after the body at point `t` each input's buffer at its block and the output's at
    `out2_3` of the three blocks; the invariant the scratch buffers and the generator register, untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline rule, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frm

end
-- ==== Proof.KI.Acc3.lean ====
/-
  Region 3 of the program (the call of `cc3_kernel` on its 8x8 grid) as the per-region half of a frame proof, at the
  buffer contents `V` the region is entered with. The kernel is a blocked matrix product accumulated along the second grid
  axis `k`: a scratch buffer is zeroed at `k = 0`, the product of the two input blocks is added to it at every point, and
  at `k = 7` its contents are stored into the output block. The scratch is the one piece of state carried from a point to the
  next, so the region invariant names its contents: `acc3`.
-/
import proofs.«123152_j43731357008092_1_alg».proof.Proof.Gen.KernelIdeal.Launch
import proofs.«123152_j43731357008092_1_alg».proof.Proof.Gen.KernelIdeal.Skeleton
import proofs.«123152_j43731357008092_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer accesses

Every access of the body goes through the unit rectangle at zero offsets of the buffer's own extents: it places each
index at itself, so a load through it reads the buffer's contents and a store through it leaves its payload. -/

private theorem zeros2_3 : (![0, 0] : Fin 2 → ℕ) = fun _ => 0 := by
  funext a; fin_cases a <;> rfl

private theorem emb_unit_zero3 {s : Shape} {off : Fin s.rank → ℕ} (ho : off = fun _ => 0)
    (inb : ∀ a, off a + s.size a ≤ s.size a) (x : (Rect.unit off s.size inb).shape.Idx) :
    (Rect.unit off s.size inb).emb x = x := by
  subst ho; exact Rect.emb_whole_apply s x

private theorem mem_unit_zero3 {s : Shape} {off : Fin s.rank → ℕ} (ho : off = fun _ => 0)
    (inb : ∀ a, off a + s.size a ≤ s.size a) (y : s.Idx) : y ∈ (Rect.unit off s.size inb).set := by
  subst ho; exact (Rect.set_whole s).symm ▸ Finset.mem_univ y

/-- A whole-rectangle load from a whole memref held at the raw contents reading `X` reads `X`. -/
private theorem readAt_whole3 {s : Shape} {e : EltTy} {m : Memref sig .tc .vmem s e} (h : m.IsWhole) (X : s.Idx → Elt F e)
    {off : Fin s.rank → ℕ} (ho : off = fun _ => 0) (inb : ∀ a, off a + s.size a ≤ s.size a) :
    View.readAt (Elt F) m.view (Rect.unit off s.size inb).toLoadRect (h.unread X) = X := by
  rw [View.readAt_eq_ld, h.read_unread]
  funext x
  exact congrArg X (emb_unit_zero3 ho inb x)

/-- A buffer read back after a whole-rectangle store made last holds the stored payload, whatever was stored before. -/
private theorem read_writes_whole3 {s : Shape} {e : EltTy} (v : View sig .tc .vmem s e) (f : v.ty.Contents (Elt F))
    {off : Fin s.rank → ℕ} (ho : off = fun _ => 0) (inb : ∀ a, off a + s.size a ≤ s.size a) (w : s.Idx → Elt F e)
    (L : List (View.Piece (Elt F) s e)) :
    v.read (Elt F) (v.writes (Elt F) f (⟨Rect.unit off s.size inb, w⟩ :: L)) = w := by
  funext y
  rw [View.read_writes_apply_eq_canon v f y _ ⟨_, List.mem_cons_self, mem_unit_zero3 ho inb y⟩]
  have hy := View.canon_cons_emb (Rect.unit off s.size inb) w L y
  rwa [emb_unit_zero3 ho inb] at hy

/-- A whole-rectangle load after a whole-rectangle store made last reads the stored payload. -/
private theorem readCov_whole3 {s : Shape} {e : EltTy} (v : View sig .tc .vmem s e)
    {off : Fin s.rank → ℕ} (ho : off = fun _ => 0) (inb : ∀ a, off a + s.size a ≤ s.size a) (w : s.Idx → Elt F e)
    (L : List (View.Piece (Elt F) s e)) :
    v.readCov (⟨Rect.unit off s.size inb, w⟩ :: L) (Rect.unit off s.size inb).toLoadRect = w := by
  rw [View.readCov_eq_canon_ld v _ (Rect.unit off s.size inb) (fun y => ⟨_, List.mem_cons_self, mem_unit_zero3 ho inb y⟩)]
  funext x
  exact View.canon_cons_emb (Rect.unit off s.size inb) w L x

/-! ## The body's branch conditions and the output window's idle points, over the grid -/

/-- The first `scf.if`'s condition (the reduction coordinate is 0), from the grid coordinates. -/
abbrev cond3_0 (i : grid3.Coords) : Prop :=
  (Scalar.cmpi .ne (Scalar.extui (Scalar.cmpi .eq (BitVec.ofNat 32 (i 1).val) 0#32)) 0#32) = 1#1
/-- The second one's (the reduction coordinate is 7). -/
abbrev cond3_1 (i : grid3.Coords) : Prop := k3_cond2 i = 1#1

/-- Point `t` has reduction coordinate `t % 8`: the first condition holds where that is 0, -/
theorem hcond3_0 : ∀ t : Fin cfg3.N, cond3_0 (grid3.coords t) ↔ t.val % 8 = 0 :=
  (by decide +kernel : ∀ t : Fin grid3.N, cond3_0 (grid3.coords t) ↔ t.val % 8 = 0)
/-- the second where it is 7. -/
theorem hcond3_1 : ∀ t : Fin cfg3.N, cond3_1 (grid3.coords t) ↔ t.val % 8 = 7 :=
  (by decide +kernel : ∀ t : Fin grid3.N, cond3_1 (grid3.coords t) ↔ t.val % 8 = 7)

/-- The input windows are never idle. -/
theorem live3_0 (t : Fin cfg3.N) : cfg3.idle 0 (grid3.coords t) = false := rfl
theorem live3_1 (t : Fin cfg3.N) : cfg3.idle 1 (grid3.coords t) = false := rfl
/-- The output window is idle away from the last reduction step, -/
theorem idleAt3_2 : ∀ t : Fin cfg3.N, ¬t.val % 8 = 7 → cfg3.idle 2 (grid3.coords t) = true :=
  (by decide +kernel : ∀ t : Fin grid3.N, ¬t.val % 8 = 7 → idle3 2 (grid3.coords t) = true)
/-- live at it, -/
theorem liveAt3_2 : ∀ t : Fin cfg3.N, t.val % 8 = 7 → cfg3.idle 2 (grid3.coords t) = false :=
  (by decide +kernel : ∀ t : Fin grid3.N, t.val % 8 = 7 → idle3 2 (grid3.coords t) = false)
/-- and written back only there. -/
theorem noFlush3_2 (t : Fin cfg3.N) (h : ¬t.val % 8 = 7) : (cfg3.win 2).flush t = false :=
  Bool.eq_false_iff.mpr fun hf => h ((flush3_2 t).mp hf)

/-! ## The body on whole memrefs, case by case

`arg2`, `arg3` are the input blocks' buffers, `arg4` the output block's, `arg5` the scratch. In each case the inputs are
handed back as found and the scratch ends at the block product added to what it held — to the zeros just stored into it
when the reduction coordinate is 0. -/

set_option maxHeartbeats 1000000 in
/-- Reduction coordinate 0: the scratch, found at anything, is zeroed and the product added; the output's buffer is not touched. -/
theorem run3_first (c : Dev nD) (E : Set ℕ) (i : grid3.Coords)
    (arg2 : Memref sig .tc .vmem S2048x2048 .f32) (harg2 : arg2.IsWhole) (arg3 : Memref sig .tc .vmem S2048x16 .f32) (harg3 : arg3.IsWhole)
    (arg4 : Memref sig .tc .vmem S2048x16 .f32) (harg4 : arg4.IsWhole) (arg5 : Memref sig .tc .vmem S2048x16 .f32) (harg5 : arg5.IsWhole)
    (hc0 : cond3_0 i) (hc1 : ¬cond3_1 i)
    (x0 : Vec F S2048x2048 .f32) (x1 : Vec F S2048x16 .f32) (xi : Vec F S2048x16 .f32) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k3_pay2 x0 x1 k3_pay1)) -∗ K ⟨⟩))
      ⊢ wp frame (wpE (defs₀ (F := F)) Variants.none c none) E (cc3_kernel i arg2 harg2 arg3 harg3 arg4 harg4 arg5 harg5) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, Hk⟩
  obtain rfl := harg2.eq_unread hf0; obtain rfl := harg3.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact H3
  ipureintro
  rw [read_writes_whole3 _ _ zeros2_3, readAt_whole3 harg2 x0 zeros2_3, readAt_whole3 harg3 x1 zeros2_3]
  unfold run3_first.sl.v8 run3_first.sl.H3_1
  rw [readCov_whole3 _ zeros2_3]

set_option maxHeartbeats 1000000 in
/-- Reduction coordinate strictly between 0 and 7: the product is added to the scratch; the output's buffer is not touched. -/
theorem run3_mid (c : Dev nD) (E : Set ℕ) (i : grid3.Coords)
    (arg2 : Memref sig .tc .vmem S2048x2048 .f32) (harg2 : arg2.IsWhole) (arg3 : Memref sig .tc .vmem S2048x16 .f32) (harg3 : arg3.IsWhole)
    (arg4 : Memref sig .tc .vmem S2048x16 .f32) (harg4 : arg4.IsWhole) (arg5 : Memref sig .tc .vmem S2048x16 .f32) (harg5 : arg5.IsWhole)
    (hc0 : ¬cond3_0 i) (hc1 : ¬cond3_1 i)
    (x0 : Vec F S2048x2048 .f32) (x1 : Vec F S2048x16 .f32) (xi : Vec F S2048x16 .f32) (s : Vec F S2048x16 .f32) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare s
        ∗ (iprop(owns (c : Thread nD τ) arg2 fullShare x0 ∗ owns (c : Thread nD τ) arg3 fullShare x1 ∗ owns (c : Thread nD τ) arg4 fullShare xi
            ∗ owns (c : Thread nD τ) arg5 fullShare (k3_pay2 x0 x1 s)) -∗ K ⟨⟩))
      ⊢ wp frame (wpE (defs₀ (F := F)) Variants.none c none) E (cc3_kernel i arg2 harg2 arg3 harg3 arg4 harg4 arg5 harg5) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg5.eq_unread hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact H3
  ipureintro
  rw [read_writes_whole3 _ _ zeros2_3, readAt_whole3 harg2 x0 zeros2_3, readAt_whole3 harg3 x1 zeros2_3,
    readAt_whole3 harg5 s zeros2_3]

set_option maxHeartbeats 1000000 in
/-- Reduction coordinate 7: the product is added to the scratch, and the output's buffer, found at anything, is stored
    the sum. -/
theorem run3_last (c : Dev nD) (E : Set ℕ) (i : grid3.Coords)
    (arg2 : Memref sig .tc .vmem S2048x2048 .f32) (harg2 : arg2.IsWhole) (arg3 : Memref sig .tc .vmem S2048x16 .f32) (harg3 : arg3.IsWhole)
    (arg4 : Memref sig .tc .vmem S2048x16 .f32) (harg4 : arg4.IsWhole) (arg5 : Memref sig .tc .vmem S2048x16 .f32) (harg5 : arg5.IsWhole)
    (hc0 : ¬cond3_0 i) (hc1 : cond3_1 i)
    (x0 : Vec F S2048x2048 .f32) (x1 : Vec F S2048x16 .f32) (s : Vec F S2048x16 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare s
        ∗ (iprop(owns (c : Thread nD τ) arg2 fullShare x0 ∗ owns (c : Thread nD τ) arg3 fullShare x1
            ∗ owns (c : Thread nD τ) arg4 fullShare (k3_pay2 x0 x1 s)
            ∗ owns (c : Thread nD τ) arg5 fullShare (k3_pay2 x0 x1 s)) -∗ K ⟨⟩))
      ⊢ wp frame (wpE (defs₀ (F := F)) Variants.none c none) E (cc3_kernel i arg2 harg2 arg3 harg3 arg4 harg4 arg5 harg5) K := by
  simp only [cc3_kernel_eq_skeleton]; unfold cc3_kernel_skel
  unfold owns
  iintro ⟨⟨%f0, %hf0, H0⟩, ⟨%f1, %hf1, H1⟩, ⟨%d2, %f2, -, H2⟩, ⟨%f3, %hf3, H3⟩, Hk⟩
  obtain rfl := harg2.eq_unread hf0; obtain rfl := harg3.eq_unread hf1; obtain rfl := harg5.eq_unread hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [read_writes_whole3 _ _ zeros2_3]
    unfold run3_last.sl.v17 run3_last.sl.H3_1
    rw [readCov_whole3 _ zeros2_3, readAt_whole3 harg2 x0 zeros2_3, readAt_whole3 harg3 x1 zeros2_3,
      readAt_whole3 harg5 s zeros2_3]
  iexists _; isplitr
  swap; · iexact H3
  ipureintro
  unfold run3_last.sl.H3_1
  rw [read_writes_whole3 _ _ zeros2_3, readAt_whole3 harg2 x0 zeros2_3, readAt_whole3 harg3 x1 zeros2_3,
    readAt_whole3 harg5 s zeros2_3]

/-! ## The region's data at the entry contents `V` -/

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- the scratch after point n: reset to k3_pay1 at k = 0, then the block product added -/
def acc3 (c : Dev nD) : (n : ℕ) → n < cfg3.N → Vec F S2048x16 .f32
  | 0, h => k3_pay2 (iblk3 V c 0 ⟨0, h⟩) (iblk3 V c 1 ⟨0, h⟩) k3_pay1
  | n + 1, h => if (n + 1) % 8 = 0 then k3_pay2 (iblk3 V c 0 ⟨n + 1, h⟩) (iblk3 V c 1 ⟨n + 1, h⟩) k3_pay1
      else k3_pay2 (iblk3 V c 0 ⟨n + 1, h⟩) (iblk3 V c 1 ⟨n + 1, h⟩) (acc3 c n (Nat.lt_of_succ_lt h))

theorem acc3_zero (c : Dev nD) (h : 0 < cfg3.N) :
    acc3 V c 0 h = k3_pay2 (iblk3 V c 0 ⟨0, h⟩) (iblk3 V c 1 ⟨0, h⟩) k3_pay1 := rfl
theorem acc3_succ (c : Dev nD) (n : ℕ) (h : n + 1 < cfg3.N) :
    acc3 V c (n + 1) h = if (n + 1) % 8 = 0 then k3_pay2 (iblk3 V c 0 ⟨n + 1, h⟩) (iblk3 V c 1 ⟨n + 1, h⟩) k3_pay1
      else k3_pay2 (iblk3 V c 0 ⟨n + 1, h⟩) (iblk3 V c 1 ⟨n + 1, h⟩) (acc3 V c n (Nat.lt_of_succ_lt h)) := rfl

/-- At a point of reduction coordinate 0 the sum starts afresh from the zeros; -/
theorem acc3_reset (c : Dev nD) (t : Fin cfg3.N) (h0 : t.val % 8 = 0) :
    acc3 V c t.val t.isLt = k3_pay2 (iblk3 V c 0 t) (iblk3 V c 1 t) k3_pay1 := by
  obtain ⟨n, hn⟩ := t
  cases n with
  | zero => rfl
  | succ n => exact (acc3_succ V c n hn).trans (if_pos h0)

/-- at any other it adds the point's product to the sum the point before left. -/
theorem acc3_step (c : Dev nD) (t : Fin cfg3.N) (h0 : ¬t.val % 8 = 0) :
    acc3 V c t.val t.isLt = k3_pay2 (iblk3 V c 0 t) (iblk3 V c 1 t)
      (acc3 V c (t.val - 1) (Nat.lt_of_le_of_lt (Nat.sub_le _ _) t.isLt)) := by
  obtain ⟨n, hn⟩ := t
  cases n with
  | zero => exact absurd (Nat.zero_mod 8) h0
  | succ n => exact (acc3_succ V c n hn).trans (if_neg h0)

/-- The scratch operand: a whole scoped buffer of the kernel's own, passed beside the windows. -/
abbrev scM3 : Memref sig .tc .vmem S2048x16 .f32 := Memref.whole cc3_scratch0

/-- What the class invariant holds beside the scratch: the core's other scoped buffers that are no staging buffer of this
    call, at some contents each, and the generator register at some state. -/
def rest3 (c : Dev nD) : sProp 𝕄 :=
  iprop(Pipeline.scopedRestBut (Ix := Unit) (Name := ℕ) (U := UR sig nD τ) (Lvl := ℕ) (Val := Elt F) spec3 c [cc3_scratch0]
    ∗ ∃ r, prngReg c r)

/-- The class invariant is the scratch at some contents beside the rest. -/
theorem PhiA3_eq (c : Dev nD) :
    (Pipeline.ΦA spec3 c : sProp 𝕄) = iprop((∃ d, owns (c : Thread nD τ) scM3 fullShare d) ∗ rest3 (F := F) c) := by
  unfold Pipeline.ΦA rest3
  rw [Pipeline.scopedRest_split_of_list spec3 c [cc3_scratch0] (by decide) (by decide)]
  simp only [bigSepL_singleton, scM3, owns_whole]
  exact equiv_iff.mp ⟨BI.sep_assoc, BI.sep_assoc'⟩

/-- The region invariant before position `n`: the class's before the first point; afterwards the same with the scratch
    NAMED at the sum the point before left. -/
def Phi3 (c : Dev nD) : (n : ℕ) → n ≤ cfg3.N → sProp 𝕄
  | 0, _ => Pipeline.ΦA spec3 c
  | n + 1, hn => iprop(owns (c : Thread nD τ) scM3 fullShare (acc3 V c n hn) ∗ rest3 (F := F) c)

theorem Phi3_succ (c : Dev nD) (n : ℕ) (hn : n < cfg3.N) :
    Phi3 V c (n + 1) hn = iprop(owns (c : Thread nD τ) scM3 fullShare (acc3 V c n hn) ∗ rest3 (F := F) c) := rfl

theorem Phi3_pos (c : Dev nD) (n : ℕ) (h : n ≤ cfg3.N) (hz : n ≠ 0) :
    Phi3 V c n h = iprop(owns (c : Thread nD τ) scM3 fullShare (acc3 V c (n - 1) (by omega)) ∗ rest3 (F := F) c) := by
  cases n with
  | zero => exact absurd rfl hz
  | succ n => rfl

/-- Before any point the invariant yields the scratch at some contents beside the rest. -/
theorem Phi3_open (c : Dev nD) (n : ℕ) (h : n ≤ cfg3.N) :
    Phi3 V c n h ⊢ iprop((∃ d, owns (c : Thread nD τ) scM3 fullShare d) ∗ rest3 (F := F) c) := by
  cases n with
  | zero => rw [show Phi3 V c 0 h = Pipeline.ΦA spec3 c from rfl, PhiA3_eq]
  | succ n =>
    rw [Phi3_succ]
    iintro ⟨HS, HR⟩
    isplitl [HS]
    · iexists _; iexact HS
    iexact HR

/-- The proof data of the call on core `c`: the arrays as the region finds them; after the body at point `t` each input's
    buffer at its block and the output's at the sum; the invariant `Phi3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val t.isLt := by dsimp only [dat3]
theorem owed3 (c : Dev nD) (t) : (dat3 V c).owed t = 0 := by dsimp only [dat3]
theorem share3 (c : Dev nD) (w) : (dat3 V c).q w = fullShare := by dsimp only [dat3]

/-- The invariant at a point's start, restated at the point's position. -/
theorem Phi3_castSucc (c : Dev nD) (t : Fin cfg3.N) :
    (dat3 V c).Φ t.castSucc = Phi3 V c t.val (Nat.le_of_lt t.isLt) := by
  dsimp only [dat3]; simp only [Fin.coe_castSucc]

/-- Each input window is fetched at every point, so its current staging buffer holds its block there. -/
theorem before3_0 (c : Dev nD) (t : Fin cfg3.N) (d) : (dat3 V c).before 0 t d = iblk3 V c 0 t := by
  rw [(dat3 V c).before_fetched 0 t (fetch3_0 t) d]
  unfold Dat.fetched Dat.blockOf iblk3; rw [A_eq3]; rfl
theorem before3_1 (c : Dev nD) (t : Fin cfg3.N) (d) : (dat3 V c).before 1 t d = iblk3 V c 1 t := by
  rw [(dat3 V c).before_fetched 1 t (fetch3_1 t) d]
  unfold Dat.fetched Dat.blockOf iblk3; rw [A_eq3]; rfl

/-- The inputs' buffers are handed back at their blocks. -/
theorem leaves3_0 (c : Dev nD) (t : Fin cfg3.N) :
    (dat3 V c).leavesExact 0 t = owns (c : Thread nD τ) (st3_0 t) fullShare (iblk3 V c 0 t) := by
  have h : (dat3 V c).leavesExact 0 t = owns (c : Thread nD τ) (st3_0 t) fullShare ((dat3 V c).after 0 t) := rfl
  rw [h, after3_0]
theorem leaves3_1 (c : Dev nD) (t : Fin cfg3.N) :
    (dat3 V c).leavesExact 1 t = owns (c : Thread nD τ) (st3_1 t) fullShare (iblk3 V c 1 t) := by
  have h : (dat3 V c).leavesExact 1 t = owns (c : Thread nD τ) (st3_1 t) fullShare ((dat3 V c).after 1 t) := rfl
  rw [h, after3_1]
/-- At the last reduction step the output's buffer is handed back at the sum. -/
theorem leaves3_2 (c : Dev nD) (t : Fin cfg3.N) (h7 : t.val % 8 = 7) :
    (dat3 V c).leavesExact 2 t = owns (c : Thread nD τ) (st3_2 t) fullShare (acc3 V c t.val t.isLt) := by
  rw [← after3_2 V c t]; unfold Dat.leavesExact; rw [liveAt3_2 t h7]

/-! ## The body obligation -/

/-- What the body is called with at point `t` (the library's obligation, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 1000000 in
/-- A point of reduction coordinate 0: the invariant yields the scratch at whatever it holds (the class's own at the first
    point, the previous row's finished sum later), the body leaves it at the fresh sum; the output's buffer, idle, goes
    back as found. -/
theorem sound_body3_first (c : Dev nD) (t : Fin cfg3.N) (h0 : t.val % 8 = 0) :
    bodyPre3 V c t ⊢ wp frame (wpE (defs₀ (F := F)) Variants.none c none) Set.univ (bodyAt3 t) (fun _ => bodyPost3 V c t) := by
  have h7 : ¬t.val % 8 = 7 := by omega
  unfold bodyPre3 bodyPost3 bodyAt3
  simp only [before3_0, before3_1]
  rw [show (dat3 V c).owesAt () t.succ = (dat3 V c).owesAt () t.castSucc from rfl,
    show (dat3 V c).Φ t.succ = Phi3 V c (t.val + 1) t.isLt from rfl, Phi3_succ,
    leaves3_0, leaves3_1, Dat.leavesExact_idle (dat3 V c) 2 t (idleAt3_2 t h7) (noFlush3_2 t h7),
    Phi3_castSucc, acc3_reset V c t h0]
  iintro ⟨HΦ, Ho, ⟨%d0, H0⟩, ⟨%d1, H1⟩, ⟨%d2, H2⟩⟩
  ihave HΦ' := (Phi3_open V c t.val (Nat.le_of_lt t.isLt)) $$ HΦ
  icases HΦ' with ⟨HS, HR⟩
  iapply (run3_first c Set.univ (grid3.coords t) _ _ _ _ _ _ _ _ ((hcond3_0 t).mpr h0) (fun h => h7 ((hcond3_1 t).mp h))
    (iblk3 V c 0 t) (iblk3 V c 1 t) _ _)
  isplitl [H0]; · iexact H0
  isplitl [H1]; · iexact H1
  isplitl [H2]; · iexact H2
  isplitl [HS]; · iexact HS
  iintro ⟨H0, H1, H2, HS⟩
  isplitl [HS HR]
  · isplitl [HS]; · iexact HS
    iexact HR
  isplitl [Ho]; · iexact Ho
  isplitl [H0]; · iexact H0
  isplitl [H1]; · iexact H1
  iexists d2; iexact H2

set_option maxHeartbeats 1000000 in
/-- A point of reduction coordinate strictly between 0 and 7: the invariant names the scratch at the sum so far, the body
    adds the point's product; the output's buffer, idle, goes back as found. -/
theorem sound_body3_mid (c : Dev nD) (t : Fin cfg3.N) (h0 : ¬t.val % 8 = 0) (h7 : ¬t.val % 8 = 7) :
    bodyPre3 V c t ⊢ wp frame (wpE (defs₀ (F := F)) Variants.none c none) Set.univ (bodyAt3 t) (fun _ => bodyPost3 V c t) := by
  have hz : t.val ≠ 0 := fun e => h0 (by rw [e])
  unfold bodyPre3 bodyPost3 bodyAt3
  simp only [before3_0, before3_1]
  rw [show (dat3 V c).owesAt () t.succ = (dat3 V c).owesAt () t.castSucc from rfl,
    show (dat3 V c).Φ t.succ = Phi3 V c (t.val + 1) t.isLt from rfl, Phi3_succ,
    leaves3_0, leaves3_1, Dat.leavesExact_idle (dat3 V c) 2 t (idleAt3_2 t h7) (noFlush3_2 t h7),
    Phi3_castSucc, Phi3_pos V c _ _ hz, acc3_step V c t h0]
  iintro ⟨⟨HS, HR⟩, Ho, ⟨%d0, H0⟩, ⟨%d1, H1⟩, ⟨%d2, H2⟩⟩
  iapply (run3_mid c Set.univ (grid3.coords t) _ _ _ _ _ _ _ _ (fun h => h0 ((hcond3_0 t).mp h)) (fun h => h7 ((hcond3_1 t).mp h))
    (iblk3 V c 0 t) (iblk3 V c 1 t) _ _ _)
  isplitl [H0]; · iexact H0
  isplitl [H1]; · iexact H1
  isplitl [H2]; · iexact H2
  isplitl [HS]; · iexact HS
  iintro ⟨H0, H1, H2, HS⟩
  isplitl [HS HR]
  · isplitl [HS]; · iexact HS
    iexact HR
  isplitl [Ho]; · iexact Ho
  isplitl [H0]; · iexact H0
  isplitl [H1]; · iexact H1
  iexists d2; iexact H2

set_option maxHeartbeats 1000000 in
/-- A point of reduction coordinate 7: as before for the scratch; the output's buffer, live here and found at anything,
    goes back at the sum. -/
theorem sound_body3_last (c : Dev nD) (t : Fin cfg3.N) (h7 : t.val % 8 = 7) :
    bodyPre3 V c t ⊢ wp frame (wpE (defs₀ (F := F)) Variants.none c none) Set.univ (bodyAt3 t) (fun _ => bodyPost3 V c t) := by
  have h0 : ¬t.val % 8 = 0 := by omega
  have hz : t.val ≠ 0 := fun e => h0 (by rw [e])
  unfold bodyPre3 bodyPost3 bodyAt3
  simp only [before3_0, before3_1]
  rw [show (dat3 V c).owesAt () t.succ = (dat3 V c).owesAt () t.castSucc from rfl,
    show (dat3 V c).Φ t.succ = Phi3 V c (t.val + 1) t.isLt from rfl, Phi3_succ,
    leaves3_0, leaves3_1, leaves3_2 V c t h7,
    Phi3_castSucc, Phi3_pos V c _ _ hz, acc3_step V c t h0]
  iintro ⟨⟨HS, HR⟩, Ho, ⟨%d0, H0⟩, ⟨%d1, H1⟩, ⟨%d2, H2⟩⟩
  iapply (run3_last c Set.univ (grid3.coords t) _ _ _ _ _ _ _ _ (fun h => h0 ((hcond3_0 t).mp h)) ((hcond3_1 t).mpr h7)
    (iblk3 V c 0 t) (iblk3 V c 1 t) _ _)
  isplitl [H0]; · iexact H0
  isplitl [H1]; · iexact H1
  isplitl [H2]; · iexists _; iexact H2
  isplitl [HS]; · iexact HS
  iintro ⟨H0, H1, H2, HS⟩
  isplitl [HS HR]
  · isplitl [HS]; · iexact HS
    iexact HR
  isplitl [Ho]; · iexact Ho
  isplitl [H0]; · iexact H0
  isplitl [H1]; · iexact H1
  iexact H2

/-- The body at any point, by its reduction coordinate. -/
theorem sound_body3 (c : Dev nD) (t : Fin cfg3.N)  :
    bodyPre3 V c t ⊢ wp frame (wpE (defs₀ (F := F)) Variants.none c none) Set.univ (bodyAt3 t) (fun _ => bodyPost3 V c t) := by
  by_cases h0 : t.val % 8 = 0
  · exact sound_body3_first V c t h0
  · by_cases h7 : t.val % 8 = 7
    · exact sound_body3_last V c t h7
    · exact sound_body3_mid V c t h0 h7

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = Pipeline.ΦA spec3 c from rfl]

/-- After the last point the invariant gives the class's back: the sum the scratch is named at is forgotten. -/
theorem hout3 (c : Dev nD) : (dat3 V c).Φ (Fin.last cfg3.N) ⊢ Pipeline.ΦA spec3 c := by
  rw [show (dat3 V c).Φ (Fin.last cfg3.N) = Phi3 V c cfg3.N (Nat.le_refl _) from rfl, PhiA3_eq]
  exact Phi3_open V c _ _

end Cert.KernelIdeal.Frm

end
-- ==== Proof.KI.Run.lean ====
/-
  The run of the whole program. Its main function is six items in a row: a reshape of the first bias vector to a
  row, the first linear layer, the first aggregation, a reshape of the second bias vector to a row, the second
  linear layer, the second aggregation. The contents of the unscoped buffers are folded through the items from the
  launch memory: a reshape rewrites its one result buffer, a pipelined region rewrites its windows' arrays with what
  its write-backs leave (an input array as it was entered, the output array at the fold of the output blocks) and
  leaves every other buffer alone. Each region is entered holding every unscoped buffer at the fold's contents
  before it and left holding them at the fold's contents after it; the launch threads the six items, and at the end
  every unscoped buffer is read off the last contents. No item writes an argument array, so each argument ends as
  launched; the result array ends at what the last region leaves in it.
-/
import proofs.«123152_j43731357008092_1_alg».proof.Proof.Gen.KernelIdeal.Launch
import proofs.«123152_j43731357008092_1_alg».proof.Proof.Gen.KernelIdeal.Skeleton
import proofs.«123152_j43731357008092_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«123152_j43731357008092_1_alg».proof.Proof.KI.Lin0
import proofs.«123152_j43731357008092_1_alg».proof.Proof.KI.Acc1
import proofs.«123152_j43731357008092_1_alg».proof.Proof.KI.Lin2
import proofs.«123152_j43731357008092_1_alg».proof.Proof.KI.Acc3

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between two items -/

/-- A core's buffers at launch. -/
abbrev W0 : Dev nD → Valuation τ sig (Elt F) := fun c b => (s₀ m ρ).mem ((c : Dev nD), b)
theorem W0_apply (c : Dev nD) (b : Ref sig .tc) : W0 m ρ c (Proc.devRef .tc b) = m ((c : Thread nD τ).loc b) := rfl

/-- After the first reshape: the first bias vector laid out as a row. -/
abbrev W1 : Dev nD → Valuation τ sig (Elt F) := fun c => StableHlo.after hostOps0 (W0 m ρ c)
/-- The same, read at the TensorCore's references: what the first linear layer is entered with. -/
abbrev V1 : (c : Dev nD) → (b : Ref sig .tc) → Buf (Elt F) ((c : Thread nD τ).loc b) := fun c b => W1 m ρ c b

/-- After the first linear layer: its windows' arrays at what the pipeline leaves in them, every other buffer as it
    was entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- What the first aggregation is entered with. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the first aggregation. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same, read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second reshape: the second bias vector laid out as a row. -/
abbrev W4 : Dev nD → Valuation τ sig (Elt F) := fun c => StableHlo.after hostOps2 (W3 m ρ c)
/-- What the second linear layer is entered with. -/
abbrev V4 : (c : Dev nD) → (b : Ref sig .tc) → Buf (Elt F) ((c : Thread nD τ).loc b) := fun c b => W4 m ρ c b

/-- After the second linear layer. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- What the second aggregation is entered with. -/
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the second aggregation: the contents the program ends with. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- The same, read at the TensorCore's references. -/
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-! ## What each item leaves unchanged

A reshape writes its result buffer only. A region writes its output window's array only: an input window's array is
never written back, so the pipeline leaves it at its entry contents, and a buffer that is no window's array bypasses
the region. -/

theorem W1_keep (c : Dev nD) (b : Ref sig .tc) (h : b ≠ main_v0) :
    W1 m ρ c (Proc.devRef .tc b) = W0 m ρ c (Proc.devRef .tc b) := by
  show StableHlo.after hostOps0 (W0 m ρ c) (Proc.devRef .tc b) = _
  simp only [hostOps0, StableHlo.after_cons, StableHlo.after_nil]
  rw [StableHlo.reshape_result_ne]; exact h

theorem W2_keep (c : Dev nD) (b : Ref sig .tc) (h : b ≠ main_v1) :
    W2 m ρ c (Proc.devRef .tc b) = W1 m ρ c (Proc.devRef .tc b) := by
  by_cases hb : ∃ w, Pipeline.arrRef spec0 w = b
  · obtain ⟨w, rfl⟩ := hb
    have hw : (cfg0.win w).isOut = false := by
      revert h; revert w; decide
    exact (W2_arr m ρ c w).trans (((dat0 (V1 m ρ) c).arrAt_in w hw _).trans (A_eq0 (V1 m ρ) c w))
  · exact W2_of_ne m ρ c b fun w e => hb ⟨w, e⟩

theorem W3_keep (c : Dev nD) (b : Ref sig .tc) (h : b ≠ main_v2) :
    W3 m ρ c (Proc.devRef .tc b) = W2 m ρ c (Proc.devRef .tc b) := by
  by_cases hb : ∃ w, Pipeline.arrRef spec1 w = b
  · obtain ⟨w, rfl⟩ := hb
    have hw : (cfg1.win w).isOut = false := by
      revert h; revert w; decide
    exact (W3_arr m ρ c w).trans (((dat1 (V2 m ρ) c).arrAt_in w hw _).trans (A_eq1 (V2 m ρ) c w))
  · exact W3_of_ne m ρ c b fun w e => hb ⟨w, e⟩

theorem W4_keep (c : Dev nD) (b : Ref sig .tc) (h : b ≠ main_v3) :
    W4 m ρ c (Proc.devRef .tc b) = W3 m ρ c (Proc.devRef .tc b) := by
  show StableHlo.after hostOps2 (W3 m ρ c) (Proc.devRef .tc b) = _
  simp only [hostOps2, StableHlo.after_cons, StableHlo.after_nil]
  rw [StableHlo.reshape_result_ne]; exact h

theorem W5_keep (c : Dev nD) (b : Ref sig .tc) (h : b ≠ main_v4) :
    W5 m ρ c (Proc.devRef .tc b) = W4 m ρ c (Proc.devRef .tc b) := by
  by_cases hb : ∃ w, Pipeline.arrRef spec2 w = b
  · obtain ⟨w, rfl⟩ := hb
    have hw : (cfg2.win w).isOut = false := by
      revert h; revert w; decide
    exact (W5_arr m ρ c w).trans (((dat2 (V4 m ρ) c).arrAt_in w hw _).trans (A_eq2 (V4 m ρ) c w))
  · exact W5_of_ne m ρ c b fun w e => hb ⟨w, e⟩

theorem W6_keep (c : Dev nD) (b : Ref sig .tc) (h : b ≠ main_v5) :
    W6 m ρ c (Proc.devRef .tc b) = W5 m ρ c (Proc.devRef .tc b) := by
  by_cases hb : ∃ w, Pipeline.arrRef spec3 w = b
  · obtain ⟨w, rfl⟩ := hb
    have hw : (cfg3.win w).isOut = false := by
      revert h; revert w; decide
    exact (W6_arr m ρ c w).trans (((dat3 (V5 m ρ) c).arrAt_in w hw _).trans (A_eq3 (V5 m ρ) c w))
  · exact W6_of_ne m ρ c b fun w e => hb ⟨w, e⟩

/-! ## What each region finds in the arrays it reads, and what the program ends with -/

/-- The first linear layer reads the activations, -/
theorem V1_arg0 (c : Dev nD) : V1 m ρ c main_arg0 = m ((c : Thread nD τ).loc main_arg0) :=
  W1_keep m ρ c main_arg0 (by decide)
/-- the first weight matrix, -/
theorem V1_arg2 (c : Dev nD) : V1 m ρ c main_arg2 = m ((c : Thread nD τ).loc main_arg2) :=
  W1_keep m ρ c main_arg2 (by decide)
/-- and the first bias vector as a row: element `(0, j)` of the row is element `j` of the vector. -/
theorem V1_v0 (c : Dev nD) :
    V1 m ρ c main_v0 = shapeCast S1x32 (m ((c : Thread nD τ).loc main_arg3)) shapeCasts_S32_S1x32 := by
  show StableHlo.after hostOps0 (W0 m ρ c) (Proc.devRef .tc main_v0) = _
  after_results
  rfl

/-- The first aggregation reads the square matrix (the second argument) -/
theorem V2_arg1 (c : Dev nD) : V2 m ρ c main_arg1 = m ((c : Thread nD τ).loc main_arg1) :=
  (W2_keep m ρ c main_arg1 (by decide)).trans (W1_keep m ρ c main_arg1 (by decide))
/-- and what the first linear layer left in its output array. -/
theorem V2_v1 (c : Dev nD) : V2 m ρ c main_v1 = (dat0 (V1 m ρ) c).arrAt 3 cfg0.N := W2_arr m ρ c 3

/-- The second linear layer reads what the first aggregation left in its output array, -/
theorem V4_v2 (c : Dev nD) : V4 m ρ c main_v2 = (dat1 (V2 m ρ) c).arrAt 2 cfg1.N :=
  (W4_keep m ρ c main_v2 (by decide)).trans (W3_arr m ρ c 2)
/-- the second weight matrix, -/
theorem V4_arg4 (c : Dev nD) : V4 m ρ c main_arg4 = m ((c : Thread nD τ).loc main_arg4) :=
  (W4_keep m ρ c main_arg4 (by decide)).trans <| (W3_keep m ρ c main_arg4 (by decide)).trans <|
    (W2_keep m ρ c main_arg4 (by decide)).trans (W1_keep m ρ c main_arg4 (by decide))
/-- The second bias vector reaches the second reshape as launched. -/
theorem W3_arg5 (c : Dev nD) : W3 m ρ c (Proc.devRef .tc main_arg5) = m ((c : Thread nD τ).loc main_arg5) :=
  (W3_keep m ρ c main_arg5 (by decide)).trans <|
    (W2_keep m ρ c main_arg5 (by decide)).trans (W1_keep m ρ c main_arg5 (by decide))
/-- and the second bias vector as a row. -/
theorem V4_v3 (c : Dev nD) :
    V4 m ρ c main_v3 = shapeCast S1x16 (m ((c : Thread nD τ).loc main_arg5)) shapeCasts_S16_S1x16 := by
  rw [← W3_arg5 m ρ c]
  show StableHlo.after hostOps2 (W3 m ρ c) (Proc.devRef .tc main_v3) = _
  after_results
  rfl

/-- The second aggregation reads the square matrix (the second argument) -/
theorem V5_arg1 (c : Dev nD) : V5 m ρ c main_arg1 = m ((c : Thread nD τ).loc main_arg1) :=
  (W5_keep m ρ c main_arg1 (by decide)).trans <| (W4_keep m ρ c main_arg1 (by decide)).trans <|
    (W3_keep m ρ c main_arg1 (by decide)).trans <| (W2_keep m ρ c main_arg1 (by decide)).trans (W1_keep m ρ c main_arg1 (by decide))
/-- and what the second linear layer left in its output array. -/
theorem V5_v4 (c : Dev nD) : V5 m ρ c main_v4 = (dat2 (V4 m ρ) c).arrAt 3 cfg2.N := W5_arr m ρ c 3

/-- The result array ends at what the second aggregation leaves in it. -/
theorem W6_out (c : Dev nD) : W6 m ρ c (Proc.devRef .tc main_v5) = (dat3 (V5 m ρ) c).arrAt 2 cfg3.N := W6_arr m ρ c 2

/-- A buffer that is no item's result ends as launched: every item leaves it alone. -/
theorem W6_of_arg (c : Dev nD) (b : Ref sig .tc) (h0 : b ≠ main_v0) (h1 : b ≠ main_v1) (h2 : b ≠ main_v2)
    (h3 : b ≠ main_v3) (h4 : b ≠ main_v4) (h5 : b ≠ main_v5) :
    W6 m ρ c (Proc.devRef .tc b) = m ((c : Thread nD τ).loc b) :=
  (W6_keep m ρ c b h5).trans <| (W5_keep m ρ c b h4).trans <| (W4_keep m ρ c b h3).trans <|
    (W3_keep m ρ c b h2).trans <| (W2_keep m ρ c b h1).trans (W1_keep m ρ c b h0)

theorem W6_main_arg0 (c : Dev nD) : W6 m ρ c (Proc.devRef .tc main_arg0) = m ((c : Thread nD τ).loc main_arg0) :=
  W6_of_arg m ρ c main_arg0 (by decide) (by decide) (by decide) (by decide) (by decide) (by decide)
theorem W6_main_arg1 (c : Dev nD) : W6 m ρ c (Proc.devRef .tc main_arg1) = m ((c : Thread nD τ).loc main_arg1) :=
  W6_of_arg m ρ c main_arg1 (by decide) (by decide) (by decide) (by decide) (by decide) (by decide)
theorem W6_main_arg2 (c : Dev nD) : W6 m ρ c (Proc.devRef .tc main_arg2) = m ((c : Thread nD τ).loc main_arg2) :=
  W6_of_arg m ρ c main_arg2 (by decide) (by decide) (by decide) (by decide) (by decide) (by decide)
theorem W6_main_arg3 (c : Dev nD) : W6 m ρ c (Proc.devRef .tc main_arg3) = m ((c : Thread nD τ).loc main_arg3) :=
  W6_of_arg m ρ c main_arg3 (by decide) (by decide) (by decide) (by decide) (by decide) (by decide)
theorem W6_main_arg4 (c : Dev nD) : W6 m ρ c (Proc.devRef .tc main_arg4) = m ((c : Thread nD τ).loc main_arg4) :=
  W6_of_arg m ρ c main_arg4 (by decide) (by decide) (by decide) (by decide) (by decide) (by decide)
theorem W6_main_arg5 (c : Dev nD) : W6 m ρ c (Proc.devRef .tc main_arg5) = m ((c : Thread nD τ).loc main_arg5) :=
  W6_of_arg m ρ c main_arg5 (by decide) (by decide) (by decide) (by decide) (by decide) (by decide)

/-! ## The proof data of the four pipelines and the thread state between items -/

/-- No pipeline has a prefetched table. -/
abbrev adm : (p : Fin 4) → (pcfgs (F := F) p).Adm := fun p => (cfgs p).toPCfg_adm
/-- Each pipeline's proof data, at the contents its region is entered with. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V5 m ρ) c
abbrev 𝒱₀ : Variants := Variants.none
/-- No core owes another anything. -/
abbrev L : GSem nD τ sig → Finset Unit := fun _ => ∅
abbrev lv : GSem nD τ sig → Unit → ℕ := fun _ _ => 0
/-- What a core holds beside its unscoped buffers between two items: its generator register at some state, and its
    dues, which are none. -/
abbrev R (c : Dev nD) : sProp 𝕄 := iprop((∃ r, prngReg c r) ∗ ∃ W, owes (c : Thread nD τ) (0 : CellTallies nD τ sig Unit) W)
/-- A stretch of host operations from the contents `W`, run holding every unscoped buffer; it leaves them at the
    operations' results. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A reshape allocates nothing. -/
theorem fresh0 : (hostOps0 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor
/-- An unscoped TensorCore reference is among the buffers a core holds between items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core holds at the end, its dues apart: every unscoped buffer at the last contents, the generator register. -/
abbrev Tₙ (c : Dev nD) : sProp 𝕄 := iprop(StableHlo.held (c : Thread nD τ) (Pipeline.ucRefs τ sig) (W6 m ρ c) ∗ ∃ r, prngReg c r)

/-! ## The four regions

Each is entered holding every unscoped buffer: its windows' arrays are split off at the proof data's entry contents,
the rest bypasses the region; the generator register goes into the region's invariant with the scoped buffers no
window stages, and comes back; nothing is owed at any point. At the exit the arrays, now at what the pipeline left,
are put back among the bypassing buffers: together they are every unscoped buffer at the next contents of the fold. -/

set_option backward.isDefEq.respectTransparency.types false in
/-- The first linear layer: entered at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The first aggregation: entered at `W2`, left at `W3`. Its invariant carries more than the scoped rest and the
    generator register (the accumulator's contents from point to point); it is entered from those two and gives them
    back at the last point. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun c t => owed1 (V2 m ρ) c t
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => share1 (V2 m ρ) c w) (V2 m ρ c) fun w => A_eq1 (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    refine BIBase.Entails.trans (hout1 (V2 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => share1 (V2 m ρ) c w)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second linear layer: entered at `W4`, left at `W5`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun w => A_eq2 (V4 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second aggregation: entered at `W5`, left at `W6`, which is what the program ends with. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun c t => owed3 (V5 m ρ) c t
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun w => share3 (V5 m ρ) c w) (V5 m ρ c) fun w => A_eq3 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V5 m ρ) c)
    unfold Pipeline.ΦA
    iintro ⟨Hp, -, Hr⟩
    isplitl [Hr]; · iexact Hr
    iexact Hp
  hout c := by
    refine BIBase.Entails.trans (hout3 (V5 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun w => share3 (V5 m ρ) c w)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The six items in order, and the launch -/

/-- The program's items: a host stretch per reshape from its boundary's contents, a region per pipeline. -/
abbrev segs : List (Pipeline.Seg (pcfgs (F := F)) adm (pdats m ρ) () defs₀ 𝒱₀ L lv) :=
  [ .host (hseg hostOps0 hostOps0_sub fresh0 (W0 m ρ)),
    .region (reg0 m ρ),
    .region (reg1 m ρ),
    .host (hseg hostOps2 hostOps2_sub fresh2 (W3 m ρ)),
    .region (reg2 m ρ),
    .region (reg3 m ρ) ]
/-- The main function is the run of those items. -/
theorem main_run (c : Dev nD) : main (F := F) c = Pipeline.Seg.run (segs m ρ) := (main_chain c).trans (by chain_rfl)

set_option backward.isDefEq.respectTransparency.types false in
/-- From any memory with every counter at zero, every weakly fair execution of the program terminates without a fault,
    and at the end every unscoped buffer of every core holds the last contents of the fold. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- Every argument array ends holding what it held at launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c)⟩) (run_main m ρ)

end Cert.KernelIdeal.Frm

end
-- ==== Proof.Layers.lean ====
/-
  The reference, layer by layer. Its result is four nested terms: a linear layer `x · W₁ + b₁` (the bias a row laid over
  every row), an aggregation `max (A · t, 0)` by the adjacency matrix, a second linear layer `h · W₂ + b₂` and a second
  aggregation `A · t`. Each is named here in the reference's own operations, so that the composition of the four is the
  term its run ends with, and each kernel region can be compared with one layer at a time.
-/
import proofs.«123152_j43731357008092_1_alg».proof.Proof.Gen.ReferenceIdeal.Run
import Idealize.ShloMosaic.PureOps.Ideal

noncomputable section

namespace Cert.ReferenceIdeal.Layers

open Cert.ReferenceIdeal Cert.ReferenceIdeal.Gen Idealize.ShloMosaic Idealize.ShloMosaic.TcCoe Idealize.SL.Sem

/-- `x · W₁` plus a bias ROW `r : [1, 32]` laid over every row. -/
def lin1row (x : FVec Ideal S16384x512 .f32) (w : FVec Ideal S512x32 .f32) (r : FVec Ideal S1x32 .f32) : FVec Ideal S16384x32 .f32 :=
  addf (Host.dotGeneral dot_S16384x512_S512x32_S16384x32_1_0_0_1_n_n none x w) (broadcastInDim S16384x32 ![0, 1] bcast_S1x32_S16384x32_0_1 r)

/-- The first linear layer, the bias `b₁ : [32]` first made a row. -/
def lin1 (x : FVec Ideal S16384x512 .f32) (w : FVec Ideal S512x32 .f32) (b : FVec Ideal S32 .f32) : FVec Ideal S16384x32 .f32 :=
  lin1row x w (broadcastInDim S1x32 ![1] bcast_S32_S1x32_1 b)

/-- The first aggregation: `A · t`, clamped below at zero. -/
def agg1 (a : FVec Ideal S16384x16384 .f32) (t : FVec Ideal S16384x32 .f32) : FVec Ideal S16384x32 .f32 :=
  maximumf (Host.dotGeneral dot_S16384x16384_S16384x32_S16384x32_1_0_0_1_n_n none a t)
    (broadcastInDim S16384x32 ![] bcast_S_S16384x32 (constant S_ .f32 0x00000000#32))

/-- `h · W₂` plus a bias row `r : [1, 16]`. -/
def lin2row (h : FVec Ideal S16384x32 .f32) (w : FVec Ideal S32x16 .f32) (r : FVec Ideal S1x16 .f32) : FVec Ideal S16384x16 .f32 :=
  addf (Host.dotGeneral dot_S16384x32_S32x16_S16384x16_1_0_0_1_n_n none h w) (broadcastInDim S16384x16 ![0, 1] bcast_S1x16_S16384x16_0_1 r)

/-- The second linear layer. -/
def lin2 (h : FVec Ideal S16384x32 .f32) (w : FVec Ideal S32x16 .f32) (b : FVec Ideal S16 .f32) : FVec Ideal S16384x16 .f32 :=
  lin2row h w (broadcastInDim S1x16 ![1] bcast_S16_S1x16_1 b)

/-- The second aggregation: `A · t`. -/
def agg2 (a : FVec Ideal S16384x16384 .f32) (t : FVec Ideal S16384x16 .f32) : FVec Ideal S16384x16 .f32 :=
  Host.dotGeneral dot_S16384x16384_S16384x16_S16384x16_1_0_0_1_n_n none a t

/-- The whole reference as the four layers composed. -/
def net (x : FVec Ideal S16384x512 .f32) (a : FVec Ideal S16384x16384 .f32) (w1 : FVec Ideal S512x32 .f32) (b1 : FVec Ideal S32 .f32)
    (w2 : FVec Ideal S32x16 .f32) (b2 : FVec Ideal S16 .f32) : FVec Ideal S16384x16 .f32 :=
  agg2 a (lin2 (agg1 a (lin1 x w1 b1)) w2 b2)

/-- Every fair execution of the reference ends with its result at `net` of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10)
          = net (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.ReferenceIdeal.Value.run (F := Ideal) m ρ

end Cert.ReferenceIdeal.Layers

end
-- ==== Proof.LibPlainProduct.lean ====
/-
  A plain matrix product read at an index, over any extents.

  For `x : [M, K]` and `y : [K, N]` and a dimension record between `[M, K]`, `[K, N]` and `[M, N]` that contracts the
  left operand's second axis with the right operand's first one, the sum over the contraction index in which a
  `tpu.matmul` into the zero accumulator and a host `dot_general` are both read at the ideal values is, at output index
  `(i, j)`, the textbook `Σ_d x[i, d] · y[d, j]`. It is stated for any record whose operand indices have, axis by axis,
  the coordinates a plain product has (four equations, each closed by `rfl` at a literal record), so one statement
  serves records of different extents.
-/
import Idealize.ShloMosaic.PureOps.Ideal.Laws
import Idealize.ShloMosaic.Lib.ValueIdx

noncomputable section

namespace Idealize.ShloMosaic.PlainProduct

open Idealize.ShloMosaic Idealize.ShloMosaic.ValueIdx

/-- **The contraction sum of a plain product, re-indexed by its one coordinate.** `D` is any dimension record between
    `[M, K]`, `[K, N]` and `[M, N]` with one contracted axis of extent `K` whose left operand index at output index `j`
    and contraction index `k` is `(j 0, k)` and whose right one is `(k, j 1)`. -/
theorem sum_contr {M K N : Nat}
    (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (x : (⟨2, ![M, K]⟩ : Shape).Idx → EReal) (y : (⟨2, ![K, N]⟩ : Shape).Idx → EReal)
    (i : Fin M) (j : Fin N) :
    ∑ k : D.contr.Idx, x (D.lhsIdx (ix2 i j) k) * y (D.rhsIdx (ix2 i j) k)
      = ∑ d : Fin K, x (ix2 i d) * y (ix2 d j) := by
  rw [← Equiv.sum_comp (contrEquiv1 D K hr hs).symm]
  refine Finset.sum_congr rfl fun d _ => ?_
  have el : D.lhsIdx (ix2 i j) ((contrEquiv1 D K hr hs).symm d) = ix2 i d := by
    funext a
    refine Fin.ext ?_
    match a with
    | ⟨0, _⟩ => exact hl0 _ _
    | ⟨1, _⟩ => exact (hl1 _ _).trans (contrEquiv1_symm_val D K hr hs d)
  have er : D.rhsIdx (ix2 i j) ((contrEquiv1 D K hr hs).symm d) = ix2 d j := by
    funext a
    refine Fin.ext ?_
    match a with
    | ⟨0, _⟩ => exact (hr0 _ _).trans (contrEquiv1_symm_val D K hr hs d)
    | ⟨1, _⟩ => exact hr1 _ _
  rw [el, er]

/-- A `tpu.matmul` into the zero accumulator, at the ideal values, read at `(i, j)`. -/
theorem matmul_zero_apply {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision)
    (x : FVec Ideal ⟨2, ![M, K]⟩ φ₁) (y : FVec Ideal ⟨2, ![K, N]⟩ φ₂) (i : Fin M) (j : Fin N) :
    matmul D prec x y (constant (F := Ideal) ⟨2, ![M, N]⟩ .f32 0x00000000#32) (ix2 i j)
      = ∑ d : Fin K, x (ix2 i d) * y (ix2 d j) :=
  (Ideal.matmul_constant_zero_apply D prec x y (ix2 i j)).trans (sum_contr D hr hs hl0 hl1 hr0 hr1 x y i j)

/-- A host `dot_general`, at the ideal values, read at `(i, j)`. -/
theorem dotGeneral_apply {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision)
    (x : FVec Ideal ⟨2, ![M, K]⟩ φ₁) (y : FVec Ideal ⟨2, ![K, N]⟩ φ₂) (i : Fin M) (j : Fin N) :
    Host.dotGeneral D prec x y (ix2 i j) = ∑ d : Fin K, x (ix2 i d) * y (ix2 d j) := by
  simp only [Host.dotGeneral]
  exact (Ideal.dotGeneral_apply D prec _ x y (ix2 i j)).trans (sum_contr D hr hs hl0 hl1 hr0 hr1 x y i j)

end Idealize.ShloMosaic.PlainProduct

end
-- ==== Proof.Val0.lean ====
/-
  The first linear layer's region, read as one array. Point `t` of its eight writes back rows `2048 t … 2048 t + 2047`
  of the output; the block it writes is, entry by entry, the row of the activations against the column of the weights,
  summed over the 512 contracted positions, plus the bias row's entry in that column. That is block `t` of the
  reference's `x · W₁ + r`, and the eight blocks tile the output's rows, so the array the region leaves is that term.
-/
import proofs.«123152_j43731357008092_1_alg».proof.Proof.KI.Lin0
import proofs.«123152_j43731357008092_1_alg».proof.Proof.Layers
import proofs.«123152_j43731357008092_1_alg».proof.Proof.LibPlainProduct
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm Idealize.ShloMosaic Idealize.ShloMosaic.ValueIdx Idealize.ShloMosaic.TcCoe Idealize.SL.Sem

variable (V : (c : Dev nD) → (b : Ref sig .tc) → Buf (Elt Ideal) ((c : Thread nD τ).loc b))

/-- The body's payload read at row `p`, column `q` of the block: the row of the activations block against the
    column of the weights, plus the bias row's entry in that column. -/
theorem pay0_apply (x0 : Vec Ideal S2048x512 .f32) (x1 : Vec Ideal S512x32 .f32) (x2 : Vec Ideal S1x32 .f32)
    (p : Fin 2048) (q : Fin 32) :
    k0_pay1 (F := Ideal) x0 x1 x2 (ix2 p q) = (∑ d : Fin 512, x0 (ix2 p d) * x1 (ix2 d q)) + x2 (ix2 (0 : Fin 1) q) := by
  unfold k0_pay1
  refine (addf_apply _ _ _).trans ?_
  refine congrArg₂ (· + ·) ?_ ?_
  · exact PlainProduct.matmul_zero_apply dot_S2048x512_S512x32_S2048x32_1_0_0_1_n_n rfl rfl (fun _ _ => rfl) (fun _ _ => rfl)
      (fun _ _ => rfl) (fun _ _ => rfl) none _ _ p q
  · rw [shapeCast_self]
    exact broadcastTo_1b_ab_apply x2 _ p q

/-- The reference's linear layer read at row `i`, column `q`. -/
theorem lin1row_apply (x : FVec Ideal Cert.ReferenceIdeal.S16384x512 .f32) (w : FVec Ideal Cert.ReferenceIdeal.S512x32 .f32)
    (r : FVec Ideal Cert.ReferenceIdeal.S1x32 .f32) (i : Fin 16384) (q : Fin 32) :
    Cert.ReferenceIdeal.Layers.lin1row x w r (ix2 i q) = (∑ d : Fin 512, x (ix2 i d) * w (ix2 d q)) + r (ix2 (0 : Fin 1) q) := by
  unfold Cert.ReferenceIdeal.Layers.lin1row
  refine (addf_apply _ _ _).trans ?_
  refine congrArg₂ (· + ·) ?_ ?_
  · exact PlainProduct.dotGeneral_apply Cert.ReferenceIdeal.dot_S16384x512_S512x32_S16384x32_1_0_0_1_n_n rfl rfl (fun _ _ => rfl) (fun _ _ => rfl)
      (fun _ _ => rfl) (fun _ _ => rfl) none x w i q
  · refine broadcastInDim_apply _ _ r (ix2 i q) (ix2 (0 : Fin 1) q) fun a => ?_
    match a with
    | ⟨0, _⟩ => show 0 = if (1 : Nat) = 1 then 0 else i.val; rw [if_pos rfl]
    | ⟨1, _⟩ => show q.val = if (32 : Nat) = 1 then 0 else q.val; rw [if_neg (by decide)]

/-- The zero offsets of a whole-block rectangle, as the constant function. -/
theorem zero_offsets0 : (![0, 0] : Fin 2 → Nat) = fun _ => 0 := funext fun a => by fin_cases a <;> rfl

/-- The printed index maps over the grid: the activations' and the output's row-block index is the point, every other
    block index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The activations block of point `t` is rows `2048 t …` of the array. -/
theorem iblk0_0_apply (c : Dev nD) (t : Fin cfg0.N) (p : Fin 2048) (d : Fin 512) (i : Fin 16384) (hi : i.val = 2048 * t.val + p.val) :
    (iblk0 V c 0 t : Vec Ideal S2048x512 .f32) (ix2 p d) = (V c main_arg0 : S16384x512.Idx → EReal) (ix2 i d) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 2048 + 1 * p.val = i.val; omega
  | ⟨1, _⟩ => show win0_0.index t (1 : Fin 2) * 512 + 1 * d.val = d.val; omega

/-- The weights block of every point is the whole array. -/
theorem iblk0_1_apply (c : Dev nD) (t : Fin cfg0.N) (d : Fin 512) (q : Fin 32) :
    (iblk0 V c 1 t : Vec Ideal S512x32 .f32) (ix2 d q) = (V c main_arg2 : S512x32.Idx → EReal) (ix2 d q) := by
  obtain ⟨-, -, e2, e3, -⟩ := idx_facts0 t
  unfold iblk0
  rw [View.read_apply]
  show V c main_arg2 _ = V c main_arg2 _
  congr 1
  funext a
  apply Fin.ext
  match a with
  | ⟨0, _⟩ => show win0_1.index t (0 : Fin 2) * 512 + 1 * d.val = d.val; omega
  | ⟨1, _⟩ => show win0_1.index t (1 : Fin 2) * 32 + 1 * q.val = q.val; omega

/-- The bias block of every point is the whole row. -/
theorem iblk0_2_apply (c : Dev nD) (t : Fin cfg0.N) (z : Fin 1) (q : Fin 32) :
    (iblk0 V c 2 t : Vec Ideal S1x32 .f32) (ix2 z q) = (V c main_v0 : S1x32.Idx → EReal) (ix2 z q) := by
  obtain ⟨-, -, -, -, e4, e5, -⟩ := idx_facts0 t
  unfold iblk0
  rw [View.read_apply]
  show V c main_v0 _ = V c main_v0 _
  congr 1
  funext a
  apply Fin.ext
  match a with
  | ⟨0, _⟩ => show win0_2.index t (0 : Fin 2) * 1 + 1 * z.val = z.val; omega
  | ⟨1, _⟩ => show win0_2.index t (1 : Fin 2) * 32 + 1 * q.val = q.val; omega

/-- What point `t` writes back is block `t` of the reference's linear layer of the three arrays as the region finds them:
    at row `p`, column `q` of the block both are `Σ_d x[2048 t + p, d] · w[d, q] + r[0, q]`. -/
theorem flushed0_eq (c : Dev nD) (t : Fin cfg0.N) :
    (dat0 (F := Ideal) V c).flushed 3 t = ((cfg0.win 3).blk t).view.read (Elt Ideal)
      (Cert.ReferenceIdeal.Layers.lin1row (V c main_arg0) (V c main_arg2) (V c main_v0)) := by
  show (cfg0.win 3).cut (grid0.coords t) ((dat0 (F := Ideal) V c).after 3 t) = _
  rw [after0_3]
  unfold out0_3
  rw [View.canon_unit_zero zero_offsets0]
  simp only [View.ld_unit_zero (S := S2048x512) zero_offsets0, View.ld_unit_zero (S := S512x32) zero_offsets0, View.ld_unit_zero (S := S1x32) zero_offsets0]
  obtain ⟨e0, e1, e2, e3, e4, e5, e6, e7⟩ := idx_facts0 t
  have ht : t.val < 8 := Nat.lt_of_lt_of_eq t.isLt N_0
  funext j
  obtain ⟨p, q, rfl⟩ : ∃ (p : Fin 2048) (q : Fin 32), j = ix2 p q := ⟨j 0, j 1, eq_ix2 j⟩
  show k0_pay1 (F := Ideal) (iblk0 V c 0 t) (iblk0 V c 1 t) (iblk0 V c 2 t) (ix2 p q)
    = Cert.ReferenceIdeal.Layers.lin1row (V c main_arg0) (V c main_arg2) (V c main_v0) (((cfg0.win 3).blk t).view.emb (ix2 p q))
  refine (pay0_apply _ _ _ p q).trans ?_
  have hemb : ((cfg0.win 3).blk t).view.emb (ix2 p q) = ix2 (⟨2048 * t.val + p.val, by have := p.isLt; omega⟩ : Fin 16384) q := by
    funext a; apply Fin.ext
    match a with
    | ⟨0, _⟩ => show win0_3.index t (0 : Fin 2) * 2048 + 1 * p.val = 2048 * t.val + p.val; omega
    | ⟨1, _⟩ => show win0_3.index t (1 : Fin 2) * 32 + 1 * q.val = q.val; omega
  rw [hemb, lin1row_apply]
  refine congrArg₂ (· + ·) (Finset.sum_congr rfl fun d _ => congrArg₂ (· * ·) ?_ ?_) ?_
  · exact iblk0_0_apply V c t p d _ rfl
  · exact iblk0_1_apply V c t d q
  · exact iblk0_2_apply V c t 0 q

/-- An index of the output array is in point `t`'s block iff each coordinate is in the block's range on its axis. -/
theorem mem_blk0 (t : Fin cfg0.N) (i : S16384x32.Idx) :
    i ∈ ((cfg0.win 3).blk t).view.set ↔ ∀ a : Fin 2, win0_3.index t a * S2048x32.size a ≤ (i a).val
      ∧ (i a).val < win0_3.index t a * S2048x32.size a + S2048x32.size a := by
  show i ∈ ((View.whole main_v1).slice (win0_3.rect t)).set ↔ _
  rw [View.set_slice_whole, Rect.mem_set_unit]
  exact Iff.rfl

/-- Row `r` of the output array is in the block of point `r / 2048`. -/
theorem cover0 (i : S16384x32.Idx) : ∃ t : Fin cfg0.N, (cfg0.win 3).flush t = true ∧ i ∈ ((cfg0.win 3).blk t).view.set := by
  have hi0 : (i 0).val < 16384 := (i 0).isLt
  have hi1 : (i 1).val < 32 := (i 1).isLt
  have hN : cfg0.N = 8 := N_0
  obtain ⟨t, ht⟩ : ∃ t : Fin cfg0.N, t.val = (i 0).val / 2048 := ⟨⟨(i 0).val / 2048, by rw [hN]; omega⟩, rfl⟩
  obtain ⟨-, -, -, -, -, -, e6, e7⟩ := idx_facts0 t
  refine ⟨t, flush0_3 t, ?_⟩
  rw [mem_blk0]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 32 ≤ (i 1).val ∧ (i 1).val < win0_3.index t (1 : Fin 2) * 32 + 32; omega

/-- **The output array after the region** is the reference's first linear layer of the three input arrays. -/
theorem val0 (c : Dev nD) : (dat0 (F := Ideal) V c).arrAt 3 cfg0.N
    = Cert.ReferenceIdeal.Layers.lin1row (V c main_arg0) (V c main_arg2) (V c main_v0) :=
  (dat0 (F := Ideal) V c).arrAt_eq_of_cover 3 _ (fun t _ => flushed0_eq V c t) cover0

end Cert.KernelIdeal.Val

end
-- ==== Proof.ValBlockSum.lean ====
/-
  Block sums regrouped.

  A sum over `m · n` consecutive naturals is the sum, over `m` consecutive blocks, of the sums over the `n` members of each
  block. It is stated for any function on the naturals with values in a commutative additive monoid (no subtraction, no
  finiteness), first with both sides as sums over ranges, then with the inner and the whole sum over `Fin`.
-/
import Mathlib.Algebra.BigOperators.Fin
import Mathlib.Algebra.BigOperators.Intervals

namespace Cert.BlockSum

open Finset

variable {M : Type} [AddCommMonoid M]

/-- `Σ_{k < m} Σ_{d < n} g (n k + d) = Σ_{e < m n} g e`: by induction on the number of blocks, the last block split off
    the end of the long range. -/
theorem sum_range_blocks (g : ℕ → M) (n : ℕ) :
    ∀ m : ℕ, ∑ k ∈ range m, ∑ d ∈ range n, g (n * k + d) = ∑ e ∈ range (m * n), g e
  | 0 => by rw [Nat.zero_mul, sum_range_zero, sum_range_zero]
  | m + 1 => by
    rw [sum_range_succ, sum_range_blocks g n m, Nat.succ_mul, sum_range_add, Nat.mul_comm n m]

/-- The same with the block's members and the whole range indexed by `Fin`. -/
theorem sum_blocks_fin (g : ℕ → M) (m n : ℕ) :
    ∑ k ∈ range m, ∑ d : Fin n, g (n * k + d.val) = ∑ e : Fin (m * n), g e.val := by
  rw [Fin.sum_univ_eq_sum_range (fun e => g e) (m * n), ← sum_range_blocks g n m]
  exact sum_congr rfl fun k _ => Fin.sum_univ_eq_sum_range (fun d => g (n * k + d)) n

/-- The same with the long range's length given by name. -/
theorem sum_blocks_fin_of_eq (g : ℕ → M) (m n N : ℕ) (hN : m * n = N) :
    ∑ k ∈ range m, ∑ d : Fin n, g (n * k + d.val) = ∑ e : Fin N, g e.val := by
  subst hN
  exact sum_blocks_fin g m n

end Cert.BlockSum
-- ==== Proof.Val1.lean ====
/-
  The first aggregation region computes the reference's first aggregation.

  The region walks an 8 × 8 grid: point `8 i + k` loads block `(i, k)` of the 16384 × 16384 adjacency matrix and row
  block `k` of the 16384 × 32 features, and adds their product onto a carried 2048 × 32 scratch that point `8 i` first
  resets to zero. So after point `8 i + k` the scratch holds the partial sums over the column blocks `0 … k` (by induction
  along the points), after point `8 i + 7` the whole sum over the 16384 columns (eight block sums regrouped as one), and
  what that point writes back, the scratch clamped below at zero, is rows `2048 i …` of `max (A · t, 0)`. Every row lies
  in exactly such a block, so the output array ends holding `max (A · t, 0)`.
-/
import proofs.«123152_j43731357008092_1_alg».proof.Proof.KI.Acc1
import proofs.«123152_j43731357008092_1_alg».proof.Proof.Layers
import proofs.«123152_j43731357008092_1_alg».proof.Proof.LibPlainProduct
import proofs.«123152_j43731357008092_1_alg».proof.Proof.ValBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.ValueIdx Idealize.ShloMosaic.TcCoe Idealize.SL.Sem

variable (V : (c : Dev nD) → (b : Ref sig .tc) → Buf (Elt Ideal) ((c : Thread nD τ).loc b))

/-! ## The three payloads at an index -/

/-- The reset value of the scratch is zero everywhere. -/
theorem zeros1_apply (p : Fin 2048) (q : Fin 32) : k1_pay1 (F := Ideal) (ix2 p q) = 0 := by
  unfold k1_pay1
  rw [shapeCast_self]
  exact Ideal.ofBits_zero_f32

/-- One accumulation step: the scratch plus the product of the two loaded blocks, entry by entry. -/
theorem step1_apply (x : Vec Ideal S2048x2048 .f32) (y : Vec Ideal S2048x32 .f32) (z : Vec Ideal S2048x32 .f32)
    (p : Fin 2048) (q : Fin 32) :
    k1_pay2 x y z (ix2 p q) = z (ix2 p q) + ∑ d : Fin 2048, x (ix2 p d) * y (ix2 d q) := by
  unfold k1_pay2
  rw [shapeCast_self, shapeCast_self, addf_apply]
  refine congrArg (z (ix2 p q) + ·) ?_
  exact PlainProduct.matmul_zero_apply dot_S2048x2048_S2048x32_S2048x32_1_0_0_1_n_n rfl rfl (fun _ _ => rfl) (fun _ _ => rfl)
    (fun _ _ => rfl) (fun _ _ => rfl) none _ _ p q

/-- The flushed value: the scratch clamped below at zero. -/
theorem clamp1_apply (z : Vec Ideal S2048x32 .f32) (p : Fin 2048) (q : Fin 32) :
    k1_pay3 z (ix2 p q) = max (z (ix2 p q)) 0 := by
  unfold k1_pay3
  rw [maximumf_apply, broadcast_apply]
  exact congrArg (max (z (ix2 p q))) Ideal.ofBits_zero_f32

/-! ## The windows' blocks as parts of the arrays -/

/-- A matrix read at natural coordinates (zero outside its extents): block offsets are then plain sums of naturals. -/
def at2 {R C : ℕ} (a : (⟨2, ![R, C]⟩ : Shape).Idx → EReal) (r s : ℕ) : EReal :=
  if h : r < R ∧ s < C then a (ix2 ⟨r, h.1⟩ ⟨s, h.2⟩) else 0

theorem at2_of_lt {R C : ℕ} (a : (⟨2, ![R, C]⟩ : Shape).Idx → EReal) (r : Fin R) (s : Fin C) :
    at2 a r.val s.val = a (ix2 r s) := by
  unfold at2
  rw [dif_pos ⟨r.isLt, s.isLt⟩]

/-- The grid has 64 points. -/
theorem points1 : cfg1.N = 64 := rfl

/-- The printed index maps, decided over the grid: point `t = 8 i + k` reads block `(i, k)` of the adjacency matrix and
    row block `k` of the features, and its output block is row block `i`. -/
theorem idx1 : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, _)

/-- The adjacency block loaded at point `t`. -/
theorem adj1_apply (c : Dev nD) (t : Fin cfg1.N) (p d : Fin 2048) :
    (iblk1 V c 0 t : Vec Ideal S2048x2048 .f32) (ix2 p d)
      = at2 (V c main_arg1) (2048 * (t.val / 8) + p.val) (2048 * (t.val % 8) + d.val) := by
  have ht : t.val < 64 := t.isLt
  obtain ⟨e0, e1, -⟩ := idx1 t
  unfold at2
  rw [dif_pos ⟨by omega, by omega⟩]
  unfold iblk1
  rw [View.read_apply]
  show V c main_arg1 _ = V c main_arg1 _
  congr 1
  funext a
  apply Fin.ext
  match a with
  | ⟨0, _⟩ => show win1_0.index t (0 : Fin 2) * 2048 + 1 * p.val = 2048 * (t.val / 8) + p.val; omega
  | ⟨1, _⟩ => show win1_0.index t (1 : Fin 2) * 2048 + 1 * d.val = 2048 * (t.val % 8) + d.val; omega

/-- The feature rows loaded at point `t`. -/
theorem rows1_apply (c : Dev nD) (t : Fin cfg1.N) (d : Fin 2048) (q : Fin 32) :
    (iblk1 V c 1 t : Vec Ideal S2048x32 .f32) (ix2 d q) = at2 (V c main_v1) (2048 * (t.val % 8) + d.val) q.val := by
  have ht : t.val < 64 := t.isLt
  obtain ⟨-, -, e0, e1, -⟩ := idx1 t
  unfold at2
  rw [dif_pos ⟨by omega, q.isLt⟩]
  unfold iblk1
  rw [View.read_apply]
  show V c main_v1 _ = V c main_v1 _
  congr 1
  funext a
  apply Fin.ext
  match a with
  | ⟨0, _⟩ => show win1_1.index t (0 : Fin 2) * 2048 + 1 * d.val = 2048 * (t.val % 8) + d.val; omega
  | ⟨1, _⟩ => show win1_1.index t (1 : Fin 2) * 32 + 1 * q.val = q.val; omega

/-! ## The scratch after each point -/

/-- The recursion of the carried scratch, as its two equations. -/
theorem scratch1_zero (c : Dev nD) (h : 0 < cfg1.N) :
    acc1 V c 0 h = k1_pay2 (iblk1 V c 0 ⟨0, h⟩) (iblk1 V c 1 ⟨0, h⟩) (k1_pay1 (F := Ideal)) := by
  rw [acc1]

theorem scratch1_succ (c : Dev nD) (n : ℕ) (h : n + 1 < cfg1.N) :
    acc1 V c (n + 1) h = if (n + 1) % 8 = 0 then k1_pay2 (iblk1 V c 0 ⟨n + 1, h⟩) (iblk1 V c 1 ⟨n + 1, h⟩) (k1_pay1 (F := Ideal))
      else k1_pay2 (iblk1 V c 0 ⟨n + 1, h⟩) (iblk1 V c 1 ⟨n + 1, h⟩) (acc1 V c n (Nat.lt_of_succ_lt h)) := by
  rw [acc1]

/-- The product of block `(i, k)` of the adjacency matrix `a` with row block `k` of the features `x`, at entry `(p, q)`. -/
def blockTerm (a : FVec Ideal S16384x16384 .f32) (x : FVec Ideal S16384x32 .f32) (i : ℕ) (p : Fin 2048) (q : Fin 32) (k : ℕ) : EReal :=
  ∑ d : Fin 2048, at2 a (2048 * i + p.val) (2048 * k + d.val) * at2 x (2048 * k + d.val) q.val

/-- The product of two loaded blocks that ARE block `(i, k)` of `a` and row block `k` of `x` is that block term. -/
theorem product_blocks (a : FVec Ideal S16384x16384 .f32) (x : FVec Ideal S16384x32 .f32)
    (X : Vec Ideal S2048x2048 .f32) (Y : Vec Ideal S2048x32 .f32) (i k : ℕ)
    (hX : ∀ p d : Fin 2048, X (ix2 p d) = at2 a (2048 * i + p.val) (2048 * k + d.val))
    (hY : ∀ (d : Fin 2048) (q : Fin 32), Y (ix2 d q) = at2 x (2048 * k + d.val) q.val) (p : Fin 2048) (q : Fin 32) :
    ∑ d : Fin 2048, X (ix2 p d) * Y (ix2 d q) = blockTerm a x i p q k :=
  Finset.sum_congr rfl fun d _ => by rw [hX, hY]

/-- THE INVARIANT: after point `n = 8 i + k` the scratch holds, at `(p, q)`, the block terms of row block `i` summed
    over the column blocks `0 … k`. The point `8 i` starts from zero; every other point adds one block term. -/
theorem scratch1_apply (c : Dev nD) : ∀ (n : ℕ) (h : n < cfg1.N) (p : Fin 2048) (q : Fin 32),
    acc1 V c n h (ix2 p q) = ∑ k ∈ Finset.range (n % 8 + 1), blockTerm (V c main_arg1) (V c main_v1) (n / 8) p q k
  | 0, h, p, q => by
    rw [scratch1_zero, step1_apply, zeros1_apply, zero_add]
    exact (product_blocks (V c main_arg1) (V c main_v1) _ _ _ _ (adj1_apply V c ⟨0, h⟩) (rows1_apply V c ⟨0, h⟩) p q).trans
      (Finset.sum_range_one _).symm
  | n + 1, h, p, q => by
    rw [scratch1_succ]
    by_cases h0 : (n + 1) % 8 = 0
    · rw [if_pos h0, step1_apply, zeros1_apply, zero_add]
      refine (product_blocks (V c main_arg1) (V c main_v1) _ _ _ _ (adj1_apply V c ⟨n + 1, h⟩) (rows1_apply V c ⟨n + 1, h⟩) p q).trans ?_
      show blockTerm (V c main_arg1) (V c main_v1) ((n + 1) / 8) p q ((n + 1) % 8) = _
      rw [h0]
      exact (Finset.sum_range_one _).symm
    · rw [if_neg h0, step1_apply, scratch1_apply c n (Nat.lt_of_succ_lt h) p q]
      rw [product_blocks (V c main_arg1) (V c main_v1) _ _ _ _ (adj1_apply V c ⟨n + 1, h⟩) (rows1_apply V c ⟨n + 1, h⟩) p q]
      show _ + blockTerm (V c main_arg1) (V c main_v1) ((n + 1) / 8) p q ((n + 1) % 8) = _
      have e1 : (n + 1) / 8 = n / 8 := by omega
      have e2 : (n + 1) % 8 = n % 8 + 1 := by omega
      rw [e1, e2, Finset.sum_range_succ _ (n % 8 + 1)]

/-! ## The whole row of the product -/

/-- The eight block terms of a row block are the one sum over the 16384 columns. -/
theorem blocks1_sum (a : FVec Ideal S16384x16384 .f32) (x : FVec Ideal S16384x32 .f32) (i : ℕ) (p : Fin 2048) (q : Fin 32)
    (r : Fin 16384) (hr : r.val = 2048 * i + p.val) :
    ∑ k ∈ Finset.range 8, blockTerm a x i p q k = ∑ e : Fin 16384, a (ix2 r e) * x (ix2 e q) := by
  unfold blockTerm
  rw [Cert.BlockSum.sum_blocks_fin_of_eq (fun e => at2 a (2048 * i + p.val) e * at2 x e q.val) 8 2048 16384 rfl]
  refine Finset.sum_congr rfl fun e _ => ?_
  rw [← hr, at2_of_lt, at2_of_lt]

/-! ## The reference's aggregation at an index -/

/-- The reference's product record contracts the adjacency matrix's second axis with the features' first one: the
    operand indices at output index `j` and contraction index `k`, axis by axis. -/
theorem refdot1_l0 (j : S16384x32.Idx) (k : Cert.ReferenceIdeal.dot_S16384x16384_S16384x32_S16384x32_1_0_0_1_n_n.contr.Idx) :
    (Cert.ReferenceIdeal.dot_S16384x16384_S16384x32_S16384x32_1_0_0_1_n_n.lhsIdx j k 0).val = (j 0).val := by
  unfold DotDims.lhsIdx
  rw [dif_neg (show ¬(0 : Fin S16384x16384.rank) ∈ Cert.ReferenceIdeal.dot_S16384x16384_S16384x32_S16384x32_1_0_0_1_n_n.lhsBatch by decide),
    dif_pos (show (0 : Fin S16384x16384.rank) ∈ Cert.ReferenceIdeal.dot_S16384x16384_S16384x32_S16384x32_1_0_0_1_n_n.lhsNonContracting by decide)]
  rfl

theorem refdot1_l1 (j : S16384x32.Idx) (k : Cert.ReferenceIdeal.dot_S16384x16384_S16384x32_S16384x32_1_0_0_1_n_n.contr.Idx) :
    (Cert.ReferenceIdeal.dot_S16384x16384_S16384x32_S16384x32_1_0_0_1_n_n.lhsIdx j k 1).val = (k ⟨0, by decide⟩).val :=
  Cert.ReferenceIdeal.dot_S16384x16384_S16384x32_S16384x32_1_0_0_1_n_n.lhsIdx_val_of_single rfl j k

theorem refdot1_r0 (j : S16384x32.Idx) (k : Cert.ReferenceIdeal.dot_S16384x16384_S16384x32_S16384x32_1_0_0_1_n_n.contr.Idx) :
    (Cert.ReferenceIdeal.dot_S16384x16384_S16384x32_S16384x32_1_0_0_1_n_n.rhsIdx j k 0).val = (k ⟨0, by decide⟩).val :=
  Cert.ReferenceIdeal.dot_S16384x16384_S16384x32_S16384x32_1_0_0_1_n_n.rhsIdx_val_of_single rfl j k

theorem refdot1_r1 (j : S16384x32.Idx) (k : Cert.ReferenceIdeal.dot_S16384x16384_S16384x32_S16384x32_1_0_0_1_n_n.contr.Idx) :
    (Cert.ReferenceIdeal.dot_S16384x16384_S16384x32_S16384x32_1_0_0_1_n_n.rhsIdx j k 1).val = (j 1).val := by
  unfold DotDims.rhsIdx
  rw [dif_neg (show ¬(1 : Fin S16384x32.rank) ∈ Cert.ReferenceIdeal.dot_S16384x16384_S16384x32_S16384x32_1_0_0_1_n_n.rhsBatch by decide),
    dif_pos (show (1 : Fin S16384x32.rank) ∈ Cert.ReferenceIdeal.dot_S16384x16384_S16384x32_S16384x32_1_0_0_1_n_n.rhsNonContracting by decide)]
  rfl

/-- The reference's first aggregation at an index: the row of the product, clamped below at zero. -/
theorem agg1_apply (a : FVec Ideal S16384x16384 .f32) (x : FVec Ideal S16384x32 .f32) (r : Fin 16384) (q : Fin 32) :
    Cert.ReferenceIdeal.Layers.agg1 a x (ix2 r q) = max (∑ e : Fin 16384, a (ix2 r e) * x (ix2 e q)) 0 := by
  unfold Cert.ReferenceIdeal.Layers.agg1
  rw [maximumf_apply]
  refine congrArg₂ max ?_ ?_
  · exact PlainProduct.dotGeneral_apply Cert.ReferenceIdeal.dot_S16384x16384_S16384x32_S16384x32_1_0_0_1_n_n rfl rfl
      refdot1_l0 refdot1_l1 refdot1_r0 refdot1_r1 none a x r q
  · rw [broadcastInDim_apply _ _ _ _ ix0 (fun a => a.elim0), constant_apply]
    exact Ideal.ofBits_zero_f32

/-! ## From the flushed blocks to the array -/

/-- What a flushing point leaves for its output block is the reference's aggregation on the block's rows. -/
theorem flushed1_apply (c : Dev nD) (t : Fin cfg1.N) (ht : t.val % 8 = 7) (x : S2048x32.Idx) (k : S16384x32.Idx)
    (hk0 : (k 0).val = 2048 * (t.val / 8) + (x 0).val) (hk1 : (k 1).val = (x 1).val) :
    k1_pay3 (acc1 V c t.val t.isLt) x = Cert.ReferenceIdeal.Layers.agg1 (V c main_arg1) (V c main_v1) k := by
  obtain ⟨p, q, rfl⟩ : ∃ (p : Fin 2048) (q : Fin 32), x = ix2 p q := ⟨x 0, x 1, eq_ix2 x⟩
  obtain ⟨r, q', rfl⟩ : ∃ (r : Fin 16384) (q' : Fin 32), k = ix2 r q' := ⟨k 0, k 1, eq_ix2 k⟩
  obtain rfl : q = q' := (Fin.ext hk1).symm
  rw [clamp1_apply, agg1_apply, scratch1_apply, ht]
  exact congrArg (max · 0) (blocks1_sum (V c main_arg1) (V c main_v1) (t.val / 8) p q r hk0)

/-- WHAT A FLUSHING POINT WRITES BACK is its block of the reference's aggregation of the region's input arrays. -/
theorem flushed1_eq (c : Dev nD) (t : Fin cfg1.N) (hf : (cfg1.win 2).flush t = true) :
    (dat1 V c).flushed 2 t
      = ((cfg1.win 2).blk t).view.read (Elt Ideal) (Cert.ReferenceIdeal.Layers.agg1 (V c main_arg1) (V c main_v1)) := by
  have ht : t.val % 8 = 7 := (flush1_2 t).mp hf
  have hlt : t.val < 64 := t.isLt
  obtain ⟨-, -, -, -, e0, e1⟩ := idx1 t
  show (cfg1.win 2).cut (grid1.coords t) ((dat1 V c).after 2 t) = _
  rw [after1_2]
  funext j
  rw [View.read_apply]
  refine flushed1_apply V c t ht _ _ ?_ ?_
  · show win1_2.index t (0 : Fin 2) * 2048 + 1 * (j 0).val = 2048 * (t.val / 8) + (j 0).val
    omega
  · show win1_2.index t (1 : Fin 2) * 32 + 1 * (j 1).val = (j 1).val
    omega

/-- An index of the output array is in point `t`'s block iff each coordinate is in the block's range on its axis. -/
theorem mem_blk1 (t : Fin cfg1.N) (i : S16384x32.Idx) :
    i ∈ ((cfg1.win 2).blk t).view.set ↔ ∀ a : Fin 2, win1_2.index t a * S2048x32.size a ≤ (i a).val ∧ (i a).val < win1_2.index t a * S2048x32.size a + S2048x32.size a := by
  show i ∈ ((View.whole main_v2).slice (win1_2.rect t)).set ↔ _
  rw [View.set_slice_whole, Rect.mem_set_unit]
  exact Iff.rfl

/-- Row `r` lies in the block flushed at the last point `8 (r / 2048) + 7` of its row block. -/
theorem cover1 (i : S16384x32.Idx) : ∃ t : Fin cfg1.N, (cfg1.win 2).flush t = true ∧ i ∈ ((cfg1.win 2).blk t).view.set := by
  have hi0 : (i 0).val < 16384 := (i 0).isLt
  have hi1 : (i 1).val < 32 := (i 1).isLt
  have hlt : 8 * ((i 0).val / 2048) + 7 < cfg1.N := by rw [points1]; omega
  refine ⟨⟨8 * ((i 0).val / 2048) + 7, hlt⟩, (flush1_2 _).mpr (by show (8 * ((i 0).val / 2048) + 7) % 8 = 7; omega), ?_⟩
  obtain ⟨-, -, -, -, e0, e1⟩ := idx1 ⟨8 * ((i 0).val / 2048) + 7, hlt⟩
  have e0' : win1_2.index ⟨8 * ((i 0).val / 2048) + 7, hlt⟩ (0 : Fin 2) = (8 * ((i 0).val / 2048) + 7) / 8 := e0
  rw [mem_blk1]
  intro a
  match a with
  | ⟨0, _⟩ =>
    show win1_2.index ⟨8 * ((i 0).val / 2048) + 7, hlt⟩ (0 : Fin 2) * 2048 ≤ (i 0).val ∧ (i 0).val < win1_2.index ⟨8 * ((i 0).val / 2048) + 7, hlt⟩ (0 : Fin 2) * 2048 + 2048
    omega
  | ⟨1, _⟩ =>
    show win1_2.index ⟨8 * ((i 0).val / 2048) + 7, hlt⟩ (1 : Fin 2) * 32 ≤ (i 1).val ∧ (i 1).val < win1_2.index ⟨8 * ((i 0).val / 2048) + 7, hlt⟩ (1 : Fin 2) * 32 + 32
    omega

/-- THE ARRAY after the region: the reference's first aggregation of the adjacency matrix and the features the region found. -/
theorem val1 (c : Dev nD) :
    (dat1 (F := Ideal) V c).arrAt 2 cfg1.N = Cert.ReferenceIdeal.Layers.agg1 (V c main_arg1) (V c main_v1) :=
  (dat1 V c).arrAt_eq_of_cover 2 (Cert.ReferenceIdeal.Layers.agg1 (V c main_arg1) (V c main_v1)) (flushed1_eq V c) cover1

end Cert.KernelIdeal.Val

end
-- ==== Proof.Val2.lean ====
/-
  The second linear layer's region, read as one array. Point `t` of its eight writes back rows `2048 t … 2048 t + 2047`
  of the output; the block it writes is, entry by entry, the row of the hidden activations against the column of the
  weights, summed over the 32 contracted positions, plus the bias row's entry in that column (the reshape of the row block
  to its own shape changes nothing). That is block `t` of the reference's `h · W₂ + r`, and the eight blocks tile the
  output's rows, so the array the region leaves is that term.
-/
import proofs.«123152_j43731357008092_1_alg».proof.Proof.KI.Lin2
import proofs.«123152_j43731357008092_1_alg».proof.Proof.Layers
import proofs.«123152_j43731357008092_1_alg».proof.Proof.LibPlainProduct
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm Idealize.ShloMosaic Idealize.ShloMosaic.ValueIdx Idealize.ShloMosaic.TcCoe Idealize.SL.Sem

variable (V : (c : Dev nD) → (b : Ref sig .tc) → Buf (Elt Ideal) ((c : Thread nD τ).loc b))

/-- The body's payload read at row `p`, column `q` of the block: the row of the activations block against the
    column of the weights, plus the bias row's entry in that column. -/
theorem pay2_apply (x0 : Vec Ideal S2048x32 .f32) (x1 : Vec Ideal S32x16 .f32) (x2 : Vec Ideal S1x16 .f32)
    (p : Fin 2048) (q : Fin 16) :
    k2_pay1 (F := Ideal) x0 x1 x2 (ix2 p q) = (∑ d : Fin 32, x0 (ix2 p d) * x1 (ix2 d q)) + x2 (ix2 (0 : Fin 1) q) := by
  unfold k2_pay1
  simp only [shapeCast_self]
  refine (addf_apply _ _ _).trans ?_
  refine congrArg₂ (· + ·) ?_ ?_
  · exact PlainProduct.matmul_zero_apply dot_S2048x32_S32x16_S2048x16_1_0_0_1_n_n rfl rfl (fun _ _ => rfl) (fun _ _ => rfl)
      (fun _ _ => rfl) (fun _ _ => rfl) none _ _ p q
  · exact broadcastTo_1b_ab_apply x2 _ p q

/-- The reference's second linear layer read at row `i`, column `q`. -/
theorem lin2row_apply (x : FVec Ideal Cert.ReferenceIdeal.S16384x32 .f32) (w : FVec Ideal Cert.ReferenceIdeal.S32x16 .f32)
    (r : FVec Ideal Cert.ReferenceIdeal.S1x16 .f32) (i : Fin 16384) (q : Fin 16) :
    Cert.ReferenceIdeal.Layers.lin2row x w r (ix2 i q) = (∑ d : Fin 32, x (ix2 i d) * w (ix2 d q)) + r (ix2 (0 : Fin 1) q) := by
  unfold Cert.ReferenceIdeal.Layers.lin2row
  refine (addf_apply _ _ _).trans ?_
  refine congrArg₂ (· + ·) ?_ ?_
  · exact PlainProduct.dotGeneral_apply Cert.ReferenceIdeal.dot_S16384x32_S32x16_S16384x16_1_0_0_1_n_n rfl rfl (fun _ _ => rfl) (fun _ _ => rfl)
      (fun _ _ => rfl) (fun _ _ => rfl) none x w i q
  · refine broadcastInDim_apply _ _ r (ix2 i q) (ix2 (0 : Fin 1) q) fun a => ?_
    match a with
    | ⟨0, _⟩ => show 0 = if (1 : Nat) = 1 then 0 else i.val; rw [if_pos rfl]
    | ⟨1, _⟩ => show q.val = if (16 : Nat) = 1 then 0 else q.val; rw [if_neg (by decide)]

/-- The zero offsets of a whole-block rectangle, as the constant function. -/
theorem zero_offsets2 : (![0, 0] : Fin 2 → Nat) = fun _ => 0 := funext fun a => by fin_cases a <;> rfl

/-- The printed index maps over the grid: the activations' and the output's row-block index is the point, every other
    block index is zero. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The activations block of point `t` is rows `2048 t …` of the array. -/
theorem iblk2_0_apply (c : Dev nD) (t : Fin cfg2.N) (p : Fin 2048) (d : Fin 32) (i : Fin 16384) (hi : i.val = 2048 * t.val + p.val) :
    (iblk2 V c 0 t : Vec Ideal S2048x32 .f32) (ix2 p d) = (V c main_v2 : S16384x32.Idx → EReal) (ix2 i d) := by
  obtain ⟨e0, e1, -⟩ := idx_facts2 t
  unfold iblk2
  rw [View.read_apply]
  show V c main_v2 _ = V c main_v2 _
  congr 1
  funext a
  apply Fin.ext
  match a with
  | ⟨0, _⟩ => show win2_0.index t (0 : Fin 2) * 2048 + 1 * p.val = i.val; omega
  | ⟨1, _⟩ => show win2_0.index t (1 : Fin 2) * 32 + 1 * d.val = d.val; omega

/-- The weights block of every point is the whole array. -/
theorem iblk2_1_apply (c : Dev nD) (t : Fin cfg2.N) (d : Fin 32) (q : Fin 16) :
    (iblk2 V c 1 t : Vec Ideal S32x16 .f32) (ix2 d q) = (V c main_arg4 : S32x16.Idx → EReal) (ix2 d q) := by
  obtain ⟨-, -, e2, e3, -⟩ := idx_facts2 t
  unfold iblk2
  rw [View.read_apply]
  show V c main_arg4 _ = V c main_arg4 _
  congr 1
  funext a
  apply Fin.ext
  match a with
  | ⟨0, _⟩ => show win2_1.index t (0 : Fin 2) * 32 + 1 * d.val = d.val; omega
  | ⟨1, _⟩ => show win2_1.index t (1 : Fin 2) * 16 + 1 * q.val = q.val; omega

/-- The bias block of every point is the whole row. -/
theorem iblk2_2_apply (c : Dev nD) (t : Fin cfg2.N) (z : Fin 1) (q : Fin 16) :
    (iblk2 V c 2 t : Vec Ideal S1x16 .f32) (ix2 z q) = (V c main_v3 : S1x16.Idx → EReal) (ix2 z q) := by
  obtain ⟨-, -, -, -, e4, e5, -⟩ := idx_facts2 t
  unfold iblk2
  rw [View.read_apply]
  show V c main_v3 _ = V c main_v3 _
  congr 1
  funext a
  apply Fin.ext
  match a with
  | ⟨0, _⟩ => show win2_2.index t (0 : Fin 2) * 1 + 1 * z.val = z.val; omega
  | ⟨1, _⟩ => show win2_2.index t (1 : Fin 2) * 16 + 1 * q.val = q.val; omega

/-- What point `t` writes back is block `t` of the reference's linear layer of the three arrays as the region finds them:
    at row `p`, column `q` of the block both are `Σ_d x[2048 t + p, d] · w[d, q] + r[0, q]`. -/
theorem flushed2_eq (c : Dev nD) (t : Fin cfg2.N) :
    (dat2 (F := Ideal) V c).flushed 3 t = ((cfg2.win 3).blk t).view.read (Elt Ideal)
      (Cert.ReferenceIdeal.Layers.lin2row (V c main_v2) (V c main_arg4) (V c main_v3)) := by
  show (cfg2.win 3).cut (grid2.coords t) ((dat2 (F := Ideal) V c).after 3 t) = _
  rw [after2_3]
  unfold out2_3
  rw [View.canon_unit_zero zero_offsets2]
  simp only [View.ld_unit_zero (S := S2048x32) zero_offsets2, View.ld_unit_zero (S := S32x16) zero_offsets2, View.ld_unit_zero (S := S1x16) zero_offsets2]
  obtain ⟨e0, e1, e2, e3, e4, e5, e6, e7⟩ := idx_facts2 t
  have ht : t.val < 8 := Nat.lt_of_lt_of_eq t.isLt N_2
  funext j
  obtain ⟨p, q, rfl⟩ : ∃ (p : Fin 2048) (q : Fin 16), j = ix2 p q := ⟨j 0, j 1, eq_ix2 j⟩
  show k2_pay1 (F := Ideal) (iblk2 V c 0 t) (iblk2 V c 1 t) (iblk2 V c 2 t) (ix2 p q)
    = Cert.ReferenceIdeal.Layers.lin2row (V c main_v2) (V c main_arg4) (V c main_v3) (((cfg2.win 3).blk t).view.emb (ix2 p q))
  refine (pay2_apply _ _ _ p q).trans ?_
  have hemb : ((cfg2.win 3).blk t).view.emb (ix2 p q) = ix2 (⟨2048 * t.val + p.val, by have := p.isLt; omega⟩ : Fin 16384) q := by
    funext a; apply Fin.ext
    match a with
    | ⟨0, _⟩ => show win2_3.index t (0 : Fin 2) * 2048 + 1 * p.val = 2048 * t.val + p.val; omega
    | ⟨1, _⟩ => show win2_3.index t (1 : Fin 2) * 16 + 1 * q.val = q.val; omega
  rw [hemb, lin2row_apply]
  refine congrArg₂ (· + ·) (Finset.sum_congr rfl fun d _ => congrArg₂ (· * ·) ?_ ?_) ?_
  · exact iblk2_0_apply V c t p d _ rfl
  · exact iblk2_1_apply V c t d q
  · exact iblk2_2_apply V c t 0 q

/-- An index of the output array is in point `t`'s block iff each coordinate is in the block's range on its axis. -/
theorem mem_blk2 (t : Fin cfg2.N) (i : S16384x16.Idx) :
    i ∈ ((cfg2.win 3).blk t).view.set ↔ ∀ a : Fin 2, win2_3.index t a * S2048x16.size a ≤ (i a).val
      ∧ (i a).val < win2_3.index t a * S2048x16.size a + S2048x16.size a := by
  show i ∈ ((View.whole main_v4).slice (win2_3.rect t)).set ↔ _
  rw [View.set_slice_whole, Rect.mem_set_unit]
  exact Iff.rfl

/-- Row `r` of the output array is in the block of point `r / 2048`. -/
theorem cover2 (i : S16384x16.Idx) : ∃ t : Fin cfg2.N, (cfg2.win 3).flush t = true ∧ i ∈ ((cfg2.win 3).blk t).view.set := by
  have hi0 : (i 0).val < 16384 := (i 0).isLt
  have hi1 : (i 1).val < 16 := (i 1).isLt
  have hN : cfg2.N = 8 := N_2
  obtain ⟨t, ht⟩ : ∃ t : Fin cfg2.N, t.val = (i 0).val / 2048 := ⟨⟨(i 0).val / 2048, by rw [hN]; omega⟩, rfl⟩
  obtain ⟨-, -, -, -, -, -, e6, e7⟩ := idx_facts2 t
  refine ⟨t, flush2_3 t, ?_⟩
  rw [mem_blk2]
  intro a
  match a with
  | ⟨0, _⟩ => show win2_3.index t (0 : Fin 2) * 2048 ≤ (i 0).val ∧ (i 0).val < win2_3.index t (0 : Fin 2) * 2048 + 2048; omega
  | ⟨1, _⟩ => show win2_3.index t (1 : Fin 2) * 16 ≤ (i 1).val ∧ (i 1).val < win2_3.index t (1 : Fin 2) * 16 + 16; omega

/-- **The output array after the region** is the reference's second linear layer of the three input arrays. -/
theorem val2 (c : Dev nD) : (dat2 (F := Ideal) V c).arrAt 3 cfg2.N
    = Cert.ReferenceIdeal.Layers.lin2row (V c main_v2) (V c main_arg4) (V c main_v3) :=
  (dat2 (F := Ideal) V c).arrAt_eq_of_cover 3 _ (fun t _ => flushed2_eq V c t) cover2

end Cert.KernelIdeal.Val

end
-- ==== Proof.Val3.lean ====
/-
  The second aggregation region computes the reference's second aggregation.

  The same walk as the first aggregation region, over 16 feature columns and with no clamp: point `8 i + k` of the 8 × 8
  grid adds the product of block `(i, k)` of the adjacency matrix with row block `k` of the 16384 × 16 features onto a
  carried 2048 × 16 scratch that point `8 i` first resets to zero; after point `8 i + 7` the scratch holds the whole sum
  over the 16384 columns, and that point writes it back as rows `2048 i …` of `A · t`. Every row lies in exactly such a
  block, so the output array ends holding `A · t`.
-/
import proofs.«123152_j43731357008092_1_alg».proof.Proof.KI.Acc3
import proofs.«123152_j43731357008092_1_alg».proof.Proof.Val1
import proofs.«123152_j43731357008092_1_alg».proof.Proof.Layers
import proofs.«123152_j43731357008092_1_alg».proof.Proof.LibPlainProduct
import proofs.«123152_j43731357008092_1_alg».proof.Proof.ValBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.ValueIdx Idealize.ShloMosaic.TcCoe Idealize.SL.Sem

variable (V : (c : Dev nD) → (b : Ref sig .tc) → Buf (Elt Ideal) ((c : Thread nD τ).loc b))

/-! ## The two payloads at an index -/

/-- The reset value of the scratch is zero everywhere. -/
theorem zeros3_apply (p : Fin 2048) (q : Fin 16) : k3_pay1 (F := Ideal) (ix2 p q) = 0 := by
  unfold k3_pay1
  rw [shapeCast_self]
  exact Ideal.ofBits_zero_f32

/-- One accumulation step: the scratch plus the product of the two loaded blocks, entry by entry. -/
theorem step3_apply (x : Vec Ideal S2048x2048 .f32) (y : Vec Ideal S2048x16 .f32) (z : Vec Ideal S2048x16 .f32)
    (p : Fin 2048) (q : Fin 16) :
    k3_pay2 x y z (ix2 p q) = z (ix2 p q) + ∑ d : Fin 2048, x (ix2 p d) * y (ix2 d q) := by
  unfold k3_pay2
  rw [shapeCast_self, shapeCast_self, addf_apply]
  refine congrArg (z (ix2 p q) + ·) ?_
  exact PlainProduct.matmul_zero_apply dot_S2048x2048_S2048x16_S2048x16_1_0_0_1_n_n rfl rfl (fun _ _ => rfl) (fun _ _ => rfl)
    (fun _ _ => rfl) (fun _ _ => rfl) none _ _ p q

/-! ## The windows' blocks as parts of the arrays -/

/-- The grid has 64 points. -/
theorem points3 : cfg3.N = 64 := rfl

/-- The printed index maps, decided over the grid: point `t = 8 i + k` reads block `(i, k)` of the adjacency matrix and
    row block `k` of the features, and its output block is row block `i`. -/
theorem idx3 : ∀ t : Fin cfg3.N, win3_0.index t (0 : Fin 2) = t.val / 8 ∧ win3_0.index t (1 : Fin 2) = t.val % 8
    ∧ win3_1.index t (0 : Fin 2) = t.val % 8 ∧ win3_1.index t (1 : Fin 2) = 0
    ∧ win3_2.index t (0 : Fin 2) = t.val / 8 ∧ win3_2.index t (1 : Fin 2) = 0 :=
  (by decide +kernel : ∀ t : Fin grid3.N, _)

/-- The adjacency block loaded at point `t`. -/
theorem adj3_apply (c : Dev nD) (t : Fin cfg3.N) (p d : Fin 2048) :
    (iblk3 V c 0 t : Vec Ideal S2048x2048 .f32) (ix2 p d)
      = at2 (V c main_arg1) (2048 * (t.val / 8) + p.val) (2048 * (t.val % 8) + d.val) := by
  have ht : t.val < 64 := t.isLt
  obtain ⟨e0, e1, -⟩ := idx3 t
  unfold at2
  rw [dif_pos ⟨by omega, by omega⟩]
  unfold iblk3
  rw [View.read_apply]
  show V c main_arg1 _ = V c main_arg1 _
  congr 1
  funext a
  apply Fin.ext
  match a with
  | ⟨0, _⟩ => show win3_0.index t (0 : Fin 2) * 2048 + 1 * p.val = 2048 * (t.val / 8) + p.val; omega
  | ⟨1, _⟩ => show win3_0.index t (1 : Fin 2) * 2048 + 1 * d.val = 2048 * (t.val % 8) + d.val; omega

/-- The feature rows loaded at point `t`. -/
theorem rows3_apply (c : Dev nD) (t : Fin cfg3.N) (d : Fin 2048) (q : Fin 16) :
    (iblk3 V c 1 t : Vec Ideal S2048x16 .f32) (ix2 d q) = at2 (V c main_v4) (2048 * (t.val % 8) + d.val) q.val := by
  have ht : t.val < 64 := t.isLt
  obtain ⟨-, -, e0, e1, -⟩ := idx3 t
  unfold at2
  rw [dif_pos ⟨by omega, q.isLt⟩]
  unfold iblk3
  rw [View.read_apply]
  show V c main_v4 _ = V c main_v4 _
  congr 1
  funext a
  apply Fin.ext
  match a with
  | ⟨0, _⟩ => show win3_1.index t (0 : Fin 2) * 2048 + 1 * d.val = 2048 * (t.val % 8) + d.val; omega
  | ⟨1, _⟩ => show win3_1.index t (1 : Fin 2) * 16 + 1 * q.val = q.val; omega

/-! ## The scratch after each point -/

/-- The recursion of the carried scratch, as its two equations. -/
theorem scratch3_zero (c : Dev nD) (h : 0 < cfg3.N) :
    acc3 V c 0 h = k3_pay2 (iblk3 V c 0 ⟨0, h⟩) (iblk3 V c 1 ⟨0, h⟩) (k3_pay1 (F := Ideal)) := by
  rw [acc3]

theorem scratch3_succ (c : Dev nD) (n : ℕ) (h : n + 1 < cfg3.N) :
    acc3 V c (n + 1) h = if (n + 1) % 8 = 0 then k3_pay2 (iblk3 V c 0 ⟨n + 1, h⟩) (iblk3 V c 1 ⟨n + 1, h⟩) (k3_pay1 (F := Ideal))
      else k3_pay2 (iblk3 V c 0 ⟨n + 1, h⟩) (iblk3 V c 1 ⟨n + 1, h⟩) (acc3 V c n (Nat.lt_of_succ_lt h)) := by
  rw [acc3]

/-- The product of block `(i, k)` of the adjacency matrix `a` with row block `k` of the features `x`, at entry `(p, q)`. -/
def blockTerm3 (a : FVec Ideal S16384x16384 .f32) (x : FVec Ideal S16384x16 .f32) (i : ℕ) (p : Fin 2048) (q : Fin 16) (k : ℕ) : EReal :=
  ∑ d : Fin 2048, at2 a (2048 * i + p.val) (2048 * k + d.val) * at2 x (2048 * k + d.val) q.val

/-- The product of two loaded blocks that ARE block `(i, k)` of `a` and row block `k` of `x` is that block term. -/
theorem product_blocks3 (a : FVec Ideal S16384x16384 .f32) (x : FVec Ideal S16384x16 .f32)
    (X : Vec Ideal S2048x2048 .f32) (Y : Vec Ideal S2048x16 .f32) (i k : ℕ)
    (hX : ∀ p d : Fin 2048, X (ix2 p d) = at2 a (2048 * i + p.val) (2048 * k + d.val))
    (hY : ∀ (d : Fin 2048) (q : Fin 16), Y (ix2 d q) = at2 x (2048 * k + d.val) q.val) (p : Fin 2048) (q : Fin 16) :
    ∑ d : Fin 2048, X (ix2 p d) * Y (ix2 d q) = blockTerm3 a x i p q k :=
  Finset.sum_congr rfl fun d _ => by rw [hX, hY]

/-- THE INVARIANT: after point `n = 8 i + k` the scratch holds, at `(p, q)`, the block terms of row block `i` summed
    over the column blocks `0 … k`. The point `8 i` starts from zero; every other point adds one block term. -/
theorem scratch3_apply (c : Dev nD) : ∀ (n : ℕ) (h : n < cfg3.N) (p : Fin 2048) (q : Fin 16),
    acc3 V c n h (ix2 p q) = ∑ k ∈ Finset.range (n % 8 + 1), blockTerm3 (V c main_arg1) (V c main_v4) (n / 8) p q k
  | 0, h, p, q => by
    rw [scratch3_zero, step3_apply, zeros3_apply, zero_add]
    exact (product_blocks3 (V c main_arg1) (V c main_v4) _ _ _ _ (adj3_apply V c ⟨0, h⟩) (rows3_apply V c ⟨0, h⟩) p q).trans
      (Finset.sum_range_one _).symm
  | n + 1, h, p, q => by
    rw [scratch3_succ]
    by_cases h0 : (n + 1) % 8 = 0
    · rw [if_pos h0, step3_apply, zeros3_apply, zero_add]
      refine (product_blocks3 (V c main_arg1) (V c main_v4) _ _ _ _ (adj3_apply V c ⟨n + 1, h⟩) (rows3_apply V c ⟨n + 1, h⟩) p q).trans ?_
      show blockTerm3 (V c main_arg1) (V c main_v4) ((n + 1) / 8) p q ((n + 1) % 8) = _
      rw [h0]
      exact (Finset.sum_range_one _).symm
    · rw [if_neg h0, step3_apply, scratch3_apply c n (Nat.lt_of_succ_lt h) p q]
      rw [product_blocks3 (V c main_arg1) (V c main_v4) _ _ _ _ (adj3_apply V c ⟨n + 1, h⟩) (rows3_apply V c ⟨n + 1, h⟩) p q]
      show _ + blockTerm3 (V c main_arg1) (V c main_v4) ((n + 1) / 8) p q ((n + 1) % 8) = _
      have e1 : (n + 1) / 8 = n / 8 := by omega
      have e2 : (n + 1) % 8 = n % 8 + 1 := by omega
      rw [e1, e2, Finset.sum_range_succ _ (n % 8 + 1)]

/-! ## The whole row of the product -/

/-- The eight block terms of a row block are the one sum over the 16384 columns. -/
theorem blocks3_sum (a : FVec Ideal S16384x16384 .f32) (x : FVec Ideal S16384x16 .f32) (i : ℕ) (p : Fin 2048) (q : Fin 16)
    (r : Fin 16384) (hr : r.val = 2048 * i + p.val) :
    ∑ k ∈ Finset.range 8, blockTerm3 a x i p q k = ∑ e : Fin 16384, a (ix2 r e) * x (ix2 e q) := by
  unfold blockTerm3
  rw [Cert.BlockSum.sum_blocks_fin_of_eq (fun e => at2 a (2048 * i + p.val) e * at2 x e q.val) 8 2048 16384 rfl]
  refine Finset.sum_congr rfl fun e _ => ?_
  rw [← hr, at2_of_lt, at2_of_lt]

/-! ## The reference's aggregation at an index -/

/-- The reference's product record contracts the adjacency matrix's second axis with the features' first one: the
    operand indices at output index `j` and contraction index `k`, axis by axis. -/
theorem refdot3_l0 (j : S16384x16.Idx) (k : Cert.ReferenceIdeal.dot_S16384x16384_S16384x16_S16384x16_1_0_0_1_n_n.contr.Idx) :
    (Cert.ReferenceIdeal.dot_S16384x16384_S16384x16_S16384x16_1_0_0_1_n_n.lhsIdx j k 0).val = (j 0).val := by
  unfold DotDims.lhsIdx
  rw [dif_neg (show ¬(0 : Fin S16384x16384.rank) ∈ Cert.ReferenceIdeal.dot_S16384x16384_S16384x16_S16384x16_1_0_0_1_n_n.lhsBatch by decide),
    dif_pos (show (0 : Fin S16384x16384.rank) ∈ Cert.ReferenceIdeal.dot_S16384x16384_S16384x16_S16384x16_1_0_0_1_n_n.lhsNonContracting by decide)]
  rfl

theorem refdot3_l1 (j : S16384x16.Idx) (k : Cert.ReferenceIdeal.dot_S16384x16384_S16384x16_S16384x16_1_0_0_1_n_n.contr.Idx) :
    (Cert.ReferenceIdeal.dot_S16384x16384_S16384x16_S16384x16_1_0_0_1_n_n.lhsIdx j k 1).val = (k ⟨0, by decide⟩).val :=
  Cert.ReferenceIdeal.dot_S16384x16384_S16384x16_S16384x16_1_0_0_1_n_n.lhsIdx_val_of_single rfl j k

theorem refdot3_r0 (j : S16384x16.Idx) (k : Cert.ReferenceIdeal.dot_S16384x16384_S16384x16_S16384x16_1_0_0_1_n_n.contr.Idx) :
    (Cert.ReferenceIdeal.dot_S16384x16384_S16384x16_S16384x16_1_0_0_1_n_n.rhsIdx j k 0).val = (k ⟨0, by decide⟩).val :=
  Cert.ReferenceIdeal.dot_S16384x16384_S16384x16_S16384x16_1_0_0_1_n_n.rhsIdx_val_of_single rfl j k

theorem refdot3_r1 (j : S16384x16.Idx) (k : Cert.ReferenceIdeal.dot_S16384x16384_S16384x16_S16384x16_1_0_0_1_n_n.contr.Idx) :
    (Cert.ReferenceIdeal.dot_S16384x16384_S16384x16_S16384x16_1_0_0_1_n_n.rhsIdx j k 1).val = (j 1).val := by
  unfold DotDims.rhsIdx
  rw [dif_neg (show ¬(1 : Fin S16384x16.rank) ∈ Cert.ReferenceIdeal.dot_S16384x16384_S16384x16_S16384x16_1_0_0_1_n_n.rhsBatch by decide),
    dif_pos (show (1 : Fin S16384x16.rank) ∈ Cert.ReferenceIdeal.dot_S16384x16384_S16384x16_S16384x16_1_0_0_1_n_n.rhsNonContracting by decide)]
  rfl

/-- The reference's second aggregation at an index: the row of the product. -/
theorem agg2_apply (a : FVec Ideal S16384x16384 .f32) (x : FVec Ideal S16384x16 .f32) (r : Fin 16384) (q : Fin 16) :
    Cert.ReferenceIdeal.Layers.agg2 a x (ix2 r q) = ∑ e : Fin 16384, a (ix2 r e) * x (ix2 e q) := by
  unfold Cert.ReferenceIdeal.Layers.agg2
  exact PlainProduct.dotGeneral_apply Cert.ReferenceIdeal.dot_S16384x16384_S16384x16_S16384x16_1_0_0_1_n_n rfl rfl
    refdot3_l0 refdot3_l1 refdot3_r0 refdot3_r1 none a x r q

/-! ## From the flushed blocks to the array -/

/-- What a flushing point leaves for its output block is the reference's aggregation on the block's rows. -/
theorem flushed3_apply (c : Dev nD) (t : Fin cfg3.N) (ht : t.val % 8 = 7) (x : S2048x16.Idx) (k : S16384x16.Idx)
    (hk0 : (k 0).val = 2048 * (t.val / 8) + (x 0).val) (hk1 : (k 1).val = (x 1).val) :
    acc3 V c t.val t.isLt x = Cert.ReferenceIdeal.Layers.agg2 (V c main_arg1) (V c main_v4) k := by
  obtain ⟨p, q, rfl⟩ : ∃ (p : Fin 2048) (q : Fin 16), x = ix2 p q := ⟨x 0, x 1, eq_ix2 x⟩
  obtain ⟨r, q', rfl⟩ : ∃ (r : Fin 16384) (q' : Fin 16), k = ix2 r q' := ⟨k 0, k 1, eq_ix2 k⟩
  obtain rfl : q = q' := (Fin.ext hk1).symm
  rw [agg2_apply, scratch3_apply, ht]
  exact blocks3_sum (V c main_arg1) (V c main_v4) (t.val / 8) p q r hk0

/-- WHAT A FLUSHING POINT WRITES BACK is its block of the reference's aggregation of the region's input arrays. -/
theorem flushed3_eq (c : Dev nD) (t : Fin cfg3.N) (hf : (cfg3.win 2).flush t = true) :
    (dat3 V c).flushed 2 t
      = ((cfg3.win 2).blk t).view.read (Elt Ideal) (Cert.ReferenceIdeal.Layers.agg2 (V c main_arg1) (V c main_v4)) := by
  have ht : t.val % 8 = 7 := (flush3_2 t).mp hf
  have hlt : t.val < 64 := t.isLt
  obtain ⟨-, -, -, -, e0, e1⟩ := idx3 t
  show (cfg3.win 2).cut (grid3.coords t) ((dat3 V c).after 2 t) = _
  rw [after3_2]
  funext j
  rw [View.read_apply]
  refine flushed3_apply V c t ht _ _ ?_ ?_
  · show win3_2.index t (0 : Fin 2) * 2048 + 1 * (j 0).val = 2048 * (t.val / 8) + (j 0).val
    omega
  · show win3_2.index t (1 : Fin 2) * 16 + 1 * (j 1).val = (j 1).val
    omega

/-- An index of the output array is in point `t`'s block iff each coordinate is in the block's range on its axis. -/
theorem mem_blk3 (t : Fin cfg3.N) (i : S16384x16.Idx) :
    i ∈ ((cfg3.win 2).blk t).view.set ↔ ∀ a : Fin 2, win3_2.index t a * S2048x16.size a ≤ (i a).val ∧ (i a).val < win3_2.index t a * S2048x16.size a + S2048x16.size a := by
  show i ∈ ((View.whole main_v5).slice (win3_2.rect t)).set ↔ _
  rw [View.set_slice_whole, Rect.mem_set_unit]
  exact Iff.rfl

/-- Row `r` lies in the block flushed at the last point `8 (r / 2048) + 7` of its row block. -/
theorem cover3 (i : S16384x16.Idx) : ∃ t : Fin cfg3.N, (cfg3.win 2).flush t = true ∧ i ∈ ((cfg3.win 2).blk t).view.set := by
  have hi0 : (i 0).val < 16384 := (i 0).isLt
  have hi1 : (i 1).val < 16 := (i 1).isLt
  have hlt : 8 * ((i 0).val / 2048) + 7 < cfg3.N := by rw [points3]; omega
  refine ⟨⟨8 * ((i 0).val / 2048) + 7, hlt⟩, (flush3_2 _).mpr (by show (8 * ((i 0).val / 2048) + 7) % 8 = 7; omega), ?_⟩
  obtain ⟨-, -, -, -, e0, e1⟩ := idx3 ⟨8 * ((i 0).val / 2048) + 7, hlt⟩
  have e0' : win3_2.index ⟨8 * ((i 0).val / 2048) + 7, hlt⟩ (0 : Fin 2) = (8 * ((i 0).val / 2048) + 7) / 8 := e0
  rw [mem_blk3]
  intro a
  match a with
  | ⟨0, _⟩ =>
    show win3_2.index ⟨8 * ((i 0).val / 2048) + 7, hlt⟩ (0 : Fin 2) * 2048 ≤ (i 0).val ∧ (i 0).val < win3_2.index ⟨8 * ((i 0).val / 2048) + 7, hlt⟩ (0 : Fin 2) * 2048 + 2048
    omega
  | ⟨1, _⟩ =>
    show win3_2.index ⟨8 * ((i 0).val / 2048) + 7, hlt⟩ (1 : Fin 2) * 16 ≤ (i 1).val ∧ (i 1).val < win3_2.index ⟨8 * ((i 0).val / 2048) + 7, hlt⟩ (1 : Fin 2) * 16 + 16
    omega

/-- THE ARRAY after the region: the reference's second aggregation of the adjacency matrix and the features the region found. -/
theorem val3 (c : Dev nD) :
    (dat3 (F := Ideal) V c).arrAt 2 cfg3.N = Cert.ReferenceIdeal.Layers.agg2 (V c main_arg1) (V c main_v4) :=
  (dat3 V c).arrAt_eq_of_cover 2 (Cert.ReferenceIdeal.Layers.agg2 (V c main_arg1) (V c main_v4)) (flushed3_eq V c) cover3

end Cert.KernelIdeal.Val

end
-- ==== Proof.Bias.lean ====
/-
  A vector of `n` entries made a `[1, n]` row: reshaping it and broadcasting it along a new leading unit axis are the
  same function, entry `(0, j)` of the row being entry `j` of the vector either way.
-/
import Idealize.ShloMosaic.Lib.Pipeline.Value

noncomputable section

namespace Idealize.ShloMosaic.RowOfVec

open Idealize.ShloMosaic

theorem shapeCast_eq_broadcastInDim {α : Type} {n : Nat} (hn : n ≠ 1) (b : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ b hc = broadcastInDim ⟨2, ![1, n]⟩ ![1] hb b := by
  funext j
  refine (shapeCast_addUnit_apply ![n] b hc j).trans (broadcastInDim_apply ![1] hb b j (fun a => j a.succ) ?_).symm
  intro a
  match a with
  | ⟨0, _⟩ =>
    show (j 1).val = if n = 1 then 0 else (j 1).val
    rw [if_neg hn]

end Idealize.ShloMosaic.RowOfVec

end
-- ==== Proof.Whole.lean ====
/-
  The idealized kernel's result is the reference's function of the arguments.

  After the launch every buffer holds the last boundary's contents of the fold through @main. Reading the result array
  back through that fold, region by region from the last: the second aggregation is `A · t₂` of what region 2 left, that
  is the second linear layer of what region 1 left, that is the clamped aggregation of what region 0 left, that is the
  first linear layer of the arguments, the bias vector entering as a `[1, n]` row either by a reshape or by a broadcast.
-/
import proofs.«123152_j43731357008092_1_alg».proof.Proof.KI.Run
import proofs.«123152_j43731357008092_1_alg».proof.Proof.Val0
import proofs.«123152_j43731357008092_1_alg».proof.Proof.Val1
import proofs.«123152_j43731357008092_1_alg».proof.Proof.Val2
import proofs.«123152_j43731357008092_1_alg».proof.Proof.Val3
import proofs.«123152_j43731357008092_1_alg».proof.Proof.Layers
import proofs.«123152_j43731357008092_1_alg».proof.Proof.Bias

set_option maxRecDepth 16384

noncomputable section

namespace Cert.KernelIdeal.Whole

open Cert.KernelIdeal Cert.KernelIdeal.Gen Cert.KernelIdeal.Frm Cert.KernelIdeal.Val
open Idealize.ShloMosaic Idealize.ShloMosaic.TcCoe Idealize.SL.Sem
open Cert.ReferenceIdeal.Layers

variable (m : (ℓ : Loc nD τ sig) → Buf (Elt Ideal) ℓ) (ρ : Dev nD → PrngReg)

/-- The result array after the run is the four layers composed, of the launch contents of the six arguments. -/
theorem result_eq (c : Dev nD) :
    W6 m ρ c (Proc.devRef .tc main_v5)
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [W6_out, val3, V5_arg1, V5_v4, val2, V4_v2, V4_arg4, V4_v3, val1, V2_arg1, V2_v1, val0, V1_arg0, V1_arg2, V1_v0]
  unfold net lin1 lin2
  rw [RowOfVec.shapeCast_eq_broadcastInDim (n := 32) (by decide) _ shapeCasts_S32_S1x32 Cert.ReferenceIdeal.Gen.bcast_S32_S1x32_1,
    RowOfVec.shapeCast_eq_broadcastInDim (n := 16) (by decide) _ shapeCasts_S16_S1x16 Cert.ReferenceIdeal.Gen.bcast_S16_S1x16_1]

end Cert.KernelIdeal.Whole

end
-- ==== Proof.lean ====
/-
  A two-layer graph convolution, `A · (max (A · (x · W₁ + b₁), 0) · W₂ + b₂)`, as four pipelined kernel regions against
  its plain reference.

  The kernel computes each linear layer in row blocks of 2048 and each product with the 16384 × 16384 adjacency matrix
  `A` in 2048 × 2048 blocks, adding the eight blocks of a row block's contraction into a scratch that is zeroed at the
  first and written out (clamped at zero in the first layer) at the last. Over the extended reals the casts to the
  narrower format are the identity and a sum may be regrouped freely, so each region's output array is exactly the
  reference's layer of the region's inputs, and the four compose to the reference's result: the two programs agree at
  every input, and the precondition is never opened.

  The frames: one launch of the four regions gives, for either reading of the floats, termination without a fault and
  every buffer at the end of the fold of contents through @main, in which no argument is ever written. The reference
  is host operations only; its frame is its run with the result dropped. The ideal pass rewrote nothing, so there is
  nothing to preserve.
-/
import proofs.«123152_j43731357008092_1_alg».proof.Defs
import proofs.«123152_j43731357008092_1_alg».proof.Proof.Gen.Kernel
import proofs.«123152_j43731357008092_1_alg».proof.Proof.Gen.KernelIdeal
import proofs.«123152_j43731357008092_1_alg».proof.Proof.Gen.ReferenceIdeal
import proofs.«123152_j43731357008092_1_alg».proof.Proof.Gen.Pre_finite_inputs
import proofs.«123152_j43731357008092_1_alg».proof.Proof.K.Run
import proofs.«123152_j43731357008092_1_alg».proof.Proof.KI.Run
import proofs.«123152_j43731357008092_1_alg».proof.Proof.Whole
import proofs.«123152_j43731357008092_1_alg».proof.Proof.Layers
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frm.frame m ρ

theorem frame_ki : Cert.frame_KernelIdeal := fun m ρ _ => Cert.KernelIdeal.Frm.frame m ρ

theorem frame_ri : Cert.frame_ReferenceIdeal := fun m ρ _ =>
  (θ_run Cert.ReferenceIdeal.defs _ _).mono (fun _ h c => (h c).2) (Cert.ReferenceIdeal.Layers.run m ρ)

/-- Both programs end with the four layers composed, of arguments that agree. -/
theorem algebraic : Cert.algebraic_KernelIdeal_ReferenceIdeal := by
  intro m ρ m' ρ' _ hagree
  open Cert.KernelIdeal Cert.KernelIdeal.Gen Cert.KernelIdeal.Frm in
  refine ⟨fun c => Cert.ReferenceIdeal.Layers.net (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)), ?_, ?_⟩
  · open Cert.KernelIdeal Cert.KernelIdeal.Gen Cert.KernelIdeal.Frm in
    exact (θ_run Cert.KernelIdeal.defs _ _).mono (fun r h c =>
      ⟨(h c _ (mem_uc main_v5 (by decide))).trans (Cert.KernelIdeal.Whole.result_eq m ρ c),
        (h c _ (mem_uc main_arg0 (by decide))).trans (W6_main_arg0 m ρ c),
        (h c _ (mem_uc main_arg1 (by decide))).trans (W6_main_arg1 m ρ c),
        (h c _ (mem_uc main_arg2 (by decide))).trans (W6_main_arg2 m ρ c),
        (h c _ (mem_uc main_arg3 (by decide))).trans (W6_main_arg3 m ρ c),
        (h c _ (mem_uc main_arg4 (by decide))).trans (W6_main_arg4 m ρ c),
        (h c _ (mem_uc main_arg5 (by decide))).trans (W6_main_arg5 m ρ c)⟩) (run_main m ρ)
  · refine (θ_run Cert.ReferenceIdeal.defs _ _).mono (fun r h c => ⟨(h c).1.trans ?_, (h c).2⟩)
      (Cert.ReferenceIdeal.Layers.run m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
